-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S16x32 : Shape := ⟨2, ![16, 32]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S16x32 .f32) (main_arg7 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S16x32 .f32 := Host.absf main_arg6
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x32 .f32) (main_arg3 : FVec F S32 .f32) (main_arg4 : FVec F S32x32 .f32) (main_arg5 : FVec F S32 .f32) (main_arg6 : FVec F S16x32 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S16x32 : Shape := ⟨2, ![16, 32]⟩
abbrev S16 : Shape := ⟨1, ![16]⟩
abbrev S1x32 : Shape := ⟨2, ![1, 32]⟩
abbrev S1x16 : Shape := ⟨2, ![1, 16]⟩
abbrev S10000x32 : Shape := ⟨2, ![10000, 32]⟩
abbrev S5000x32 : Shape := ⟨2, ![5000, 32]⟩
abbrev S200x10000 : Shape := ⟨2, ![200, 10000]⟩
abbrev S200x32 : Shape := ⟨2, ![200, 32]⟩
abbrev S25x200x32 : Shape := ⟨3, ![25, 200, 32]⟩
abbrev S25x400x32 : Shape := ⟨3, ![25, 400, 32]⟩
abbrev S5000x16 : Shape := ⟨2, ![5000, 16]⟩
abbrev S200x16 : Shape := ⟨2, ![200, 16]⟩
abbrev S200 : Shape := ⟨1, ![200]⟩
abbrev S200x1 : Shape := ⟨2, ![200, 1]⟩
abbrev S25x200x16 : Shape := ⟨3, ![25, 200, 16]⟩
abbrev S25x400x16 : Shape := ⟨3, ![25, 400, 16]⟩
abbrev S10000x16 : Shape := ⟨2, ![10000, 16]⟩

abbrev nBuf : Space → Nat
  | .hbm => 24
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S16x32, .f32⟩
  | .hbm, ⟨7, _⟩ => ⟨S16, .f32⟩
  | .hbm, ⟨8, _⟩ => ⟨S1x32, .f32⟩
  | .hbm, ⟨9, _⟩ => ⟨S1x32, .f32⟩
  | .hbm, ⟨10, _⟩ => ⟨S1x16, .f32⟩
  | .hbm, ⟨11, _⟩ => ⟨S10000x32, .f32⟩
  | .hbm, ⟨12, _⟩ => ⟨S5000x32, .f32⟩
  | .hbm, ⟨13, _⟩ => ⟨S5000x32, .f32⟩
  | .hbm, ⟨14, _⟩ => ⟨S25x200x32, .f32⟩
  | .hbm, ⟨15, _⟩ => ⟨S25x200x32, .f32⟩
  | .hbm, ⟨16, _⟩ => ⟨S25x400x32, .f32⟩
  | .hbm, ⟨17, _⟩ => ⟨S10000x32, .f32⟩
  | .hbm, ⟨18, _⟩ => ⟨S5000x16, .f32⟩
  | .hbm, ⟨19, _⟩ => ⟨S5000x16, .f32⟩
  | .hbm, ⟨20, _⟩ => ⟨S25x200x16, .f32⟩
  | .hbm, ⟨21, _⟩ => ⟨S25x200x16, .f32⟩
  | .hbm, ⟨22, _⟩ => ⟨S25x400x16, .f32⟩
  | .hbm, ⟨23, _⟩ => ⟨S10000x16, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S10000x32, .f32⟩
  | .local _ .vmem, ⟨8, _⟩ => ⟨S1x32, .f32⟩
  | .local _ .vmem, ⟨9, _⟩ => ⟨S32x32, .f32⟩
  | .local _ .vmem, ⟨10, _⟩ => ⟨S200x32, .f32⟩
  | .local _ .vmem, ⟨11, _⟩ => ⟨S200x32, .f32⟩
  | .local _ .vmem, ⟨12, _⟩ => ⟨S200x32, .f32⟩
  | .local _ .vmem, ⟨13, _⟩ => ⟨S200x32, .f32⟩
  | .local _ .vmem, ⟨14, _⟩ => ⟨S200x10000, .f32⟩
  | .local _ .vmem, ⟨15, _⟩ => ⟨S200x10000, .f32⟩
  | .local _ .vmem, ⟨16, _⟩ => ⟨S200x10000, .f32⟩
  | .local _ .vmem, ⟨17, _⟩ => ⟨S200x10000, .f32⟩
  | .local _ .vmem, ⟨18, _⟩ => ⟨S10000x32, .f32⟩
  | .local _ .vmem, ⟨19, _⟩ => ⟨S1x32, .f32⟩
  | .local _ .vmem, ⟨20, _⟩ => ⟨S16x32, .f32⟩
  | .local _ .vmem, ⟨21, _⟩ => ⟨S1x16, .f32⟩
  | .local _ .vmem, ⟨22, _⟩ => ⟨S200x16, .f32⟩
  | .local _ .vmem, ⟨23, _⟩ => ⟨S200x16, .f32⟩
  | .local _ .vmem, ⟨24, _⟩ => ⟨S200x16, .f32⟩
  | .local _ .vmem, ⟨25, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S200x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S200x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S200x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S200x10000_S200x10000_0_0 : ∀ a, (![0, 0] : Fin 2 → Nat) a + S200x10000.size a ≤ S200x10000.size a
  h_S200x10000 : 0 < S200x10000.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S200x32 : S1x32.Broadcasts S200x32
  inb_S32x32_S32x32_0_0 : ∀ a, (![0, 0] : Fin 2 → Nat) a + S32x32.size a ≤ S32x32.size a
  h_S32x32 : 0 < S32x32.numel
  inb_S200x32_S200x32_0_0 : ∀ a, (![0, 0] : Fin 2 → Nat) a + S200x32.size a ≤ S200x32.size a
  h_S200x32 : 0 < S200x32.numel
  shapeCasts_S5000x32_S25x200x32 : S5000x32.ShapeCasts S25x200x32
  concatenates_S25x200x32_S25x200x32_S25x400x32_d1 : Shape.Concatenates [S25x200x32, S25x200x32] S25x400x32 1
  shapeCasts_S25x400x32_S10000x32 : S25x400x32.ShapeCasts S10000x32
  inb_S16x32_S16x32_0_0 : ∀ a, (![0, 0] : Fin 2 → Nat) a + S16x32.size a ≤ S16x32.size a
  h_S16x32 : 0 < S16x32.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  reduces_S200x16_S200 : S200x16.Reduces [1] S200
  shapeCasts_S200_S200x1 : S200.ShapeCasts S200x1
  broadcasts_S200x1_S200x16 : S200x1.Broadcasts S200x16
  inb_S200x16_S200x16_0_0 : ∀ a, (![0, 0] : Fin 2 → Nat) a + S200x16.size a ≤ S200x16.size a
  h_S200x16 : 0 < S200x16.numel
  shapeCasts_S5000x16_S25x200x16 : S5000x16.ShapeCasts S25x200x16
  concatenates_S25x200x16_S25x200x16_S25x400x16_d1 : Shape.Concatenates [S25x200x16, S25x200x16] S25x400x16 1
  shapeCasts_S25x400x16_S10000x16 : S25x400x16.ShapeCasts S10000x16
  dot_S10000x128_S128x32_S10000x32_1_0_0_1_n_n_wf : DotDims.WF S10000x128 S128x32 S10000x32 [1] [0] [0] [1] [] []
  dot_S200x10000_S10000x32_S200x32_1_0_0_1_n_n_wf : DotDims.WF S200x10000 S10000x32 S200x32 [1] [0] [0] [1] [] []
  dot_S200x32_S32x32_S200x32_1_0_0_1_n_n_wf : DotDims.WF S200x32 S32x32 S200x32 [1] [0] [0] [1] [] []
  dot_S200x32_S16x32_S200x16_1_1_0_0_n_n_wf : DotDims.WF S200x32 S16x32 S200x16 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S10000x32.size a
  hwx1_2 : ∀ i : grid1.Coords, EltTy.bits .f32 = 32 ∨ (Rect.block (s := S10000x32) S10000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x32.size a ≤ S5000x32.size a
  hwx1_5 : ∀ i : grid1.Coords, EltTy.bits .f32 = 32 ∨ (Rect.block (s := S5000x32) S200x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x32.size a ≤ S5000x32.size a
  hwx1_6 : ∀ i : grid1.Coords, EltTy.bits .f32 = 32 ∨ (Rect.block (s := S5000x32) S200x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S10000x32.size a
  hwx2_2 : ∀ i : grid2.Coords, EltTy.bits .f32 = 32 ∨ (Rect.block (s := S10000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x32.size a ≤ S16x32.size a
  hwx2_4 : ∀ i : grid2.Coords, EltTy.bits .f32 = 32 ∨ (Rect.block (s := S16x32) S16x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S200x16.size a ≤ S5000x16.size a
  hwx2_6 : ∀ i : grid2.Coords, EltTy.bits .f32 = 32 ∨ (Rect.block (s := S5000x16) S200x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S200x16.size a ≤ S5000x16.size a
  hwx2_7 : ∀ i : grid2.Coords, EltTy.bits .f32 = 32 ∨ (Rect.block (s := S5000x16) S200x16.size (cc2_transform_7 i) (hinb2_7 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S200x32_S32x32_S200x32_1_0_0_1_n_n : DotDims S200x32 S32x32 S200x32 where
  lhsContracting := [1]
  rhsContracting := [0]
  lhsNonContracting := [0]
  rhsNonContracting := [1]
  lhsBatch := []
  rhsBatch := []
  wf := dot_S200x32_S32x32_S200x32_1_0_0_1_n_n_wf
def dot_S200x32_S16x32_S200x16_1_1_0_0_n_n : DotDims S200x32 S16x32 S200x16 where
  lhsContracting := [1]
  rhsContracting := [1]
  lhsNonContracting := [0]
  rhsNonContracting := [0]
  lhsBatch := []
  rhsBatch := []
  wf := dot_S200x32_S16x32_S200x16_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v3) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S10000x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_0) S200x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_1) S200x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S10000x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S16x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9_0) S200x16.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v9_1) S200x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S16x32 : Shape := ⟨2, ![16, 32]⟩
abbrev S16 : Shape := ⟨1, ![16]⟩
abbrev S10000x32 : Shape := ⟨2, ![10000, 32]⟩
abbrev S1x32 : Shape := ⟨2, ![1, 32]⟩
abbrev S_ : Shape := ⟨0, ![]⟩
abbrev S32x16 : Shape := ⟨2, ![32, 16]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S16x32, .f32⟩
  | .hbm, ⟨7, _⟩ => ⟨S16, .f32⟩
  | .hbm, ⟨8, _⟩ => ⟨S10000x32, .f32⟩
  | .hbm, ⟨9, _⟩ => ⟨S10000x32, .f32⟩
  | .hbm, ⟨10, _⟩ => ⟨S1x32, .f32⟩
  | .hbm, ⟨11, _⟩ => ⟨S10000x32, .f32⟩
  | .hbm, ⟨12, _⟩ => ⟨S10000x32, .f32⟩
  | .hbm, ⟨13, _⟩ => ⟨S_, .f32⟩
  | .hbm, ⟨14, _⟩ => ⟨S10000x32, .f32⟩
  | .hbm, ⟨15, _⟩ => ⟨S10000x32, .f32⟩
  | .hbm, ⟨16, _⟩ => ⟨S10000x32, .f32⟩
  | .hbm, ⟨17, _⟩ => ⟨S10000x32, .f32⟩
  | .hbm, ⟨18, _⟩ => ⟨S1x32, .f32⟩
  | .hbm, ⟨19, _⟩ => ⟨S10000x32, .f32⟩
  | .hbm, ⟨20, _⟩ => ⟨S10000x32, .f32⟩
  | .hbm, ⟨21, _⟩ => ⟨S32x16, .f32⟩
  | .hbm, ⟨22, _⟩ => ⟨S10000x16, .f32⟩
  | .hbm, ⟨23, _⟩ => ⟨S1x16, .f32⟩
  | .hbm, ⟨24, _⟩ => ⟨S10000x16, .f32⟩
  | .hbm, ⟨25, _⟩ => ⟨S10000x16, .f32⟩
  | .hbm, ⟨26, _⟩ => ⟨S_, .f32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x16, .f32⟩
  | .hbm, ⟨33, _⟩ => ⟨S10000x16, .f32⟩
  | .hbm, ⟨34, _⟩ => ⟨S10000x16, .f32⟩
  | .hbm, ⟨35, _⟩ => ⟨S_, .f32⟩
  | .hbm, ⟨36, _⟩ => ⟨S10000, .f32⟩
  | .hbm, ⟨37, _⟩ => ⟨S10000x1, .f32⟩
  | .hbm, ⟨38, _⟩ => ⟨S10000x1, .f32⟩
  | .hbm, ⟨39, _⟩ => ⟨S10000x16, .f32⟩
  | .hbm, ⟨40, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v16 : Ref sig .tc := ⟨.hbm, 40, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  transposes_S16x32_S32x16_1_0 : S16x32.Transposes [1, 0] S32x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []
  dot_S10000x32_S32x16_S10000x16_1_0_0_1_n_n_wf : DotDims.WF S10000x32 S32x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

class Facts : Prop extends Facts₀ where

variable [Facts]
-- ==== Proof.FrReg0.lean ====
/-
  The first pallas_call: one grid point, three whole-array windows. The body loads the feature matrix x (10000 × 128)
  and the weight W1 (128 × 32), multiplies them, and stores the product over the whole result window (10000 × 32).
  Stated at any contents `V` the unscoped buffers hold when the call is entered.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block whenever the body runs, for any proof data whose array
    is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each a whole buffer. -/
abbrev rx0 : Rect S10000x128 := Rect.unit (s := S10000x128) ![0, 0] S10000x128.size inb_S10000x128_S10000x128_0_0
abbrev rw0 : Rect S128x32 := Rect.unit (s := S128x32) ![0, 0] S128x32.size inb_S128x32_S128x32_0_0
abbrev ro0 : Rect S10000x32 := Rect.unit (s := S10000x32) ![0, 0] S10000x32.size inb_S10000x32_S10000x32_0_0

/-- What the body leaves in the result window's buffer: its one store, the product of the two loaded matrices. -/
def out0_2 (x0 : Vec F S10000x128 .f32) (x1 : Vec F S128x32 .f32) : Vec F S10000x32 .f32 :=
  View.canon [⟨ro0, k0_pay1 (View.ld x0 rx0) (View.ld x1 rw0)⟩]

/-- The one store covers the buffer. -/
theorem cover0_2 (p0 : Vec F S10000x32 .f32) (y : S10000x32.Idx) :
    ∃ pc ∈ ([⟨ro0, p0⟩] : List (View.Piece (Elt F) S10000x32 .f32)), y ∈ pc.1.set :=
  View.cover_of_tiled [⟨ro0, p0⟩] S10000x32.size (by rfl) y

set_option maxHeartbeats 1000000 in
/-- The body on whole staging buffers: the inputs' are left as read, the result's ends at `out0_2` of the inputs'. -/
theorem sound_kernel0 (c : Dev nD) (E : Set ℕ) (arg0 : Memref sig .tc .vmem S10000x128 .f32) (harg0 : arg0.IsWhole)
    (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__sx_kernel arg0 harg0 arg1 harg1 arg2 harg2) K := by
  simp only [cc0__sx_kernel_eq_skeleton]; unfold cc0__sx_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The call's proof data at entry contents `V`: the arrays as found; after the body each input buffer holds its block
    and the result buffer the product; nothing else is used or owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrReg1.lean ====
/-
  The second pallas_call: 25 grid points, seven windows. At point i the body reads two 200-row blocks of the adjacency
  (row blocks 2i and 2i + 1, through two windows over the one array), the whole first support s1, the bias row b1 and
  the weight W2, and stores relu(a · s1 + b1) · W2 for each row block into its own result window (block i of each).
  Stated at any contents `V` the unscoped buffers hold when the call is entered.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block whenever the body runs (fetched at that point or kept
    from an earlier one: the block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each a whole staging buffer. -/
abbrev r1_S200x10000 : Rect S200x10000 := Rect.unit (s := S200x10000) ![0, 0] S200x10000.size inb_S200x10000_S200x10000_0_0
abbrev r1_S10000x32 : Rect S10000x32 := Rect.unit (s := S10000x32) ![0, 0] S10000x32.size inb_S10000x32_S10000x32_0_0
abbrev r1_S1x32 : Rect S1x32 := Rect.unit (s := S1x32) ![0, 0] S1x32.size inb_S1x32_S1x32_0_0
abbrev r1_S32x32 : Rect S32x32 := Rect.unit (s := S32x32) ![0, 0] S32x32.size inb_S32x32_S32x32_0_0
abbrev r1_S200x32 : Rect S200x32 := Rect.unit (s := S200x32) ![0, 0] S200x32.size inb_S200x32_S200x32_0_0

/-- What the body leaves in the first result window's buffer: its store for the even row block, relu(a0 · s1 + b1) · W2. -/
def out1_5 (x0 : Vec F S200x10000 .f32) (x2 : Vec F S10000x32 .f32) (x3 : Vec F S1x32 .f32) (x4 : Vec F S32x32 .f32) : Vec F S200x32 .f32 :=
  View.canon [⟨r1_S200x32, k1_pay2 (View.ld x2 r1_S10000x32) (View.ld x0 r1_S200x10000) (View.ld x3 r1_S1x32) (View.ld x4 r1_S32x32)⟩]

/-- What the body leaves in the second result window's buffer: its store for the odd row block, relu(a1 · s1 + b1) · W2. -/
def out1_6 (x1 : Vec F S200x10000 .f32) (x2 : Vec F S10000x32 .f32) (x3 : Vec F S1x32 .f32) (x4 : Vec F S32x32 .f32) : Vec F S200x32 .f32 :=
  View.canon [⟨r1_S200x32, k1_pay3 (View.ld x2 r1_S10000x32) (View.ld x1 r1_S200x10000) (View.ld x3 r1_S1x32) (View.ld x4 r1_S32x32)⟩]

/-- One store over the whole buffer covers it. -/
theorem cover1_S200x32 (p0 : Vec F S200x32 .f32) (y : S200x32.Idx) :
    ∃ pc ∈ ([⟨r1_S200x32, p0⟩] : List (View.Piece (Elt F) S200x32 .f32)), y ∈ pc.1.set :=
  View.cover_of_tiled [⟨r1_S200x32, p0⟩] S200x32.size (by rfl) y

set_option maxHeartbeats 1000000 in
/-- The body on whole staging buffers: each input's is left as read, each result's ends at its `out1_w` of the inputs'. -/
theorem sound_kernel1 (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S10000x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S200x32 .f32) (harg6 : arg6.IsWhole) (arg7 : Memref sig .tc .vmem S200x32 .f32) (harg7 : arg7.IsWhole)
    (x0 : Vec F S200x10000 .f32) (x1 : Vec F S200x10000 .f32) (x2 : Vec F S10000x32 .f32) (x3 : Vec F S1x32 .f32) (x4 : Vec F S32x32 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x2 x3 x4)
            ∗ owns (c : Thread nD τ) arg7 fullShare (out1_6 x1 x2 x3 x4)) -∗ K ⟨⟩))
      ⊢ wp frame (wpE (defs₀ (F := F)) Variants.none c none) E (cc1__pass1_kernel i arg1 harg1 arg2 harg2 arg3 harg3 arg4 harg4 arg5 harg5 arg6 harg6 arg7 harg7) K := by
  simp only [cc1__pass1_kernel_eq_skeleton]; unfold cc1__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_S200x32 _)
  iexists _; isplitr
  swap; · iexact H7
  ipureintro
  exact View.read_writes_eq_canon _ _ _ (cover1_S200x32 _)

/-- The call's proof data at entry contents `V`: the arrays as found; after the body each input buffer holds its block and
    each result buffer what the body stored; nothing else is used or owed. The two windows over the adjacency hold it at
    the two halves of the full share; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 2 t) (iblk1 V c 3 t) (iblk1 V c 4 t)
    | ⟨6, _⟩ => out1_6 (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 2 t) (iblk1 V c 3 t) (iblk1 V c 4 t) := by dsimp only [dat1]
theorem after1_6 (c : Dev nD) (t : Fin cfg1.N) : (dat1 V c).after 6 t = out1_6 (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrReg2.lean ====
/-
  The third pallas_call: 25 grid points, eight windows. At point i the body reads row blocks 2i and 2i + 1 of the
  adjacency (two windows over the one array), the whole second support s2, the bias row b2, the classifier's weight Wfc
  and bias row bfc, and stores the row-wise log-softmax of (a · s2 + b2) · Wfcᵀ + bfc for each row block into its own
  result window (block i of each). Stated at any contents `V` the unscoped buffers hold when the call is entered.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds the window's block whenever the body runs (fetched at that point or kept
    from an earlier one: the block index has not moved), for any proof data whose array is the entry contents and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each a whole staging buffer. -/
abbrev r2_S200x10000 : Rect S200x10000 := Rect.unit (s := S200x10000) ![0, 0] S200x10000.size inb_S200x10000_S200x10000_0_0
abbrev r2_S10000x32 : Rect S10000x32 := Rect.unit (s := S10000x32) ![0, 0] S10000x32.size inb_S10000x32_S10000x32_0_0
abbrev r2_S1x32 : Rect S1x32 := Rect.unit (s := S1x32) ![0, 0] S1x32.size inb_S1x32_S1x32_0_0
abbrev r2_S16x32 : Rect S16x32 := Rect.unit (s := S16x32) ![0, 0] S16x32.size inb_S16x32_S16x32_0_0
abbrev r2_S1x16 : Rect S1x16 := Rect.unit (s := S1x16) ![0, 0] S1x16.size inb_S1x16_S1x16_0_0
abbrev r2_S200x16 : Rect S200x16 := Rect.unit (s := S200x16) ![0, 0] S200x16.size inb_S200x16_S200x16_0_0

/-- What the body leaves in the first result window's buffer: the log-softmax of (a0 · s2 + b2) · Wfcᵀ + bfc, the even row block. -/
def out2_6 (x0 : Vec F S200x10000 .f32) (x2 : Vec F S10000x32 .f32) (x3 : Vec F S1x32 .f32) (x4 : Vec F S16x32 .f32) (x5 : Vec F S1x16 .f32) : Vec F S200x16 .f32 :=
  View.canon [⟨r2_S200x16, k2_pay3 (View.ld x2 r2_S10000x32) (View.ld x0 r2_S200x10000) (View.ld x3 r2_S1x32) (View.ld x4 r2_S16x32) (View.ld x5 r2_S1x16)⟩]

/-- What the body leaves in the second result window's buffer: the same for the odd row block (its matmul accumulates into a zero vector). -/
def out2_7 (x1 : Vec F S200x10000 .f32) (x2 : Vec F S10000x32 .f32) (x3 : Vec F S1x32 .f32) (x4 : Vec F S16x32 .f32) (x5 : Vec F S1x16 .f32) : Vec F S200x16 .f32 :=
  View.canon [⟨r2_S200x16, k2_pay1 (k2_pay4 (View.ld x2 r2_S10000x32) (View.ld x1 r2_S200x10000) (View.ld x3 r2_S1x32)) (View.ld x4 r2_S16x32) (constant S200x16 .f32 0x00000000#32) (View.ld x5 r2_S1x16)⟩]

/-- One store over the whole buffer covers it. -/
theorem cover2_S200x16 (p0 : Vec F S200x16 .f32) (y : S200x16.Idx) :
    ∃ pc ∈ ([⟨r2_S200x16, p0⟩] : List (View.Piece (Elt F) S200x16 .f32)), y ∈ pc.1.set :=
  View.cover_of_tiled [⟨r2_S200x16, p0⟩] S200x16.size (by rfl) y

set_option maxHeartbeats 1000000 in
/-- The body on whole staging buffers: each input's is left as read, each result's ends at its `out2_w` of the inputs'. -/
theorem sound_kernel2 (c : Dev nD) (E : Set ℕ) (i : grid2.Coords) (arg1 : Memref sig .tc .vmem S200x10000 .f32) (harg1 : arg1.IsWhole) (arg2 : Memref sig .tc .vmem S200x10000 .f32) (harg2 : arg2.IsWhole) (arg3 : Memref sig .tc .vmem S10000x32 .f32) (harg3 : arg3.IsWhole) (arg4 : Memref sig .tc .vmem S1x32 .f32) (harg4 : arg4.IsWhole) (arg5 : Memref sig .tc .vmem S16x32 .f32) (harg5 : arg5.IsWhole) (arg6 : Memref sig .tc .vmem S1x16 .f32) (harg6 : arg6.IsWhole) (arg7 : Memref sig .tc .vmem S200x16 .f32) (harg7 : arg7.IsWhole) (arg8 : Memref sig .tc .vmem S200x16 .f32) (harg8 : arg8.IsWhole)
    (x0 : Vec F S200x10000 .f32) (x1 : Vec F S200x10000 .f32) (x2 : Vec F S10000x32 .f32) (x3 : Vec F S1x32 .f32) (x4 : Vec F S16x32 .f32) (x5 : Vec F S1x16 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (out2_6 x0 x2 x3 x4 x5)
            ∗ owns (c : Thread nD τ) arg8 fullShare (out2_7 x1 x2 x3 x4 x5)) -∗ K ⟨⟩))
      ⊢ wp frame (wpE (defs₀ (F := F)) Variants.none c none) E (cc2__pass2_kernel i arg1 harg1 arg2 harg2 arg3 harg3 arg4 harg4 arg5 harg5 arg6 harg6 arg7 harg7 arg8 harg8) K := by
  simp only [cc2__pass2_kernel_eq_skeleton]; unfold cc2__pass2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  -- The body is straight-line: every input buffer is only read, so it is left at the contents it had; each result
  -- buffer receives exactly one store, over its whole shape, of a payload of the inputs' reads.
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- A result buffer read back after its one whole-shape store is the canonical form of that store: the store's
  -- rectangle covers every index, so nothing of the earlier contents remains.
  isplitl [H6]
  · iexists _; isplitr
    swap; · iexact H6
    ipureintro
    exact View.read_writes_eq_canon _ _ _ (cover2_S200x16 _)
  iexists _; isplitr
  swap; · iexact H7
  ipureintro
  exact View.read_writes_eq_canon _ _ _ (cover2_S200x16 _)

/-- The call's proof data at entry contents `V`: the arrays as found; after the body each input buffer holds its block and
    each result buffer what the body stored; nothing else is used or owed. The two windows over the adjacency hold it at
    the two halves of the full share; every other array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 3 t) (iblk2 V c 4 t) (iblk2 V c 5 t)
    | ⟨7, _⟩ => out2_7 (iblk2 V c 1 t) (iblk2 V c 2 t) (iblk2 V c 3 t) (iblk2 V c 4 t) (iblk2 V c 5 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrVals.lean ====
/-
  The unscoped buffers' contents on a core at each boundary of @main, from the launch memory `m`:
    W0  at launch;
    W1  after the three reshapes of the bias vectors (entry of the first call);
    W2  after the first call: the buffer of s1 at what the call's write-back leaves, every other as before;
    W3  after the second call: its two result buffers at what their write-backs leave;
    W4  after the reshape / concatenate / reshape that interleaves them (entry of the third call);
    W5  after the third call: its two result buffers likewise;
    W6  after the last reshape / concatenate / reshape (the return).
  Each call's proof data is taken at its entry contents. No host operation and no call writes an argument array, so
  every argument reads back to the launch memory through the whole chain.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import proofs.«141518_g91104846282943_cont_sun_m_1213_12_alg».proof.Proof.Gen.KernelIdeal.Regions
import proofs.«141518_g91104846282943_cont_sun_m_1213_12_alg».proof.Proof.FrReg0
import proofs.«141518_g91104846282943_cont_sun_m_1213_12_alg».proof.Proof.FrReg1
import proofs.«141518_g91104846282943_cont_sun_m_1213_12_alg».proof.Proof.FrReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
/-- After the first host stretch (the biases as rows). -/
abbrev W1 (c : Dev nD) : Valuation τ sig (Elt F) := StableHlo.after hostOps0 (W0 m c)
/-- The same read at the TensorCore's references: what the first call's proof data take. -/
abbrev U1 : (c : Dev nD) → (b : Ref sig .tc) → Buf (Elt F) ((c : Thread nD τ).loc b) := fun c b => W1 m c b

/-- What the first call leaves in the buffer of s1. -/
def o3 (c : Dev nD) : Buf (Elt F) ((c : Thread nD τ).loc main_v3) := (dat0 (U1 m) c).arrAt 2 cfg0.N
/-- After the first call. -/
abbrev W2 (c : Dev nD) : Valuation τ sig (Elt F) := Function.update (W1 m c) main_v3 (o3 m c)
abbrev U2 : (c : Dev nD) → (b : Ref sig .tc) → Buf (Elt F) ((c : Thread nD τ).loc b) := fun c b => W2 m c b

/-- What the second call leaves in its two result buffers. -/
def o4_0 (c : Dev nD) : Buf (Elt F) ((c : Thread nD τ).loc main_v4_0) := (dat1 (U2 m) c).arrAt 5 cfg1.N
def o4_1 (c : Dev nD) : Buf (Elt F) ((c : Thread nD τ).loc main_v4_1) := (dat1 (U2 m) c).arrAt 6 cfg1.N
/-- After the second call. -/
abbrev W3 (c : Dev nD) : Valuation τ sig (Elt F) :=
  Function.update (Function.update (W2 m c) main_v4_0 (o4_0 m c)) main_v4_1 (o4_1 m c)
/-- After the second host stretch (the two halves interleaved into the second support). -/
abbrev W4 (c : Dev nD) : Valuation τ sig (Elt F) := StableHlo.after hostOps2 (W3 m c)
abbrev U4 : (c : Dev nD) → (b : Ref sig .tc) → Buf (Elt F) ((c : Thread nD τ).loc b) := fun c b => W4 m c b

/-- What the third call leaves in its two result buffers. -/
def o9_0 (c : Dev nD) : Buf (Elt F) ((c : Thread nD τ).loc main_v9_0) := (dat2 (U4 m) c).arrAt 6 cfg2.N
def o9_1 (c : Dev nD) : Buf (Elt F) ((c : Thread nD τ).loc main_v9_1) := (dat2 (U4 m) c).arrAt 7 cfg2.N
/-- After the third call. -/
abbrev W5 (c : Dev nD) : Valuation τ sig (Elt F) :=
  Function.update (Function.update (W4 m c) main_v9_0 (o9_0 m c)) main_v9_1 (o9_1 m c)
/-- After the last host stretch: the return. -/
abbrev W6 (c : Dev nD) : Valuation τ sig (Elt F) := StableHlo.after hostOps3 (W5 m c)

/-! ## What each step leaves unchanged, and what it writes -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v3] : List (Ref sig .tc))) : W2 m c r = W1 m c r := by
  simp only [W2, Function.update_of_ne (StableHlo.devRef_ne_of_ne (List.ne_of_not_mem_cons h) : (Proc.devRef .tc r : DevRef τ sig) ≠ Proc.devRef .tc main_v3)]
theorem W2_v3 (c : Dev nD) : W2 m c main_v3 = o3 m c := Function.update_self ..
theorem W3_of (c : Dev nD) (r : Ref sig .tc) (h : r ∉ ([main_v4_0, main_v4_1] : List (Ref sig .tc))) : W3 m c r = W2 m c r := by
  simp only [W3, Function.update_of_ne (StableHlo.devRef_ne_of_ne (List.ne_of_not_mem_cons h) : (Proc.devRef .tc r : DevRef τ sig) ≠ Proc.devRef .tc main_v4_0), Function.update_of_ne (StableHlo.devRef_ne_of_ne (List.ne_of_not_mem_cons (List.not_mem_of_not_mem_cons h)) : (Proc.devRef .tc r : DevRef τ sig) ≠ Proc.devRef .tc main_v4_1)]
theorem W3_v4_1 (c : Dev nD) : W3 m c main_v4_1 = o4_1 m c := Function.update_self ..
theorem W3_v4_0 (c : Dev nD) : W3 m c main_v4_0 = o4_0 m c := by
  simp only [W3, Function.update_of_ne (StableHlo.devRef_ne_of_ne (by decide : main_v4_0 ≠ main_v4_1) : (Proc.devRef .tc main_v4_0 : DevRef τ sig) ≠ Proc.devRef .tc main_v4_1), Function.update_self]
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : r ∉ ([main_v9_0, main_v9_1] : List (Ref sig .tc))) : W5 m c r = W4 m c r := by
  simp only [W5, Function.update_of_ne (StableHlo.devRef_ne_of_ne (List.ne_of_not_mem_cons h) : (Proc.devRef .tc r : DevRef τ sig) ≠ Proc.devRef .tc main_v9_0), Function.update_of_ne (StableHlo.devRef_ne_of_ne (List.ne_of_not_mem_cons (List.not_mem_of_not_mem_cons h)) : (Proc.devRef .tc r : DevRef τ sig) ≠ Proc.devRef .tc main_v9_1)]
theorem W5_v9_1 (c : Dev nD) : W5 m c main_v9_1 = o9_1 m c := Function.update_self ..
theorem W5_v9_0 (c : Dev nD) : W5 m c main_v9_0 = o9_0 m c := by
  simp only [W5, Function.update_of_ne (StableHlo.devRef_ne_of_ne (by decide : main_v9_0 ≠ main_v9_1) : (Proc.devRef .tc main_v9_0 : DevRef τ sig) ≠ Proc.devRef .tc main_v9_1), Function.update_self]
theorem W6_of (c : Dev nD) (r : Ref sig .tc) (h : r ∉ hostOps3_W) : W6 m c r = W5 m c r :=
  StableHlo.after_of_writes_sub hostOps3 _ hostOps3_writes h

/-- A buffer that no host stretch and no call writes holds its launch contents at every boundary. -/
theorem W6_arg (c : Dev nD) (r : Ref sig .tc) (h0 : r ∉ hostOps0_W) (h1 : r ∉ ([main_v3] : List (Ref sig .tc)))
    (h2 : r ∉ ([main_v4_0, main_v4_1] : List (Ref sig .tc))) (h3 : r ∉ hostOps2_W)
    (h4 : r ∉ ([main_v9_0, main_v9_1] : List (Ref sig .tc))) (h5 : r ∉ hostOps3_W) :
    W6 m c r = m ((c : Thread nD τ).loc r) :=
  (W6_of m c r h5).trans <| (W5_of m c r h4).trans <| (W4_of m c r h3).trans <| (W3_of m c r h2).trans <| (W2_of m c r h1).trans <| (W1_of m c r h0).trans rfl
theorem W4_arg (c : Dev nD) (r : Ref sig .tc) (h0 : r ∉ hostOps0_W) (h1 : r ∉ ([main_v3] : List (Ref sig .tc)))
    (h2 : r ∉ ([main_v4_0, main_v4_1] : List (Ref sig .tc))) (h3 : r ∉ hostOps2_W) :
    W4 m c r = m ((c : Thread nD τ).loc r) :=
  (W4_of m c r h3).trans <| (W3_of m c r h2).trans <| (W2_of m c r h1).trans <| (W1_of m c r h0).trans rfl
theorem W2_arg (c : Dev nD) (r : Ref sig .tc) (h0 : r ∉ hostOps0_W) (h1 : r ∉ ([main_v3] : List (Ref sig .tc))) :
    W2 m c r = m ((c : Thread nD τ).loc r) :=
  (W2_of m c r h1).trans <| (W1_of m c r h0).trans rfl
theorem W1_arg (c : Dev nD) (r : Ref sig .tc) (h0 : r ∉ hostOps0_W) : W1 m c r = m ((c : Thread nD τ).loc r) :=
  (W1_of m c r h0).trans rfl

/-! ## Every call's proof data, each at its entry contents -/

/-- A literal match, so that the family at a numeral reduces to that call's data. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2 (U4 m) c

end Cert.KernelIdeal.Fr

end
-- ==== Proof.FrSegCommon.lean ====
/-
  What rides beside the unscoped buffers through every item of @main, and the level data of a program whose cores owe
  one another nothing.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import proofs.«141518_g91104846282943_cont_sun_m_1213_12_alg».proof.Proof.FrVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- The core's generator register at some state (a call's invariant takes it in and gives it back) and the core owing
    nothing. -/
abbrev R (c : Dev nD) : sProp 𝕄 := iprop((∃ r, prngReg c r) ∗ ∃ W, owes (c : Thread nD τ) (0 : CellTallies nD τ sig Unit) W)

end Cert.KernelIdeal.Fr

end
-- ==== Proof.FrSeg0.lean ====
/-
  The first pallas_call as an item of @main. Its three windows' arrays are distinct buffers: they are taken out of the
  unscoped buffers at entry and put back at exit with the result array at what the write-back leaves.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import proofs.«141518_g91104846282943_cont_sun_m_1213_12_alg».proof.Proof.FrSegCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- At the call's end each window's array holds what `W2` records for its buffer. The two input arrays are never written
    back, so each still holds its entry contents, and `W2` differs from `W1` only at the buffer of s1; the result
    window's array is that buffer, where `W2` holds what the write-backs leave. -/
theorem reg0_hF (c : Dev nD) : ∀ w : Fin cfg0.W, (dat0 (U1 m) c).arrAt w cfg0.N = U2 m c (Pipeline.arrRef spec0 w)
  | ⟨0, _⟩ => (Pipeline.Dat.arrAt_in (dat := dat0 (U1 m) c) 0 rfl cfg0.N).trans <|
      (A_eq0 (U1 m) c 0).trans (W2_of m c _ (by decide)).symm
  | ⟨1, _⟩ => (Pipeline.Dat.arrAt_in (dat := dat0 (U1 m) c) 1 rfl cfg0.N).trans <|
      (A_eq0 (U1 m) c 1).trans (W2_of m c _ (by decide)).symm
  | ⟨2, _⟩ => (W2_v3 m c).symm

/-- A buffer that is no window's array is in particular not the buffer of s1 (the result window's array), the only one
    at which `W2` differs from `W1`. -/
theorem reg0_hrest (c : Dev nD) (b : Ref sig .tc) (hb : b ∉ Finset.univ.image (Pipeline.arrRef spec0)) :
    U2 m c b = U1 m c b :=
  W2_of m c b fun hmem => hb <| Finset.mem_image.mpr ⟨2, Finset.mem_univ _, (List.mem_singleton.mp hmem).symm⟩

set_option backward.isDefEq.respectTransparency.types false in
/-- The call as an item of @main: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hbufs, Hreg, %T, Howes⟩, -, -⟩
    ihave Hsp := hsplit $$ Hbufs
    icases Hsp with ⟨Harr, Hrest⟩
    imodintro
    isplitl [Harr]; · iexact Harr
    isplitr
    · unfold Pipeline.prefHeld; rw [Finset.univ_eq_empty, BI.bigSep_empty]; iempintro
    isplitl [Howes]
    · iexists T; isplitr
      · ipureintro; exact Set.subset_union_of_subset_left (Set.subset_univ _) _
      iexact Howes
    isplitl [Hreg]; · iexact Hreg
    iexact Hrest
  hin c := by
    show _ ⊢ iprop(Pipeline.scopedRest spec0 c ∗ ∃ r, prngReg c r)
    iintro ⟨Hreg, -, Hsc⟩
    isplitl [Hsc]; · iexact Hsc
    iexact Hreg
  hout c := by
    rw [Pipeline.ownSems0_none]
    show iprop(Pipeline.scopedRest spec0 c ∗ ∃ r, prngReg c r) ⊢ _
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (reg0_hF m c) (reg0_hrest m c)
    rw [Pipeline.unscopedBufs_held] at hjoin
    iintro ⟨Harr, ⟨%T, -, Howes⟩, Hreg, Hrest⟩
    imodintro
    isplitl [Harr Hrest]
    · iapply hjoin
      isplitl [Harr]; · iexact Harr
      iexact Hrest
    isplitl [Hreg]; · iexact Hreg
    iexists T; iexact Howes

end Cert.KernelIdeal.Fr

end
-- ==== Proof.FrShare.lean ====
/-
  Two windows over one array: the array's full share dealt as its two halves.

  A call's proof data holds each input window's array at the window's own share. The second and the third call read the
  adjacency through two windows, so the buffer behind it, held whole at the full share among the core's unscoped
  buffers, is dealt at entry as its left half (the first window) and its right half (the second), both at the same
  contents, and the halves are joined again at exit. Every other window's array is a buffer of its own, held whole.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import proofs.«141518_g91104846282943_cont_sun_m_1213_12_alg».proof.Proof.FrSegCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second call -/

/-- The distinct buffers behind the call's seven windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v3) ↦{fullShare} W main_v3) ∗ (((c : Thread nD τ).loc main_v0) ↦{fullShare} W main_v0) ∗ (((c : Thread nD τ).loc main_arg4) ↦{fullShare} W main_arg4) ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq [main_arg1, main_v3, main_v0, main_arg4, main_v4_0, main_v4_1] (by decide) (by decide) _

/-- The share each window's array is held at: the adjacency's two halves, every other array whole. -/
theorem share1 (c : Dev nD) : ∀ w : Fin cfg1.W, (dat1 V c).share w = (match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare : PosShare TreeShare)
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The call's windowed arrays at contents `Fc`, one by one: the adjacency twice, at the two halves. -/
theorem arrays1_eq (c : Dev nD) (Fc : (w : Fin cfg1.W) → Buf (Elt F) ((cfg1.win w).arr.view.loc (c : Thread nD τ))) :
    ((dat1 V c).arrays Fc : sProp 𝕄)
      = iprop((((c : Thread nD τ).loc main_arg1) ↦{fullShare.left} Fc 0) ∗ (((c : Thread nD τ).loc main_arg1) ↦{fullShare.right} Fc 1) ∗ (((c : Thread nD τ).loc main_v3) ↦{fullShare} Fc 2) ∗ (((c : Thread nD τ).loc main_v0) ↦{fullShare} Fc 3) ∗ (((c : Thread nD τ).loc main_arg4) ↦{fullShare} Fc 4) ∗ (((c : Thread nD τ).loc main_v4_0) ↦{fullShare} Fc 5) ∗ (((c : Thread nD τ).loc main_v4_1) ↦{fullShare} Fc 6)) := by
  unfold Dat.arrays
  rw [show (bigSep Finset.univ fun w : Fin cfg1.W => ((cfg1.win w).arr.view.loc (c : Thread nD τ) ↦[(cfg1.win w).arr.view.set]{(dat1 V c).share w} Fc w : sProp 𝕄))
      = bigSep Finset.univ fun w : Fin cfg1.W => (((c : Thread nD τ).loc (Pipeline.arrRef spec1 w)) ↦{(dat1 V c).share w} Fc w : sProp 𝕄)
    from bigSep_congr fun w _ => by rw [(arr_whole1 w).set_eq_univ]]
  rw [bigSep_W1]
  simp only [share1]

/-- ENTRY: the buffers behind the windows, whole at contents `W`, are the call's arrays at contents read off `W`: the
    adjacency's full share splits into the two windows' halves. -/
theorem arrs1_split (c : Dev nD) (W : (b : Ref sig .tc) → Buf (Elt F) ((c : Thread nD τ).loc b))
    (Fc : (w : Fin cfg1.W) → Buf (Elt F) ((cfg1.win w).arr.view.loc (c : Thread nD τ))) (hF : ∀ w, Fc w = W (Pipeline.arrRef spec1 w)) :
    (Pipeline.arrBufs (Ix := Unit) (Name := ℕ) (U := UR sig nD τ) (Lvl := ℕ) spec1 c W : sProp 𝕄) ⊢ (dat1 V c).arrays Fc := by
  rw [arrBufs1_eq, arrays1_eq, hF 0, hF 1, hF 2, hF 3, hF 4, hF 5, hF 6]
  iintro ⟨H0, H1, H2, H3, H4, H5⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT: the call's arrays at contents `Fc` are the buffers behind the windows whole at any contents `W'` that reads
    `Fc` at them: the two halves of the adjacency, at one contents, join to its full share. -/
theorem arrs1_join (c : Dev nD) (W' : (b : Ref sig .tc) → Buf (Elt F) ((c : Thread nD τ).loc b))
    (Fc : (w : Fin cfg1.W) → Buf (Elt F) ((cfg1.win w).arr.view.loc (c : Thread nD τ))) (hF : ∀ w, Fc w = W' (Pipeline.arrRef spec1 w)) :
    ((dat1 V c).arrays Fc : sProp 𝕄) ⊢ Pipeline.arrBufs (Ix := Unit) (Name := ℕ) (U := UR sig nD τ) (Lvl := ℕ) spec1 c W' := by
  rw [arrBufs1_eq, arrays1_eq, hF 0, hF 1, hF 2, hF 3, hF 4, hF 5, hF 6]
  iintro ⟨Hl, Hr, H1, H2, H3, H4, H5⟩
  ihave H0 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  iexact H5

/-! ## The third call -/

/-- The distinct buffers behind the call's eight windows, one by one. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_arg1) ↦{fullShare} W main_arg1) ∗ (((c : Thread nD τ).loc main_v8) ↦{fullShare} W main_v8) ∗ (((c : Thread nD τ).loc main_v1) ↦{fullShare} W main_v1) ∗ (((c : Thread nD τ).loc main_arg6) ↦{fullShare} W main_arg6) ∗ (((c : Thread nD τ).loc main_v2) ↦{fullShare} W main_v2) ∗ (((c : Thread nD τ).loc main_v9_0) ↦{fullShare} W main_v9_0) ∗ (((c : Thread nD τ).loc main_v9_1) ↦{fullShare} W main_v9_1)) := by
  unfold Pipeline.arrBufs
  exact bigSep_eq_bigSepL_of_eq [main_arg1, main_v8, main_v1, main_arg6, main_v2, main_v9_0, main_v9_1] (by decide) (by decide) _

/-- The share each window's array is held at: the adjacency's two halves, every other array whole. -/
theorem share2 (c : Dev nD) : ∀ w : Fin cfg2.W, (dat2 V c).share w = (match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare : PosShare TreeShare)
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The call's windowed arrays at contents `Fc`, one by one: the adjacency twice, at the two halves. -/
theorem arrays2_eq (c : Dev nD) (Fc : (w : Fin cfg2.W) → Buf (Elt F) ((cfg2.win w).arr.view.loc (c : Thread nD τ))) :
    ((dat2 V c).arrays Fc : sProp 𝕄)
      = iprop((((c : Thread nD τ).loc main_arg1) ↦{fullShare.left} Fc 0) ∗ (((c : Thread nD τ).loc main_arg1) ↦{fullShare.right} Fc 1) ∗ (((c : Thread nD τ).loc main_v8) ↦{fullShare} Fc 2) ∗ (((c : Thread nD τ).loc main_v1) ↦{fullShare} Fc 3) ∗ (((c : Thread nD τ).loc main_arg6) ↦{fullShare} Fc 4) ∗ (((c : Thread nD τ).loc main_v2) ↦{fullShare} Fc 5) ∗ (((c : Thread nD τ).loc main_v9_0) ↦{fullShare} Fc 6) ∗ (((c : Thread nD τ).loc main_v9_1) ↦{fullShare} Fc 7)) := by
  unfold Dat.arrays
  rw [show (bigSep Finset.univ fun w : Fin cfg2.W => ((cfg2.win w).arr.view.loc (c : Thread nD τ) ↦[(cfg2.win w).arr.view.set]{(dat2 V c).share w} Fc w : sProp 𝕄))
      = bigSep Finset.univ fun w : Fin cfg2.W => (((c : Thread nD τ).loc (Pipeline.arrRef spec2 w)) ↦{(dat2 V c).share w} Fc w : sProp 𝕄)
    from bigSep_congr fun w _ => by rw [(arr_whole2 w).set_eq_univ]]
  rw [bigSep_W2]
  simp only [share2]

/-- ENTRY: the buffers behind the windows, whole at contents `W`, are the call's arrays at contents read off `W`: the
    adjacency's full share splits into the two windows' halves. -/
theorem arrs2_split (c : Dev nD) (W : (b : Ref sig .tc) → Buf (Elt F) ((c : Thread nD τ).loc b))
    (Fc : (w : Fin cfg2.W) → Buf (Elt F) ((cfg2.win w).arr.view.loc (c : Thread nD τ))) (hF : ∀ w, Fc w = W (Pipeline.arrRef spec2 w)) :
    (Pipeline.arrBufs (Ix := Unit) (Name := ℕ) (U := UR sig nD τ) (Lvl := ℕ) spec2 c W : sProp 𝕄) ⊢ (dat2 V c).arrays Fc := by
  rw [arrBufs2_eq, arrays2_eq, hF 0, hF 1, hF 2, hF 3, hF 4, hF 5, hF 6, hF 7]
  iintro ⟨H0, H1, H2, H3, H4, H5, H6⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  iexact H6

/-- EXIT: the call's arrays at contents `Fc` are the buffers behind the windows whole at any contents `W'` that reads
    `Fc` at them: the two halves of the adjacency, at one contents, join to its full share. -/
theorem arrs2_join (c : Dev nD) (W' : (b : Ref sig .tc) → Buf (Elt F) ((c : Thread nD τ).loc b))
    (Fc : (w : Fin cfg2.W) → Buf (Elt F) ((cfg2.win w).arr.view.loc (c : Thread nD τ))) (hF : ∀ w, Fc w = W' (Pipeline.arrRef spec2 w)) :
    ((dat2 V c).arrays Fc : sProp 𝕄) ⊢ Pipeline.arrBufs (Ix := Unit) (Name := ℕ) (U := UR sig nD τ) (Lvl := ℕ) spec2 c W' := by
  rw [arrBufs2_eq, arrays2_eq, hF 0, hF 1, hF 2, hF 3, hF 4, hF 5, hF 6, hF 7]
  iintro ⟨Hl, Hr, H1, H2, H3, H4, H5, H6⟩
  ihave H0 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  isplitl [H5]; · iexact H5
  iexact H6

/-- A core's unscoped buffers at contents `W` are the buffers behind the second call's windows and the rest. -/
theorem unscopedBufs1_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs (Ix := Unit) (Name := ℕ) (U := UR sig nD τ) (Lvl := ℕ) spec1 c W
          ∗ Pipeline.unscopedRest (Ix := Unit) (Name := ℕ) (U := UR sig nD τ) (Lvl := ℕ) spec1 c W) :=
  Pipeline.unscopedBufs_split₀ cfgs 1 winFacts₀1.arr_unscoped c W

/-- A core's unscoped buffers at contents `W` are the buffers behind the third call's windows and the rest. -/
theorem unscopedBufs2_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs (Ix := Unit) (Name := ℕ) (U := UR sig nD τ) (Lvl := ℕ) spec2 c W
          ∗ Pipeline.unscopedRest (Ix := Unit) (Name := ℕ) (U := UR sig nD τ) (Lvl := ℕ) spec2 c W) :=
  Pipeline.unscopedBufs_split₀ cfgs 2 winFacts₀2.arr_unscoped c W

end Cert.KernelIdeal.Fr

end
-- ==== Proof.FrSeg1.lean ====
/-
  The second pallas_call as an item of @main. Two of its windows read the one adjacency array: at entry that buffer's
  full share is dealt as two halves, one per window, and joined again at exit; the other arrays are distinct buffers.
  At exit the two result arrays hold what the write-backs leave and every other buffer what it held.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import proofs.«141518_g91104846282943_cont_sun_m_1213_12_alg».proof.Proof.FrSegCommon
import proofs.«141518_g91104846282943_cont_sun_m_1213_12_alg».proof.Proof.FrShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents after the call, read at the TensorCore's references. -/
abbrev U3 : (c : Dev nD) → (b : Ref sig .tc) → Buf (Elt F) ((c : Thread nD τ).loc b) := fun c b => W3 m c b

/-- After the call each of its arrays holds what the pipeline leaves: an input array what it held, a result array its
    write-backs. -/
theorem hF1 (c : Dev nD) : ∀ w : Fin cfg1.W, (dat1 (U2 m) c).arrAt w cfg1.N = U3 m c (Pipeline.arrRef spec1 w)
  | ⟨0, _⟩ => ((dat1 (U2 m) c).arrAt_in 0 rfl _).trans ((A_eq1 (U2 m) c 0).trans (W3_of m c _ (by decide)).symm)
  | ⟨1, _⟩ => ((dat1 (U2 m) c).arrAt_in 1 rfl _).trans ((A_eq1 (U2 m) c 1).trans (W3_of m c _ (by decide)).symm)
  | ⟨2, _⟩ => ((dat1 (U2 m) c).arrAt_in 2 rfl _).trans ((A_eq1 (U2 m) c 2).trans (W3_of m c _ (by decide)).symm)
  | ⟨3, _⟩ => ((dat1 (U2 m) c).arrAt_in 3 rfl _).trans ((A_eq1 (U2 m) c 3).trans (W3_of m c _ (by decide)).symm)
  | ⟨4, _⟩ => ((dat1 (U2 m) c).arrAt_in 4 rfl _).trans ((A_eq1 (U2 m) c 4).trans (W3_of m c _ (by decide)).symm)
  | ⟨5, _⟩ => (W3_v4_0 m c).symm
  | ⟨6, _⟩ => (W3_v4_1 m c).symm

/-- Every other unscoped buffer holds what it held at entry. -/
theorem hrest1 (c : Dev nD) : ∀ b, b ∉ Finset.univ.image (Pipeline.arrRef spec1) → U3 m c b = U2 m c b := fun b hb =>
  W3_of m c b (by
    intro hmem
    rcases List.mem_cons.mp hmem with rfl | hmem
    · exact hb (Finset.mem_image.mpr ⟨5, Finset.mem_univ _, rfl⟩)
    · rcases List.mem_cons.mp hmem with rfl | hmem
      · exact hb (Finset.mem_image.mpr ⟨6, Finset.mem_univ _, rfl⟩)
      · exact absurd hmem (List.not_mem_nil))

set_option backward.isDefEq.respectTransparency.types false in
/-- The call as an item of @main: entered with every unscoped buffer at `W2`, left with them at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0)
            ∗ Pipeline.unscopedRest (Ix := Unit) (Name := ℕ) (U := UR sig nD τ) (Lvl := ℕ) spec1 c (U2 m c)) := by
      rw [← Pipeline.unscopedBufs_held (Ix := Unit) (Name := ℕ) (U := UR sig nD τ) (Lvl := ℕ) c (W2 m c)]
      rw [unscopedBufs1_split]
      exact sep_mono (arrs1_split (U2 m) c (U2 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (U2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c)]
      rw [unscopedBufs1_split]
      refine sep_mono (arrs1_join (U2 m) c (U3 m c) _ (hF1 m c)) (Entails.of_eq ?_)
      unfold Pipeline.unscopedRest
      exact bigSep_congr fun b hb => by
        show (((c : Thread nD τ).loc b) ↦{fullShare} U2 m c b : sProp 𝕄) = (((c : Thread nD τ).loc b) ↦{fullShare} U3 m c b)
        rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.FrSeg2.lean ====
/-
  The third pallas_call as an item of @main. Two of its windows read the one adjacency array: at entry that buffer's
  full share is dealt as two halves, one per window, and joined again at exit; the other arrays are distinct buffers.
  At exit the two result arrays hold what the write-backs leave and every other buffer what it held.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import proofs.«141518_g91104846282943_cont_sun_m_1213_12_alg».proof.Proof.FrSegCommon
import proofs.«141518_g91104846282943_cont_sun_m_1213_12_alg».proof.Proof.FrShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents after the call, read at the TensorCore's references. -/
abbrev U5 : (c : Dev nD) → (b : Ref sig .tc) → Buf (Elt F) ((c : Thread nD τ).loc b) := fun c b => W5 m c b

/-- After the call each of its arrays holds what the pipeline leaves: an input array what it held, a result array its
    write-backs. -/
theorem hF2 (c : Dev nD) : ∀ w : Fin cfg2.W, (dat2 (U4 m) c).arrAt w cfg2.N = U5 m c (Pipeline.arrRef spec2 w)
  | ⟨0, _⟩ => ((dat2 (U4 m) c).arrAt_in 0 rfl _).trans ((A_eq2 (U4 m) c 0).trans (W5_of m c _ (by decide)).symm)
  | ⟨1, _⟩ => ((dat2 (U4 m) c).arrAt_in 1 rfl _).trans ((A_eq2 (U4 m) c 1).trans (W5_of m c _ (by decide)).symm)
  | ⟨2, _⟩ => ((dat2 (U4 m) c).arrAt_in 2 rfl _).trans ((A_eq2 (U4 m) c 2).trans (W5_of m c _ (by decide)).symm)
  | ⟨3, _⟩ => ((dat2 (U4 m) c).arrAt_in 3 rfl _).trans ((A_eq2 (U4 m) c 3).trans (W5_of m c _ (by decide)).symm)
  | ⟨4, _⟩ => ((dat2 (U4 m) c).arrAt_in 4 rfl _).trans ((A_eq2 (U4 m) c 4).trans (W5_of m c _ (by decide)).symm)
  | ⟨5, _⟩ => ((dat2 (U4 m) c).arrAt_in 5 rfl _).trans ((A_eq2 (U4 m) c 5).trans (W5_of m c _ (by decide)).symm)
  | ⟨6, _⟩ => (W5_v9_0 m c).symm
  | ⟨7, _⟩ => (W5_v9_1 m c).symm

/-- Every other unscoped buffer holds what it held at entry. -/
theorem hrest2 (c : Dev nD) : ∀ b, b ∉ Finset.univ.image (Pipeline.arrRef spec2) → U5 m c b = U4 m c b := fun b hb =>
  W5_of m c b (by
    intro hmem
    rcases List.mem_cons.mp hmem with rfl | hmem
    · exact hb (Finset.mem_image.mpr ⟨6, Finset.mem_univ _, rfl⟩)
    · rcases List.mem_cons.mp hmem with rfl | hmem
      · exact hb (Finset.mem_image.mpr ⟨7, Finset.mem_univ _, rfl⟩)
      · exact absurd hmem (List.not_mem_nil))

set_option backward.isDefEq.respectTransparency.types false in
/-- The call as an item of @main: entered with every unscoped buffer at `W4`, left with them at `W5`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit : (StableHlo.held (c : Thread nD τ) (Pipeline.ucRefs τ sig) (W4 m c) : sProp 𝕄)
        ⊢ iprop((pdats m 2 c).arrays ((pdats m 2 c).arrAt · 0)
            ∗ Pipeline.unscopedRest (Ix := Unit) (Name := ℕ) (U := UR sig nD τ) (Lvl := ℕ) spec2 c (U4 m c)) := by
      rw [← Pipeline.unscopedBufs_held (Ix := Unit) (Name := ℕ) (U := UR sig nD τ) (Lvl := ℕ) c (W4 m c)]
      rw [unscopedBufs2_split]
      exact sep_mono (arrs2_split (U4 m) c (U4 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (U4 m c))
        ⊢ (StableHlo.held (c : Thread nD τ) (Pipeline.ucRefs τ sig) (W5 m c) : sProp 𝕄) := by
      rw [← Pipeline.unscopedBufs_held (Ix := Unit) (Name := ℕ) (U := UR sig nD τ) (Lvl := ℕ) c (W5 m c)]
      rw [unscopedBufs2_split]
      refine sep_mono (arrs2_join (U4 m) c (U5 m c) _ (hF2 m c)) (Entails.of_eq ?_)
      unfold Pipeline.unscopedRest
      exact bigSep_congr fun b hb => by
        show (((c : Thread nD τ).loc b) ↦{fullShare} U4 m c b : sProp 𝕄) = (((c : Thread nD τ).loc b) ↦{fullShare} U5 m c b)
        rw [hrest2 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.FrRun.lean ====
/-
  @main as a whole. On every core it is six items in order: the three reshapes of the bias vectors, the first call, the
  second call, the reshape / concatenate / reshape that interleaves the second call's two results, the third call, and
  the last reshape / concatenate / reshape. Between two items a core holds every unscoped buffer whole, at that
  boundary's contents (W0 at launch … W6 at the return), beside its generator register at some state and the fact that
  it owes nothing. A host stretch takes the buffers from a boundary's contents to the next by definition of the latter;
  a call takes them from its entry contents to those with its result buffers at what its write-backs leave. Read against
  any final memory, the last state gives every unscoped buffer at W6; no item writes an argument array, so each argument
  reads back the launch memory.
-/
import proofs.«141518_g91104846282943_cont_sun_m_1213_12_alg».proof.Proof.Gen.KernelIdeal.Launch
import proofs.«141518_g91104846282943_cont_sun_m_1213_12_alg».proof.Proof.Gen.KernelIdeal.Skeleton
import proofs.«141518_g91104846282943_cont_sun_m_1213_12_alg».proof.Proof.Gen.KernelIdeal.Points
import proofs.«141518_g91104846282943_cont_sun_m_1213_12_alg».proof.Proof.FrSegCommon
import proofs.«141518_g91104846282943_cont_sun_m_1213_12_alg».proof.Proof.FrSeg0
import proofs.«141518_g91104846282943_cont_sun_m_1213_12_alg».proof.Proof.FrSeg1
import proofs.«141518_g91104846282943_cont_sun_m_1213_12_alg».proof.Proof.FrSeg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as an item: entered with every unscoped buffer whole at `W c`, left with them at what the stretch's
    operations make of `W c`; the generator register and the core owing nothing pass through untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W R

/-- @main's six items: each host stretch from the contents of the boundary before it, each call by its record. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

/-- @main is the run of those items: a host item's program is the sequence of its operations. -/
theorem main_run (c : Dev nD) : main (F := F) c = Pipeline.Seg.run (segs m) :=
  main_segs adm (pdats m) () 𝒱₀ L lv
    (hseg hostOps0 hostOps0_sub hostOps0_fresh (W0 m)) (hseg hostOps2 hostOps2_sub hostOps2_fresh (W3 m))
    (hseg hostOps3 hostOps3_sub hostOps3_fresh (W5 m)) (reg0 m) (reg1 m) (reg2 m) rfl rfl rfl c

/-- An unscoped TensorCore reference is one of the buffers every boundary's state holds. -/
private theorem mem_uc (b : Ref sig .tc) (h : ¬ (Proc.devRef .tc b : DevRef τ sig).isScoped) :
    (Proc.devRef .tc b : DevRef τ sig) ∈ Pipeline.ucRefs τ sig :=
  Finset.mem_filter.mpr ⟨StableHlo.devRef_mem_tcRefs b, h⟩

/-- The state at launch: every unscoped buffer at the launch memory, the register, nothing owed. -/
private abbrev T0 (c : Dev nD) : sProp 𝕄 := iprop(StableHlo.held (c : Thread nD τ) (Pipeline.ucRefs τ sig) (W0 m c) ∗ R c)
/-- The state at the return, the fact that the core owes nothing set apart: every unscoped buffer at `W6`, the register at
    some state. -/
private abbrev Tn (c : Dev nD) : sProp 𝕄 := iprop(StableHlo.held (c : Thread nD τ) (Pipeline.ucRefs τ sig) (W6 m c) ∗ ∃ r, prngReg c r)

set_option backward.isDefEq.respectTransparency.types false in
/-- Every weakly fair execution of @main from memory `m` with all counters zero terminates, and in every final memory each
    unscoped buffer of each core holds `W6`. -/
theorem run : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      -- the launch element is the staging cells' own; no core needs a ghost resource beside it
      rw [BI.bigSep_emp_const]
      -- owning the whole user component is owning it through its embedding: the two spell one resource
      have hown : (ownU (initOf (Pipeline.cells cfgs cellOf_inj) (Pipeline.launchToks cfgs cellOf_inj)) : sProp 𝕄)
          ⊢ BI.own (emb₁ (initOf (Pipeline.cells (Pipeline.pin (pcfgs (F := F)) adm) cellOf_inj)
              (Pipeline.launchToks (Pipeline.pin (pcfgs (F := F)) adm) cellOf_inj))) := .rfl
      iintro Hu; imodintro
      isplitl [Hu]
      · iapply hown; iexact Hu
      iempintro)
    (T₀ := T0 m) (Tₙ := Tn m)
    (hch := ⟨fun _ => .rfl, fun _ => .rfl, fun _ => .rfl, fun _ => .rfl, fun _ => .rfl, fun _ => .rfl, fun c => by
      -- after the last stretch: the buffers at W6, and the rest regrouped so that the owing stands alone
      show iprop(StableHlo.held (c : Thread nD τ) (Pipeline.ucRefs τ sig) (W6 m c)
            ∗ (∃ r, prngReg c r) ∗ ∃ W, owes (c : Thread nD τ) (0 : CellTallies nD τ sig Unit) W)
          ⊢ (iprop((StableHlo.held (c : Thread nD τ) (Pipeline.ucRefs τ sig) (W6 m c) ∗ ∃ r, prngReg c r)
            ∗ ∃ W, owes (c : Thread nD τ) (0 : CellTallies nD τ sig Unit) W) : sProp 𝕄)
      iintro ⟨Hh, Hp, Ho⟩
      isplitr [Ho]
      · isplitl [Hh]; · iexact Hh
        iexact Hp
      iexact Ho⟩)
    (hinit := by
      -- core by core: the launch deals the unscoped buffers at the launch memory, which is `held` at W0; the register
      -- at its launch state; and the core owing nothing with no wait recorded
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = W6 m c b)
    (hfin := fun c s' => by
      -- a buffer held whole reads, in the final memory, as the contents it is held at
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun _ h => h)

/-- The frame: every argument array ends as launched (no host stretch and no call writes one). -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c (Proc.devRef .tc main_arg0) (mem_uc main_arg0 (by decide))).trans (W6_arg m c main_arg0 (by decide) (by decide) (by decide) (by decide) (by decide) (by decide)),
      (h c (Proc.devRef .tc main_arg1) (mem_uc main_arg1 (by decide))).trans (W6_arg m c main_arg1 (by decide) (by decide) (by decide) (by decide) (by decide) (by decide)),
      (h c (Proc.devRef .tc main_arg2) (mem_uc main_arg2 (by decide))).trans (W6_arg m c main_arg2 (by decide) (by decide) (by decide) (by decide) (by decide) (by decide)),
      (h c (Proc.devRef .tc main_arg3) (mem_uc main_arg3 (by decide))).trans (W6_arg m c main_arg3 (by decide) (by decide) (by decide) (by decide) (by decide) (by decide)),
      (h c (Proc.devRef .tc main_arg4) (mem_uc main_arg4 (by decide))).trans (W6_arg m c main_arg4 (by decide) (by decide) (by decide) (by decide) (by decide) (by decide)),
      (h c (Proc.devRef .tc main_arg5) (mem_uc main_arg5 (by decide))).trans (W6_arg m c main_arg5 (by decide) (by decide) (by decide) (by decide) (by decide) (by decide)),
      (h c (Proc.devRef .tc main_arg6) (mem_uc main_arg6 (by decide))).trans (W6_arg m c main_arg6 (by decide) (by decide) (by decide) (by decide) (by decide) (by decide)),
      (h c (Proc.devRef .tc main_arg7) (mem_uc main_arg7 (by decide))).trans (W6_arg m c main_arg7 (by decide) (by decide) (by decide) (by decide) (by decide) (by decide))⟩)
    (run m ρ)

/-- The run read at the result array and the arguments: the result at `W6`, every argument as launched. -/
theorem run_result : θ_run defs (onTc (τ := τ) (main (F := F))) ⟨m, fun _ => 0, ρ⟩ (fun r => ∀ c : Dev nD,
      r.2.mem ((c.tc : Thread nD τ).loc main_v13) = W6 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c (Proc.devRef .tc main_v13) (mem_uc main_v13 (by decide)),
      (h c (Proc.devRef .tc main_arg0) (mem_uc main_arg0 (by decide))).trans (W6_arg m c main_arg0 (by decide) (by decide) (by decide) (by decide) (by decide) (by decide)),
      (h c (Proc.devRef .tc main_arg1) (mem_uc main_arg1 (by decide))).trans (W6_arg m c main_arg1 (by decide) (by decide) (by decide) (by decide) (by decide) (by decide)),
      (h c (Proc.devRef .tc main_arg2) (mem_uc main_arg2 (by decide))).trans (W6_arg m c main_arg2 (by decide) (by decide) (by decide) (by decide) (by decide) (by decide)),
      (h c (Proc.devRef .tc main_arg3) (mem_uc main_arg3 (by decide))).trans (W6_arg m c main_arg3 (by decide) (by decide) (by decide) (by decide) (by decide) (by decide)),
      (h c (Proc.devRef .tc main_arg4) (mem_uc main_arg4 (by decide))).trans (W6_arg m c main_arg4 (by decide) (by decide) (by decide) (by decide) (by decide) (by decide)),
      (h c (Proc.devRef .tc main_arg5) (mem_uc main_arg5 (by decide))).trans (W6_arg m c main_arg5 (by decide) (by decide) (by decide) (by decide) (by decide) (by decide)),
      (h c (Proc.devRef .tc main_arg6) (mem_uc main_arg6 (by decide))).trans (W6_arg m c main_arg6 (by decide) (by decide) (by decide) (by decide) (by decide) (by decide)),
      (h c (Proc.devRef .tc main_arg7) (mem_uc main_arg7 (by decide))).trans (W6_arg m c main_arg7 (by decide) (by decide) (by decide) (by decide) (by decide) (by decide))⟩)
    (run m ρ)

end Cert.KernelIdeal.Fr

end
-- ==== Proof.KFrReg0.lean ====
/-
  The first pallas_call: one grid point, three whole-array windows. The body loads the feature matrix x (10000 × 128)
  and the weight W1 (128 × 32), multiplies them, and stores the product over the whole result window (10000 × 32).
  Stated at any contents `V` the unscoped buffers hold when the call is entered.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block whenever the body runs, for any proof data whose array
    is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each a whole buffer. -/
abbrev rx0 : Rect S10000x128 := Rect.unit (s := S10000x128) ![0, 0] S10000x128.size inb_S10000x128_S10000x128_0_0
abbrev rw0 : Rect S128x32 := Rect.unit (s := S128x32) ![0, 0] S128x32.size inb_S128x32_S128x32_0_0
abbrev ro0 : Rect S10000x32 := Rect.unit (s := S10000x32) ![0, 0] S10000x32.size inb_S10000x32_S10000x32_0_0

/-- What the body leaves in the result window's buffer: its one store, the product of the two loaded matrices. -/
def out0_2 (x0 : Vec F S10000x128 .f32) (x1 : Vec F S128x32 .f32) : Vec F S10000x32 .f32 :=
  View.canon [⟨ro0, k0_pay1 (View.ld x0 rx0) (View.ld x1 rw0)⟩]

/-- The one store covers the buffer. -/
theorem cover0_2 (p0 : Vec F S10000x32 .f32) (y : S10000x32.Idx) :
    ∃ pc ∈ ([⟨ro0, p0⟩] : List (View.Piece (Elt F) S10000x32 .f32)), y ∈ pc.1.set :=
  View.cover_of_tiled [⟨ro0, p0⟩] S10000x32.size (by rfl) y

set_option maxHeartbeats 1000000 in
/-- The body on whole staging buffers: the inputs' are left as read, the result's ends at `out0_2` of the inputs'. -/
theorem sound_kernel0 (c : Dev nD) (E : Set ℕ) (arg0 : Memref sig .tc .vmem S10000x128 .f32) (harg0 : arg0.IsWhole)
    (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__sx_kernel arg0 harg0 arg1 harg1 arg2 harg2) K := by
  simp only [cc0__sx_kernel_eq_skeleton]; unfold cc0__sx_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The call's proof data at entry contents `V`: the arrays as found; after the body each input buffer holds its block
    and the result buffer the product; nothing else is used or owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrReg1.lean ====
/-
  The second pallas_call: 25 grid points, seven windows. At point i the body reads two 200-row blocks of the adjacency
  (row blocks 2i and 2i + 1, through two windows over the one array), the whole first support s1, the bias row b1 and
  the weight W2, and stores relu(a · s1 + b1) · W2 for each row block into its own result window (block i of each).
  Stated at any contents `V` the unscoped buffers hold when the call is entered.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block whenever the body runs (fetched at that point or kept
    from an earlier one: the block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each a whole staging buffer. -/
abbrev r1_S200x10000 : Rect S200x10000 := Rect.unit (s := S200x10000) ![0, 0] S200x10000.size inb_S200x10000_S200x10000_0_0
abbrev r1_S10000x32 : Rect S10000x32 := Rect.unit (s := S10000x32) ![0, 0] S10000x32.size inb_S10000x32_S10000x32_0_0
abbrev r1_S1x32 : Rect S1x32 := Rect.unit (s := S1x32) ![0, 0] S1x32.size inb_S1x32_S1x32_0_0
abbrev r1_S32x32 : Rect S32x32 := Rect.unit (s := S32x32) ![0, 0] S32x32.size inb_S32x32_S32x32_0_0
abbrev r1_S200x32 : Rect S200x32 := Rect.unit (s := S200x32) ![0, 0] S200x32.size inb_S200x32_S200x32_0_0

/-- What the body leaves in the first result window's buffer: its store for the even row block, relu(a0 · s1 + b1) · W2. -/
def out1_5 (x0 : Vec F S200x10000 .f32) (x2 : Vec F S10000x32 .f32) (x3 : Vec F S1x32 .f32) (x4 : Vec F S32x32 .f32) : Vec F S200x32 .f32 :=
  View.canon [⟨r1_S200x32, k1_pay2 (View.ld x2 r1_S10000x32) (View.ld x0 r1_S200x10000) (View.ld x3 r1_S1x32) (View.ld x4 r1_S32x32)⟩]

/-- What the body leaves in the second result window's buffer: its store for the odd row block, relu(a1 · s1 + b1) · W2. -/
def out1_6 (x1 : Vec F S200x10000 .f32) (x2 : Vec F S10000x32 .f32) (x3 : Vec F S1x32 .f32) (x4 : Vec F S32x32 .f32) : Vec F S200x32 .f32 :=
  View.canon [⟨r1_S200x32, k1_pay3 (View.ld x2 r1_S10000x32) (View.ld x1 r1_S200x10000) (View.ld x3 r1_S1x32) (View.ld x4 r1_S32x32)⟩]

/-- One store over the whole buffer covers it. -/
theorem cover1_S200x32 (p0 : Vec F S200x32 .f32) (y : S200x32.Idx) :
    ∃ pc ∈ ([⟨r1_S200x32, p0⟩] : List (View.Piece (Elt F) S200x32 .f32)), y ∈ pc.1.set :=
  View.cover_of_tiled [⟨r1_S200x32, p0⟩] S200x32.size (by rfl) y

set_option maxHeartbeats 1000000 in
/-- The body on whole staging buffers: each input's is left as read, each result's ends at its `out1_w` of the inputs'. -/
theorem sound_kernel1 (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S10000x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S200x32 .f32) (harg6 : arg6.IsWhole) (arg7 : Memref sig .tc .vmem S200x32 .f32) (harg7 : arg7.IsWhole)
    (x0 : Vec F S200x10000 .f32) (x1 : Vec F S200x10000 .f32) (x2 : Vec F S10000x32 .f32) (x3 : Vec F S1x32 .f32) (x4 : Vec F S32x32 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x2 x3 x4)
            ∗ owns (c : Thread nD τ) arg7 fullShare (out1_6 x1 x2 x3 x4)) -∗ K ⟨⟩))
      ⊢ wp frame (wpE (defs₀ (F := F)) Variants.none c none) E (cc1__pass1_kernel i arg1 harg1 arg2 harg2 arg3 harg3 arg4 harg4 arg5 harg5 arg6 harg6 arg7 harg7) K := by
  simp only [cc1__pass1_kernel_eq_skeleton]; unfold cc1__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_S200x32 _)
  iexists _; isplitr
  swap; · iexact H7
  ipureintro
  exact View.read_writes_eq_canon _ _ _ (cover1_S200x32 _)

/-- The call's proof data at entry contents `V`: the arrays as found; after the body each input buffer holds its block and
    each result buffer what the body stored; nothing else is used or owed. The two windows over the adjacency hold it at
    the two halves of the full share; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 2 t) (iblk1 V c 3 t) (iblk1 V c 4 t)
    | ⟨6, _⟩ => out1_6 (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 2 t) (iblk1 V c 3 t) (iblk1 V c 4 t) := by dsimp only [dat1]
theorem after1_6 (c : Dev nD) (t : Fin cfg1.N) : (dat1 V c).after 6 t = out1_6 (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrReg2.lean ====
/-
  The third pallas_call: 25 grid points, eight windows. At point i the body reads row blocks 2i and 2i + 1 of the
  adjacency (two windows over the one array), the whole second support s2, the bias row b2, the classifier's weight Wfc
  and bias row bfc, and stores the row-wise log-softmax of (a · s2 + b2) · Wfcᵀ + bfc for each row block into its own
  result window (block i of each). Stated at any contents `V` the unscoped buffers hold when the call is entered.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds the window's block whenever the body runs (fetched at that point or kept
    from an earlier one: the block index has not moved), for any proof data whose array is the entry contents and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each a whole staging buffer. -/
abbrev r2_S200x10000 : Rect S200x10000 := Rect.unit (s := S200x10000) ![0, 0] S200x10000.size inb_S200x10000_S200x10000_0_0
abbrev r2_S10000x32 : Rect S10000x32 := Rect.unit (s := S10000x32) ![0, 0] S10000x32.size inb_S10000x32_S10000x32_0_0
abbrev r2_S1x32 : Rect S1x32 := Rect.unit (s := S1x32) ![0, 0] S1x32.size inb_S1x32_S1x32_0_0
abbrev r2_S16x32 : Rect S16x32 := Rect.unit (s := S16x32) ![0, 0] S16x32.size inb_S16x32_S16x32_0_0
abbrev r2_S1x16 : Rect S1x16 := Rect.unit (s := S1x16) ![0, 0] S1x16.size inb_S1x16_S1x16_0_0
abbrev r2_S200x16 : Rect S200x16 := Rect.unit (s := S200x16) ![0, 0] S200x16.size inb_S200x16_S200x16_0_0

/-- What the body leaves in the first result window's buffer: the log-softmax of (a0 · s2 + b2) · Wfcᵀ + bfc, the even row block. -/
def out2_6 (x0 : Vec F S200x10000 .f32) (x2 : Vec F S10000x32 .f32) (x3 : Vec F S1x32 .f32) (x4 : Vec F S16x32 .f32) (x5 : Vec F S1x16 .f32) : Vec F S200x16 .f32 :=
  View.canon [⟨r2_S200x16, k2_pay3 (View.ld x2 r2_S10000x32) (View.ld x0 r2_S200x10000) (View.ld x3 r2_S1x32) (View.ld x4 r2_S16x32) (View.ld x5 r2_S1x16)⟩]

/-- What the body leaves in the second result window's buffer: the same for the odd row block (its matmul accumulates into a zero vector). -/
def out2_7 (x1 : Vec F S200x10000 .f32) (x2 : Vec F S10000x32 .f32) (x3 : Vec F S1x32 .f32) (x4 : Vec F S16x32 .f32) (x5 : Vec F S1x16 .f32) : Vec F S200x16 .f32 :=
  View.canon [⟨r2_S200x16, k2_pay1 (k2_pay4 (View.ld x2 r2_S10000x32) (View.ld x1 r2_S200x10000) (View.ld x3 r2_S1x32)) (View.ld x4 r2_S16x32) (constant S200x16 .f32 0x00000000#32) (View.ld x5 r2_S1x16)⟩]

/-- One store over the whole buffer covers it. -/
theorem cover2_S200x16 (p0 : Vec F S200x16 .f32) (y : S200x16.Idx) :
    ∃ pc ∈ ([⟨r2_S200x16, p0⟩] : List (View.Piece (Elt F) S200x16 .f32)), y ∈ pc.1.set :=
  View.cover_of_tiled [⟨r2_S200x16, p0⟩] S200x16.size (by rfl) y

set_option maxHeartbeats 1000000 in
/-- The body on whole staging buffers: each input's is left as read, each result's ends at its `out2_w` of the inputs'. -/
theorem sound_kernel2 (c : Dev nD) (E : Set ℕ) (i : grid2.Coords) (arg1 : Memref sig .tc .vmem S200x10000 .f32) (harg1 : arg1.IsWhole) (arg2 : Memref sig .tc .vmem S200x10000 .f32) (harg2 : arg2.IsWhole) (arg3 : Memref sig .tc .vmem S10000x32 .f32) (harg3 : arg3.IsWhole) (arg4 : Memref sig .tc .vmem S1x32 .f32) (harg4 : arg4.IsWhole) (arg5 : Memref sig .tc .vmem S16x32 .f32) (harg5 : arg5.IsWhole) (arg6 : Memref sig .tc .vmem S1x16 .f32) (harg6 : arg6.IsWhole) (arg7 : Memref sig .tc .vmem S200x16 .f32) (harg7 : arg7.IsWhole) (arg8 : Memref sig .tc .vmem S200x16 .f32) (harg8 : arg8.IsWhole)
    (x0 : Vec F S200x10000 .f32) (x1 : Vec F S200x10000 .f32) (x2 : Vec F S10000x32 .f32) (x3 : Vec F S1x32 .f32) (x4 : Vec F S16x32 .f32) (x5 : Vec F S1x16 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (out2_6 x0 x2 x3 x4 x5)
            ∗ owns (c : Thread nD τ) arg8 fullShare (out2_7 x1 x2 x3 x4 x5)) -∗ K ⟨⟩))
      ⊢ wp frame (wpE (defs₀ (F := F)) Variants.none c none) E (cc2__pass2_kernel i arg1 harg1 arg2 harg2 arg3 harg3 arg4 harg4 arg5 harg5 arg6 harg6 arg7 harg7 arg8 harg8) K := by
  simp only [cc2__pass2_kernel_eq_skeleton]; unfold cc2__pass2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  -- The body is straight-line: every input buffer is only read, so it is left at the contents it had; each result
  -- buffer receives exactly one store, over its whole shape, of a payload of the inputs' reads.
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- A result buffer read back after its one whole-shape store is the canonical form of that store: the store's
  -- rectangle covers every index, so nothing of the earlier contents remains.
  isplitl [H6]
  · iexists _; isplitr
    swap; · iexact H6
    ipureintro
    exact View.read_writes_eq_canon _ _ _ (cover2_S200x16 _)
  iexists _; isplitr
  swap; · iexact H7
  ipureintro
  exact View.read_writes_eq_canon _ _ _ (cover2_S200x16 _)

/-- The call's proof data at entry contents `V`: the arrays as found; after the body each input buffer holds its block and
    each result buffer what the body stored; nothing else is used or owed. The two windows over the adjacency hold it at
    the two halves of the full share; every other array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 3 t) (iblk2 V c 4 t) (iblk2 V c 5 t)
    | ⟨7, _⟩ => out2_7 (iblk2 V c 1 t) (iblk2 V c 2 t) (iblk2 V c 3 t) (iblk2 V c 4 t) (iblk2 V c 5 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KFrVals.lean ====
/-
  The unscoped buffers' contents on a core at each boundary of @main, from the launch memory `m`:
    W0  at launch;
    W1  after the three reshapes of the bias vectors (entry of the first call);
    W2  after the first call: the buffer of s1 at what the call's write-back leaves, every other as before;
    W3  after the second call: its two result buffers at what their write-backs leave;
    W4  after the reshape / concatenate / reshape that interleaves them (entry of the third call);
    W5  after the third call: its two result buffers likewise;
    W6  after the last reshape / concatenate / reshape (the return).
  Each call's proof data is taken at its entry contents. No host operation and no call writes an argument array, so
  every argument reads back to the launch memory through the whole chain.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import proofs.«141518_g91104846282943_cont_sun_m_1213_12_alg».proof.Proof.Gen.Kernel.Regions
import proofs.«141518_g91104846282943_cont_sun_m_1213_12_alg».proof.Proof.KFrReg0
import proofs.«141518_g91104846282943_cont_sun_m_1213_12_alg».proof.Proof.KFrReg1
import proofs.«141518_g91104846282943_cont_sun_m_1213_12_alg».proof.Proof.KFrReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
/-- After the first host stretch (the biases as rows). -/
abbrev W1 (c : Dev nD) : Valuation τ sig (Elt F) := StableHlo.after hostOps0 (W0 m c)
/-- The same read at the TensorCore's references: what the first call's proof data take. -/
abbrev U1 : (c : Dev nD) → (b : Ref sig .tc) → Buf (Elt F) ((c : Thread nD τ).loc b) := fun c b => W1 m c b

/-- What the first call leaves in the buffer of s1. -/
def o3 (c : Dev nD) : Buf (Elt F) ((c : Thread nD τ).loc main_v3) := (dat0 (U1 m) c).arrAt 2 cfg0.N
/-- After the first call. -/
abbrev W2 (c : Dev nD) : Valuation τ sig (Elt F) := Function.update (W1 m c) main_v3 (o3 m c)
abbrev U2 : (c : Dev nD) → (b : Ref sig .tc) → Buf (Elt F) ((c : Thread nD τ).loc b) := fun c b => W2 m c b

/-- What the second call leaves in its two result buffers. -/
def o4_0 (c : Dev nD) : Buf (Elt F) ((c : Thread nD τ).loc main_v4_0) := (dat1 (U2 m) c).arrAt 5 cfg1.N
def o4_1 (c : Dev nD) : Buf (Elt F) ((c : Thread nD τ).loc main_v4_1) := (dat1 (U2 m) c).arrAt 6 cfg1.N
/-- After the second call. -/
abbrev W3 (c : Dev nD) : Valuation τ sig (Elt F) :=
  Function.update (Function.update (W2 m c) main_v4_0 (o4_0 m c)) main_v4_1 (o4_1 m c)
/-- After the second host stretch (the two halves interleaved into the second support). -/
abbrev W4 (c : Dev nD) : Valuation τ sig (Elt F) := StableHlo.after hostOps2 (W3 m c)
abbrev U4 : (c : Dev nD) → (b : Ref sig .tc) → Buf (Elt F) ((c : Thread nD τ).loc b) := fun c b => W4 m c b

/-- What the third call leaves in its two result buffers. -/
def o9_0 (c : Dev nD) : Buf (Elt F) ((c : Thread nD τ).loc main_v9_0) := (dat2 (U4 m) c).arrAt 6 cfg2.N
def o9_1 (c : Dev nD) : Buf (Elt F) ((c : Thread nD τ).loc main_v9_1) := (dat2 (U4 m) c).arrAt 7 cfg2.N
/-- After the third call. -/
abbrev W5 (c : Dev nD) : Valuation τ sig (Elt F) :=
  Function.update (Function.update (W4 m c) main_v9_0 (o9_0 m c)) main_v9_1 (o9_1 m c)
/-- After the last host stretch: the return. -/
abbrev W6 (c : Dev nD) : Valuation τ sig (Elt F) := StableHlo.after hostOps3 (W5 m c)

/-! ## What each step leaves unchanged, and what it writes -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v3] : List (Ref sig .tc))) : W2 m c r = W1 m c r := by
  simp only [W2, Function.update_of_ne (StableHlo.devRef_ne_of_ne (List.ne_of_not_mem_cons h) : (Proc.devRef .tc r : DevRef τ sig) ≠ Proc.devRef .tc main_v3)]
theorem W2_v3 (c : Dev nD) : W2 m c main_v3 = o3 m c := Function.update_self ..
theorem W3_of (c : Dev nD) (r : Ref sig .tc) (h : r ∉ ([main_v4_0, main_v4_1] : List (Ref sig .tc))) : W3 m c r = W2 m c r := by
  simp only [W3, Function.update_of_ne (StableHlo.devRef_ne_of_ne (List.ne_of_not_mem_cons h) : (Proc.devRef .tc r : DevRef τ sig) ≠ Proc.devRef .tc main_v4_0), Function.update_of_ne (StableHlo.devRef_ne_of_ne (List.ne_of_not_mem_cons (List.not_mem_of_not_mem_cons h)) : (Proc.devRef .tc r : DevRef τ sig) ≠ Proc.devRef .tc main_v4_1)]
theorem W3_v4_1 (c : Dev nD) : W3 m c main_v4_1 = o4_1 m c := Function.update_self ..
theorem W3_v4_0 (c : Dev nD) : W3 m c main_v4_0 = o4_0 m c := by
  simp only [W3, Function.update_of_ne (StableHlo.devRef_ne_of_ne (by decide : main_v4_0 ≠ main_v4_1) : (Proc.devRef .tc main_v4_0 : DevRef τ sig) ≠ Proc.devRef .tc main_v4_1), Function.update_self]
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : r ∉ ([main_v9_0, main_v9_1] : List (Ref sig .tc))) : W5 m c r = W4 m c r := by
  simp only [W5, Function.update_of_ne (StableHlo.devRef_ne_of_ne (List.ne_of_not_mem_cons h) : (Proc.devRef .tc r : DevRef τ sig) ≠ Proc.devRef .tc main_v9_0), Function.update_of_ne (StableHlo.devRef_ne_of_ne (List.ne_of_not_mem_cons (List.not_mem_of_not_mem_cons h)) : (Proc.devRef .tc r : DevRef τ sig) ≠ Proc.devRef .tc main_v9_1)]
theorem W5_v9_1 (c : Dev nD) : W5 m c main_v9_1 = o9_1 m c := Function.update_self ..
theorem W5_v9_0 (c : Dev nD) : W5 m c main_v9_0 = o9_0 m c := by
  simp only [W5, Function.update_of_ne (StableHlo.devRef_ne_of_ne (by decide : main_v9_0 ≠ main_v9_1) : (Proc.devRef .tc main_v9_0 : DevRef τ sig) ≠ Proc.devRef .tc main_v9_1), Function.update_self]
theorem W6_of (c : Dev nD) (r : Ref sig .tc) (h : r ∉ hostOps3_W) : W6 m c r = W5 m c r :=
  StableHlo.after_of_writes_sub hostOps3 _ hostOps3_writes h

/-- A buffer that no host stretch and no call writes holds its launch contents at every boundary. -/
theorem W6_arg (c : Dev nD) (r : Ref sig .tc) (h0 : r ∉ hostOps0_W) (h1 : r ∉ ([main_v3] : List (Ref sig .tc)))
    (h2 : r ∉ ([main_v4_0, main_v4_1] : List (Ref sig .tc))) (h3 : r ∉ hostOps2_W)
    (h4 : r ∉ ([main_v9_0, main_v9_1] : List (Ref sig .tc))) (h5 : r ∉ hostOps3_W) :
    W6 m c r = m ((c : Thread nD τ).loc r) :=
  (W6_of m c r h5).trans <| (W5_of m c r h4).trans <| (W4_of m c r h3).trans <| (W3_of m c r h2).trans <| (W2_of m c r h1).trans <| (W1_of m c r h0).trans rfl
theorem W4_arg (c : Dev nD) (r : Ref sig .tc) (h0 : r ∉ hostOps0_W) (h1 : r ∉ ([main_v3] : List (Ref sig .tc)))
    (h2 : r ∉ ([main_v4_0, main_v4_1] : List (Ref sig .tc))) (h3 : r ∉ hostOps2_W) :
    W4 m c r = m ((c : Thread nD τ).loc r) :=
  (W4_of m c r h3).trans <| (W3_of m c r h2).trans <| (W2_of m c r h1).trans <| (W1_of m c r h0).trans rfl
theorem W2_arg (c : Dev nD) (r : Ref sig .tc) (h0 : r ∉ hostOps0_W) (h1 : r ∉ ([main_v3] : List (Ref sig .tc))) :
    W2 m c r = m ((c : Thread nD τ).loc r) :=
  (W2_of m c r h1).trans <| (W1_of m c r h0).trans rfl
theorem W1_arg (c : Dev nD) (r : Ref sig .tc) (h0 : r ∉ hostOps0_W) : W1 m c r = m ((c : Thread nD τ).loc r) :=
  (W1_of m c r h0).trans rfl

/-! ## Every call's proof data, each at its entry contents -/

/-- A literal match, so that the family at a numeral reduces to that call's data. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2 (U4 m) c

end Cert.Kernel.Fr

end
-- ==== Proof.KFrSegCommon.lean ====
/-
  What rides beside the unscoped buffers through every item of @main, and the level data of a program whose cores owe
  one another nothing.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import proofs.«141518_g91104846282943_cont_sun_m_1213_12_alg».proof.Proof.KFrVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- The core's generator register at some state (a call's invariant takes it in and gives it back) and the core owing
    nothing. -/
abbrev R (c : Dev nD) : sProp 𝕄 := iprop((∃ r, prngReg c r) ∗ ∃ W, owes (c : Thread nD τ) (0 : CellTallies nD τ sig Unit) W)

end Cert.Kernel.Fr

end
-- ==== Proof.KFrSeg0.lean ====
/-
  The first pallas_call as an item of @main. Its three windows' arrays are distinct buffers: they are taken out of the
  unscoped buffers at entry and put back at exit with the result array at what the write-back leaves.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import proofs.«141518_g91104846282943_cont_sun_m_1213_12_alg».proof.Proof.KFrSegCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- At the call's end each window's array holds what `W2` records for its buffer. The two input arrays are never written
    back, so each still holds its entry contents, and `W2` differs from `W1` only at the buffer of s1; the result
    window's array is that buffer, where `W2` holds what the write-backs leave. -/
theorem reg0_hF (c : Dev nD) : ∀ w : Fin cfg0.W, (dat0 (U1 m) c).arrAt w cfg0.N = U2 m c (Pipeline.arrRef spec0 w)
  | ⟨0, _⟩ => (Pipeline.Dat.arrAt_in (dat := dat0 (U1 m) c) 0 rfl cfg0.N).trans <|
      (A_eq0 (U1 m) c 0).trans (W2_of m c _ (by decide)).symm
  | ⟨1, _⟩ => (Pipeline.Dat.arrAt_in (dat := dat0 (U1 m) c) 1 rfl cfg0.N).trans <|
      (A_eq0 (U1 m) c 1).trans (W2_of m c _ (by decide)).symm
  | ⟨2, _⟩ => (W2_v3 m c).symm

/-- A buffer that is no window's array is in particular not the buffer of s1 (the result window's array), the only one
    at which `W2` differs from `W1`. -/
theorem reg0_hrest (c : Dev nD) (b : Ref sig .tc) (hb : b ∉ Finset.univ.image (Pipeline.arrRef spec0)) :
    U2 m c b = U1 m c b :=
  W2_of m c b fun hmem => hb <| Finset.mem_image.mpr ⟨2, Finset.mem_univ _, (List.mem_singleton.mp hmem).symm⟩

set_option backward.isDefEq.respectTransparency.types false in
/-- The call as an item of @main: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hbufs, Hreg, %T, Howes⟩, -, -⟩
    ihave Hsp := hsplit $$ Hbufs
    icases Hsp with ⟨Harr, Hrest⟩
    imodintro
    isplitl [Harr]; · iexact Harr
    isplitr
    · unfold Pipeline.prefHeld; rw [Finset.univ_eq_empty, BI.bigSep_empty]; iempintro
    isplitl [Howes]
    · iexists T; isplitr
      · ipureintro; exact Set.subset_union_of_subset_left (Set.subset_univ _) _
      iexact Howes
    isplitl [Hreg]; · iexact Hreg
    iexact Hrest
  hin c := by
    show _ ⊢ iprop(Pipeline.scopedRest spec0 c ∗ ∃ r, prngReg c r)
    iintro ⟨Hreg, -, Hsc⟩
    isplitl [Hsc]; · iexact Hsc
    iexact Hreg
  hout c := by
    rw [Pipeline.ownSems0_none]
    show iprop(Pipeline.scopedRest spec0 c ∗ ∃ r, prngReg c r) ⊢ _
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (reg0_hF m c) (reg0_hrest m c)
    rw [Pipeline.unscopedBufs_held] at hjoin
    iintro ⟨Harr, ⟨%T, -, Howes⟩, Hreg, Hrest⟩
    imodintro
    isplitl [Harr Hrest]
    · iapply hjoin
      isplitl [Harr]; · iexact Harr
      iexact Hrest
    isplitl [Hreg]; · iexact Hreg
    iexists T; iexact Howes

end Cert.Kernel.Fr

end
-- ==== Proof.KFrShare.lean ====
/-
  Two windows over one array: the array's full share dealt as its two halves.

  A call's proof data holds each input window's array at the window's own share. The second and the third call read the
  adjacency through two windows, so the buffer behind it, held whole at the full share among the core's unscoped
  buffers, is dealt at entry as its left half (the first window) and its right half (the second), both at the same
  contents, and the halves are joined again at exit. Every other window's array is a buffer of its own, held whole.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import proofs.«141518_g91104846282943_cont_sun_m_1213_12_alg».proof.Proof.KFrSegCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second call -/

/-- The distinct buffers behind the call's seven windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v3) ↦{fullShare} W main_v3) ∗ (((c : Thread nD τ).loc main_v0) ↦{fullShare} W main_v0) ∗ (((c : Thread nD τ).loc main_arg4) ↦{fullShare} W main_arg4) ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq [main_arg1, main_v3, main_v0, main_arg4, main_v4_0, main_v4_1] (by decide) (by decide) _

/-- The share each window's array is held at: the adjacency's two halves, every other array whole. -/
theorem share1 (c : Dev nD) : ∀ w : Fin cfg1.W, (dat1 V c).share w = (match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare : PosShare TreeShare)
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The call's windowed arrays at contents `Fc`, one by one: the adjacency twice, at the two halves. -/
theorem arrays1_eq (c : Dev nD) (Fc : (w : Fin cfg1.W) → Buf (Elt F) ((cfg1.win w).arr.view.loc (c : Thread nD τ))) :
    ((dat1 V c).arrays Fc : sProp 𝕄)
      = iprop((((c : Thread nD τ).loc main_arg1) ↦{fullShare.left} Fc 0) ∗ (((c : Thread nD τ).loc main_arg1) ↦{fullShare.right} Fc 1) ∗ (((c : Thread nD τ).loc main_v3) ↦{fullShare} Fc 2) ∗ (((c : Thread nD τ).loc main_v0) ↦{fullShare} Fc 3) ∗ (((c : Thread nD τ).loc main_arg4) ↦{fullShare} Fc 4) ∗ (((c : Thread nD τ).loc main_v4_0) ↦{fullShare} Fc 5) ∗ (((c : Thread nD τ).loc main_v4_1) ↦{fullShare} Fc 6)) := by
  unfold Dat.arrays
  rw [show (bigSep Finset.univ fun w : Fin cfg1.W => ((cfg1.win w).arr.view.loc (c : Thread nD τ) ↦[(cfg1.win w).arr.view.set]{(dat1 V c).share w} Fc w : sProp 𝕄))
      = bigSep Finset.univ fun w : Fin cfg1.W => (((c : Thread nD τ).loc (Pipeline.arrRef spec1 w)) ↦{(dat1 V c).share w} Fc w : sProp 𝕄)
    from bigSep_congr fun w _ => by rw [(arr_whole1 w).set_eq_univ]]
  rw [bigSep_W1]
  simp only [share1]

/-- ENTRY: the buffers behind the windows, whole at contents `W`, are the call's arrays at contents read off `W`: the
    adjacency's full share splits into the two windows' halves. -/
theorem arrs1_split (c : Dev nD) (W : (b : Ref sig .tc) → Buf (Elt F) ((c : Thread nD τ).loc b))
    (Fc : (w : Fin cfg1.W) → Buf (Elt F) ((cfg1.win w).arr.view.loc (c : Thread nD τ))) (hF : ∀ w, Fc w = W (Pipeline.arrRef spec1 w)) :
    (Pipeline.arrBufs (Ix := Unit) (Name := ℕ) (U := UR sig nD τ) (Lvl := ℕ) spec1 c W : sProp 𝕄) ⊢ (dat1 V c).arrays Fc := by
  rw [arrBufs1_eq, arrays1_eq, hF 0, hF 1, hF 2, hF 3, hF 4, hF 5, hF 6]
  iintro ⟨H0, H1, H2, H3, H4, H5⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT: the call's arrays at contents `Fc` are the buffers behind the windows whole at any contents `W'` that reads
    `Fc` at them: the two halves of the adjacency, at one contents, join to its full share. -/
theorem arrs1_join (c : Dev nD) (W' : (b : Ref sig .tc) → Buf (Elt F) ((c : Thread nD τ).loc b))
    (Fc : (w : Fin cfg1.W) → Buf (Elt F) ((cfg1.win w).arr.view.loc (c : Thread nD τ))) (hF : ∀ w, Fc w = W' (Pipeline.arrRef spec1 w)) :
    ((dat1 V c).arrays Fc : sProp 𝕄) ⊢ Pipeline.arrBufs (Ix := Unit) (Name := ℕ) (U := UR sig nD τ) (Lvl := ℕ) spec1 c W' := by
  rw [arrBufs1_eq, arrays1_eq, hF 0, hF 1, hF 2, hF 3, hF 4, hF 5, hF 6]
  iintro ⟨Hl, Hr, H1, H2, H3, H4, H5⟩
  ihave H0 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  iexact H5

/-! ## The third call -/

/-- The distinct buffers behind the call's eight windows, one by one. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_arg1) ↦{fullShare} W main_arg1) ∗ (((c : Thread nD τ).loc main_v8) ↦{fullShare} W main_v8) ∗ (((c : Thread nD τ).loc main_v1) ↦{fullShare} W main_v1) ∗ (((c : Thread nD τ).loc main_arg6) ↦{fullShare} W main_arg6) ∗ (((c : Thread nD τ).loc main_v2) ↦{fullShare} W main_v2) ∗ (((c : Thread nD τ).loc main_v9_0) ↦{fullShare} W main_v9_0) ∗ (((c : Thread nD τ).loc main_v9_1) ↦{fullShare} W main_v9_1)) := by
  unfold Pipeline.arrBufs
  exact bigSep_eq_bigSepL_of_eq [main_arg1, main_v8, main_v1, main_arg6, main_v2, main_v9_0, main_v9_1] (by decide) (by decide) _

/-- The share each window's array is held at: the adjacency's two halves, every other array whole. -/
theorem share2 (c : Dev nD) : ∀ w : Fin cfg2.W, (dat2 V c).share w = (match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare : PosShare TreeShare)
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The call's windowed arrays at contents `Fc`, one by one: the adjacency twice, at the two halves. -/
theorem arrays2_eq (c : Dev nD) (Fc : (w : Fin cfg2.W) → Buf (Elt F) ((cfg2.win w).arr.view.loc (c : Thread nD τ))) :
    ((dat2 V c).arrays Fc : sProp 𝕄)
      = iprop((((c : Thread nD τ).loc main_arg1) ↦{fullShare.left} Fc 0) ∗ (((c : Thread nD τ).loc main_arg1) ↦{fullShare.right} Fc 1) ∗ (((c : Thread nD τ).loc main_v8) ↦{fullShare} Fc 2) ∗ (((c : Thread nD τ).loc main_v1) ↦{fullShare} Fc 3) ∗ (((c : Thread nD τ).loc main_arg6) ↦{fullShare} Fc 4) ∗ (((c : Thread nD τ).loc main_v2) ↦{fullShare} Fc 5) ∗ (((c : Thread nD τ).loc main_v9_0) ↦{fullShare} Fc 6) ∗ (((c : Thread nD τ).loc main_v9_1) ↦{fullShare} Fc 7)) := by
  unfold Dat.arrays
  rw [show (bigSep Finset.univ fun w : Fin cfg2.W => ((cfg2.win w).arr.view.loc (c : Thread nD τ) ↦[(cfg2.win w).arr.view.set]{(dat2 V c).share w} Fc w : sProp 𝕄))
      = bigSep Finset.univ fun w : Fin cfg2.W => (((c : Thread nD τ).loc (Pipeline.arrRef spec2 w)) ↦{(dat2 V c).share w} Fc w : sProp 𝕄)
    from bigSep_congr fun w _ => by rw [(arr_whole2 w).set_eq_univ]]
  rw [bigSep_W2]
  simp only [share2]

/-- ENTRY: the buffers behind the windows, whole at contents `W`, are the call's arrays at contents read off `W`: the
    adjacency's full share splits into the two windows' halves. -/
theorem arrs2_split (c : Dev nD) (W : (b : Ref sig .tc) → Buf (Elt F) ((c : Thread nD τ).loc b))
    (Fc : (w : Fin cfg2.W) → Buf (Elt F) ((cfg2.win w).arr.view.loc (c : Thread nD τ))) (hF : ∀ w, Fc w = W (Pipeline.arrRef spec2 w)) :
    (Pipeline.arrBufs (Ix := Unit) (Name := ℕ) (U := UR sig nD τ) (Lvl := ℕ) spec2 c W : sProp 𝕄) ⊢ (dat2 V c).arrays Fc := by
  rw [arrBufs2_eq, arrays2_eq, hF 0, hF 1, hF 2, hF 3, hF 4, hF 5, hF 6, hF 7]
  iintro ⟨H0, H1, H2, H3, H4, H5, H6⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  iexact H6

/-- EXIT: the call's arrays at contents `Fc` are the buffers behind the windows whole at any contents `W'` that reads
    `Fc` at them: the two halves of the adjacency, at one contents, join to its full share. -/
theorem arrs2_join (c : Dev nD) (W' : (b : Ref sig .tc) → Buf (Elt F) ((c : Thread nD τ).loc b))
    (Fc : (w : Fin cfg2.W) → Buf (Elt F) ((cfg2.win w).arr.view.loc (c : Thread nD τ))) (hF : ∀ w, Fc w = W' (Pipeline.arrRef spec2 w)) :
    ((dat2 V c).arrays Fc : sProp 𝕄) ⊢ Pipeline.arrBufs (Ix := Unit) (Name := ℕ) (U := UR sig nD τ) (Lvl := ℕ) spec2 c W' := by
  rw [arrBufs2_eq, arrays2_eq, hF 0, hF 1, hF 2, hF 3, hF 4, hF 5, hF 6, hF 7]
  iintro ⟨Hl, Hr, H1, H2, H3, H4, H5, H6⟩
  ihave H0 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  isplitl [H5]; · iexact H5
  iexact H6

/-- A core's unscoped buffers at contents `W` are the buffers behind the second call's windows and the rest. -/
theorem unscopedBufs1_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs (Ix := Unit) (Name := ℕ) (U := UR sig nD τ) (Lvl := ℕ) spec1 c W
          ∗ Pipeline.unscopedRest (Ix := Unit) (Name := ℕ) (U := UR sig nD τ) (Lvl := ℕ) spec1 c W) :=
  Pipeline.unscopedBufs_split₀ cfgs 1 winFacts₀1.arr_unscoped c W

/-- A core's unscoped buffers at contents `W` are the buffers behind the third call's windows and the rest. -/
theorem unscopedBufs2_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs (Ix := Unit) (Name := ℕ) (U := UR sig nD τ) (Lvl := ℕ) spec2 c W
          ∗ Pipeline.unscopedRest (Ix := Unit) (Name := ℕ) (U := UR sig nD τ) (Lvl := ℕ) spec2 c W) :=
  Pipeline.unscopedBufs_split₀ cfgs 2 winFacts₀2.arr_unscoped c W

end Cert.Kernel.Fr

end
-- ==== Proof.KFrSeg1.lean ====
/-
  The second pallas_call as an item of @main. Two of its windows read the one adjacency array: at entry that buffer's
  full share is dealt as two halves, one per window, and joined again at exit; the other arrays are distinct buffers.
  At exit the two result arrays hold what the write-backs leave and every other buffer what it held.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import proofs.«141518_g91104846282943_cont_sun_m_1213_12_alg».proof.Proof.KFrSegCommon
import proofs.«141518_g91104846282943_cont_sun_m_1213_12_alg».proof.Proof.KFrShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- The contents after the call, read at the TensorCore's references. -/
abbrev U3 : (c : Dev nD) → (b : Ref sig .tc) → Buf (Elt F) ((c : Thread nD τ).loc b) := fun c b => W3 m c b

/-- After the call each of its arrays holds what the pipeline leaves: an input array what it held, a result array its
    write-backs. -/
theorem hF1 (c : Dev nD) : ∀ w : Fin cfg1.W, (dat1 (U2 m) c).arrAt w cfg1.N = U3 m c (Pipeline.arrRef spec1 w)
  | ⟨0, _⟩ => ((dat1 (U2 m) c).arrAt_in 0 rfl _).trans ((A_eq1 (U2 m) c 0).trans (W3_of m c _ (by decide)).symm)
  | ⟨1, _⟩ => ((dat1 (U2 m) c).arrAt_in 1 rfl _).trans ((A_eq1 (U2 m) c 1).trans (W3_of m c _ (by decide)).symm)
  | ⟨2, _⟩ => ((dat1 (U2 m) c).arrAt_in 2 rfl _).trans ((A_eq1 (U2 m) c 2).trans (W3_of m c _ (by decide)).symm)
  | ⟨3, _⟩ => ((dat1 (U2 m) c).arrAt_in 3 rfl _).trans ((A_eq1 (U2 m) c 3).trans (W3_of m c _ (by decide)).symm)
  | ⟨4, _⟩ => ((dat1 (U2 m) c).arrAt_in 4 rfl _).trans ((A_eq1 (U2 m) c 4).trans (W3_of m c _ (by decide)).symm)
  | ⟨5, _⟩ => (W3_v4_0 m c).symm
  | ⟨6, _⟩ => (W3_v4_1 m c).symm

/-- Every other unscoped buffer holds what it held at entry. -/
theorem hrest1 (c : Dev nD) : ∀ b, b ∉ Finset.univ.image (Pipeline.arrRef spec1) → U3 m c b = U2 m c b := fun b hb =>
  W3_of m c b (by
    intro hmem
    rcases List.mem_cons.mp hmem with rfl | hmem
    · exact hb (Finset.mem_image.mpr ⟨5, Finset.mem_univ _, rfl⟩)
    · rcases List.mem_cons.mp hmem with rfl | hmem
      · exact hb (Finset.mem_image.mpr ⟨6, Finset.mem_univ _, rfl⟩)
      · exact absurd hmem (List.not_mem_nil))

set_option backward.isDefEq.respectTransparency.types false in
/-- The call as an item of @main: entered with every unscoped buffer at `W2`, left with them at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0)
            ∗ Pipeline.unscopedRest (Ix := Unit) (Name := ℕ) (U := UR sig nD τ) (Lvl := ℕ) spec1 c (U2 m c)) := by
      rw [← Pipeline.unscopedBufs_held (Ix := Unit) (Name := ℕ) (U := UR sig nD τ) (Lvl := ℕ) c (W2 m c)]
      rw [unscopedBufs1_split]
      exact sep_mono (arrs1_split (U2 m) c (U2 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (U2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c)]
      rw [unscopedBufs1_split]
      refine sep_mono (arrs1_join (U2 m) c (U3 m c) _ (hF1 m c)) (Entails.of_eq ?_)
      unfold Pipeline.unscopedRest
      exact bigSep_congr fun b hb => by
        show (((c : Thread nD τ).loc b) ↦{fullShare} U2 m c b : sProp 𝕄) = (((c : Thread nD τ).loc b) ↦{fullShare} U3 m c b)
        rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KFrSeg2.lean ====
/-
  The third pallas_call as an item of @main. Two of its windows read the one adjacency array: at entry that buffer's
  full share is dealt as two halves, one per window, and joined again at exit; the other arrays are distinct buffers.
  At exit the two result arrays hold what the write-backs leave and every other buffer what it held.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import proofs.«141518_g91104846282943_cont_sun_m_1213_12_alg».proof.Proof.KFrSegCommon
import proofs.«141518_g91104846282943_cont_sun_m_1213_12_alg».proof.Proof.KFrShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- The contents after the call, read at the TensorCore's references. -/
abbrev U5 : (c : Dev nD) → (b : Ref sig .tc) → Buf (Elt F) ((c : Thread nD τ).loc b) := fun c b => W5 m c b

/-- After the call each of its arrays holds what the pipeline leaves: an input array what it held, a result array its
    write-backs. -/
theorem hF2 (c : Dev nD) : ∀ w : Fin cfg2.W, (dat2 (U4 m) c).arrAt w cfg2.N = U5 m c (Pipeline.arrRef spec2 w)
  | ⟨0, _⟩ => ((dat2 (U4 m) c).arrAt_in 0 rfl _).trans ((A_eq2 (U4 m) c 0).trans (W5_of m c _ (by decide)).symm)
  | ⟨1, _⟩ => ((dat2 (U4 m) c).arrAt_in 1 rfl _).trans ((A_eq2 (U4 m) c 1).trans (W5_of m c _ (by decide)).symm)
  | ⟨2, _⟩ => ((dat2 (U4 m) c).arrAt_in 2 rfl _).trans ((A_eq2 (U4 m) c 2).trans (W5_of m c _ (by decide)).symm)
  | ⟨3, _⟩ => ((dat2 (U4 m) c).arrAt_in 3 rfl _).trans ((A_eq2 (U4 m) c 3).trans (W5_of m c _ (by decide)).symm)
  | ⟨4, _⟩ => ((dat2 (U4 m) c).arrAt_in 4 rfl _).trans ((A_eq2 (U4 m) c 4).trans (W5_of m c _ (by decide)).symm)
  | ⟨5, _⟩ => ((dat2 (U4 m) c).arrAt_in 5 rfl _).trans ((A_eq2 (U4 m) c 5).trans (W5_of m c _ (by decide)).symm)
  | ⟨6, _⟩ => (W5_v9_0 m c).symm
  | ⟨7, _⟩ => (W5_v9_1 m c).symm

/-- Every other unscoped buffer holds what it held at entry. -/
theorem hrest2 (c : Dev nD) : ∀ b, b ∉ Finset.univ.image (Pipeline.arrRef spec2) → U5 m c b = U4 m c b := fun b hb =>
  W5_of m c b (by
    intro hmem
    rcases List.mem_cons.mp hmem with rfl | hmem
    · exact hb (Finset.mem_image.mpr ⟨6, Finset.mem_univ _, rfl⟩)
    · rcases List.mem_cons.mp hmem with rfl | hmem
      · exact hb (Finset.mem_image.mpr ⟨7, Finset.mem_univ _, rfl⟩)
      · exact absurd hmem (List.not_mem_nil))

set_option backward.isDefEq.respectTransparency.types false in
/-- The call as an item of @main: entered with every unscoped buffer at `W4`, left with them at `W5`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit : (StableHlo.held (c : Thread nD τ) (Pipeline.ucRefs τ sig) (W4 m c) : sProp 𝕄)
        ⊢ iprop((pdats m 2 c).arrays ((pdats m 2 c).arrAt · 0)
            ∗ Pipeline.unscopedRest (Ix := Unit) (Name := ℕ) (U := UR sig nD τ) (Lvl := ℕ) spec2 c (U4 m c)) := by
      rw [← Pipeline.unscopedBufs_held (Ix := Unit) (Name := ℕ) (U := UR sig nD τ) (Lvl := ℕ) c (W4 m c)]
      rw [unscopedBufs2_split]
      exact sep_mono (arrs2_split (U4 m) c (U4 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (U4 m c))
        ⊢ (StableHlo.held (c : Thread nD τ) (Pipeline.ucRefs τ sig) (W5 m c) : sProp 𝕄) := by
      rw [← Pipeline.unscopedBufs_held (Ix := Unit) (Name := ℕ) (U := UR sig nD τ) (Lvl := ℕ) c (W5 m c)]
      rw [unscopedBufs2_split]
      refine sep_mono (arrs2_join (U4 m) c (U5 m c) _ (hF2 m c)) (Entails.of_eq ?_)
      unfold Pipeline.unscopedRest
      exact bigSep_congr fun b hb => by
        show (((c : Thread nD τ).loc b) ↦{fullShare} U4 m c b : sProp 𝕄) = (((c : Thread nD τ).loc b) ↦{fullShare} U5 m c b)
        rw [hrest2 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KFrRun.lean ====
/-
  @main as a whole. On every core it is six items in order: the three reshapes of the bias vectors, the first call, the
  second call, the reshape / concatenate / reshape that interleaves the second call's two results, the third call, and
  the last reshape / concatenate / reshape. Between two items a core holds every unscoped buffer whole, at that
  boundary's contents (W0 at launch … W6 at the return), beside its generator register at some state and the fact that
  it owes nothing. A host stretch takes the buffers from a boundary's contents to the next by definition of the latter;
  a call takes them from its entry contents to those with its result buffers at what its write-backs leave. Read against
  any final memory, the last state gives every unscoped buffer at W6; no item writes an argument array, so each argument
  reads back the launch memory.
-/
import proofs.«141518_g91104846282943_cont_sun_m_1213_12_alg».proof.Proof.Gen.Kernel.Launch
import proofs.«141518_g91104846282943_cont_sun_m_1213_12_alg».proof.Proof.Gen.Kernel.Skeleton
import proofs.«141518_g91104846282943_cont_sun_m_1213_12_alg».proof.Proof.Gen.Kernel.Points
import proofs.«141518_g91104846282943_cont_sun_m_1213_12_alg».proof.Proof.KFrSegCommon
import proofs.«141518_g91104846282943_cont_sun_m_1213_12_alg».proof.Proof.KFrSeg0
import proofs.«141518_g91104846282943_cont_sun_m_1213_12_alg».proof.Proof.KFrSeg1
import proofs.«141518_g91104846282943_cont_sun_m_1213_12_alg».proof.Proof.KFrSeg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as an item: entered with every unscoped buffer whole at `W c`, left with them at what the stretch's
    operations make of `W c`; the generator register and the core owing nothing pass through untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W R

/-- @main's six items: each host stretch from the contents of the boundary before it, each call by its record. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

/-- @main is the run of those items: a host item's program is the sequence of its operations. -/
theorem main_run (c : Dev nD) : main (F := F) c = Pipeline.Seg.run (segs m) :=
  main_segs adm (pdats m) () 𝒱₀ L lv
    (hseg hostOps0 hostOps0_sub hostOps0_fresh (W0 m)) (hseg hostOps2 hostOps2_sub hostOps2_fresh (W3 m))
    (hseg hostOps3 hostOps3_sub hostOps3_fresh (W5 m)) (reg0 m) (reg1 m) (reg2 m) rfl rfl rfl c

/-- An unscoped TensorCore reference is one of the buffers every boundary's state holds. -/
private theorem mem_uc (b : Ref sig .tc) (h : ¬ (Proc.devRef .tc b : DevRef τ sig).isScoped) :
    (Proc.devRef .tc b : DevRef τ sig) ∈ Pipeline.ucRefs τ sig :=
  Finset.mem_filter.mpr ⟨StableHlo.devRef_mem_tcRefs b, h⟩

/-- The state at launch: every unscoped buffer at the launch memory, the register, nothing owed. -/
private abbrev T0 (c : Dev nD) : sProp 𝕄 := iprop(StableHlo.held (c : Thread nD τ) (Pipeline.ucRefs τ sig) (W0 m c) ∗ R c)
/-- The state at the return, the fact that the core owes nothing set apart: every unscoped buffer at `W6`, the register at
    some state. -/
private abbrev Tn (c : Dev nD) : sProp 𝕄 := iprop(StableHlo.held (c : Thread nD τ) (Pipeline.ucRefs τ sig) (W6 m c) ∗ ∃ r, prngReg c r)

set_option backward.isDefEq.respectTransparency.types false in
/-- Every weakly fair execution of @main from memory `m` with all counters zero terminates, and in every final memory each
    unscoped buffer of each core holds `W6`. -/
theorem run : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      -- the launch element is the staging cells' own; no core needs a ghost resource beside it
      rw [BI.bigSep_emp_const]
      -- owning the whole user component is owning it through its embedding: the two spell one resource
      have hown : (ownU (initOf (Pipeline.cells cfgs cellOf_inj) (Pipeline.launchToks cfgs cellOf_inj)) : sProp 𝕄)
          ⊢ BI.own (emb₁ (initOf (Pipeline.cells (Pipeline.pin (pcfgs (F := F)) adm) cellOf_inj)
              (Pipeline.launchToks (Pipeline.pin (pcfgs (F := F)) adm) cellOf_inj))) := .rfl
      iintro Hu; imodintro
      isplitl [Hu]
      · iapply hown; iexact Hu
      iempintro)
    (T₀ := T0 m) (Tₙ := Tn m)
    (hch := ⟨fun _ => .rfl, fun _ => .rfl, fun _ => .rfl, fun _ => .rfl, fun _ => .rfl, fun _ => .rfl, fun c => by
      -- after the last stretch: the buffers at W6, and the rest regrouped so that the owing stands alone
      show iprop(StableHlo.held (c : Thread nD τ) (Pipeline.ucRefs τ sig) (W6 m c)
            ∗ (∃ r, prngReg c r) ∗ ∃ W, owes (c : Thread nD τ) (0 : CellTallies nD τ sig Unit) W)
          ⊢ (iprop((StableHlo.held (c : Thread nD τ) (Pipeline.ucRefs τ sig) (W6 m c) ∗ ∃ r, prngReg c r)
            ∗ ∃ W, owes (c : Thread nD τ) (0 : CellTallies nD τ sig Unit) W) : sProp 𝕄)
      iintro ⟨Hh, Hp, Ho⟩
      isplitr [Ho]
      · isplitl [Hh]; · iexact Hh
        iexact Hp
      iexact Ho⟩)
    (hinit := by
      -- core by core: the launch deals the unscoped buffers at the launch memory, which is `held` at W0; the register
      -- at its launch state; and the core owing nothing with no wait recorded
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = W6 m c b)
    (hfin := fun c s' => by
      -- a buffer held whole reads, in the final memory, as the contents it is held at
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun _ h => h)

/-- The frame: every argument array ends as launched (no host stretch and no call writes one). -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c (Proc.devRef .tc main_arg0) (mem_uc main_arg0 (by decide))).trans (W6_arg m c main_arg0 (by decide) (by decide) (by decide) (by decide) (by decide) (by decide)),
      (h c (Proc.devRef .tc main_arg1) (mem_uc main_arg1 (by decide))).trans (W6_arg m c main_arg1 (by decide) (by decide) (by decide) (by decide) (by decide) (by decide)),
      (h c (Proc.devRef .tc main_arg2) (mem_uc main_arg2 (by decide))).trans (W6_arg m c main_arg2 (by decide) (by decide) (by decide) (by decide) (by decide) (by decide)),
      (h c (Proc.devRef .tc main_arg3) (mem_uc main_arg3 (by decide))).trans (W6_arg m c main_arg3 (by decide) (by decide) (by decide) (by decide) (by decide) (by decide)),
      (h c (Proc.devRef .tc main_arg4) (mem_uc main_arg4 (by decide))).trans (W6_arg m c main_arg4 (by decide) (by decide) (by decide) (by decide) (by decide) (by decide)),
      (h c (Proc.devRef .tc main_arg5) (mem_uc main_arg5 (by decide))).trans (W6_arg m c main_arg5 (by decide) (by decide) (by decide) (by decide) (by decide) (by decide)),
      (h c (Proc.devRef .tc main_arg6) (mem_uc main_arg6 (by decide))).trans (W6_arg m c main_arg6 (by decide) (by decide) (by decide) (by decide) (by decide) (by decide)),
      (h c (Proc.devRef .tc main_arg7) (mem_uc main_arg7 (by decide))).trans (W6_arg m c main_arg7 (by decide) (by decide) (by decide) (by decide) (by decide) (by decide))⟩)
    (run m ρ)

/-- The run read at the result array and the arguments: the result at `W6`, every argument as launched. -/
theorem run_result : θ_run defs (onTc (τ := τ) (main (F := F))) ⟨m, fun _ => 0, ρ⟩ (fun r => ∀ c : Dev nD,
      r.2.mem ((c.tc : Thread nD τ).loc main_v13) = W6 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c (Proc.devRef .tc main_v13) (mem_uc main_v13 (by decide)),
      (h c (Proc.devRef .tc main_arg0) (mem_uc main_arg0 (by decide))).trans (W6_arg m c main_arg0 (by decide) (by decide) (by decide) (by decide) (by decide) (by decide)),
      (h c (Proc.devRef .tc main_arg1) (mem_uc main_arg1 (by decide))).trans (W6_arg m c main_arg1 (by decide) (by decide) (by decide) (by decide) (by decide) (by decide)),
      (h c (Proc.devRef .tc main_arg2) (mem_uc main_arg2 (by decide))).trans (W6_arg m c main_arg2 (by decide) (by decide) (by decide) (by decide) (by decide) (by decide)),
      (h c (Proc.devRef .tc main_arg3) (mem_uc main_arg3 (by decide))).trans (W6_arg m c main_arg3 (by decide) (by decide) (by decide) (by decide) (by decide) (by decide)),
      (h c (Proc.devRef .tc main_arg4) (mem_uc main_arg4 (by decide))).trans (W6_arg m c main_arg4 (by decide) (by decide) (by decide) (by decide) (by decide) (by decide)),
      (h c (Proc.devRef .tc main_arg5) (mem_uc main_arg5 (by decide))).trans (W6_arg m c main_arg5 (by decide) (by decide) (by decide) (by decide) (by decide) (by decide)),
      (h c (Proc.devRef .tc main_arg6) (mem_uc main_arg6 (by decide))).trans (W6_arg m c main_arg6 (by decide) (by decide) (by decide) (by decide) (by decide) (by decide)),
      (h c (Proc.devRef .tc main_arg7) (mem_uc main_arg7 (by decide))).trans (W6_arg m c main_arg7 (by decide) (by decide) (by decide) (by decide) (by decide) (by decide))⟩)
    (run m ρ)

end Cert.Kernel.Fr

end
-- ==== Proof.GcnSpec.lean ====
/-
  The graph-convolution network as one function of its eight argument arrays, index by index, on the extended reals.

  With x the 10000 × 128 features, adj the 10000 × 10000 adjacency, W1, b1, W2, b2 the two layers' weights and biases,
  Wfc, bfc the classifier's:
    s1 = x · W1                      h1 = max(adj · s1 + b1, 0)
    s2 = h1 · W2                     h2 = adj · s2 + b2
    logit = h2 · Wfcᵀ + bfc          out = (logit − rmax) − log Σ exp(logit − rmax),
  where rmax is the row's maximum folded from −∞ (`lsm`). Every sum is a finite sum over the contracted axis; a bias is read
  at the column alone.
-/
import Idealize.ShloMosaic.PureOps.Ideal
import Idealize.ShloMosaic.Lib.ValueIdx

noncomputable section

namespace GcnSpec

open Idealize.ShloMosaic Idealize.ShloMosaic.ValueIdx

abbrev Tx : Shape := ⟨2, ![10000, 128]⟩
abbrev Tadj : Shape := ⟨2, ![10000, 10000]⟩
abbrev TW1 : Shape := ⟨2, ![128, 32]⟩
abbrev Tb : Shape := ⟨1, ![32]⟩
abbrev TW2 : Shape := ⟨2, ![32, 32]⟩
abbrev TWfc : Shape := ⟨2, ![16, 32]⟩
abbrev Tbfc : Shape := ⟨1, ![16]⟩
abbrev Th : Shape := ⟨2, ![10000, 32]⟩
abbrev Tout : Shape := ⟨2, ![10000, 16]⟩

variable (x : Tx.Idx → EReal) (adj : Tadj.Idx → EReal) (W1 : TW1.Idx → EReal) (b1 : Tb.Idx → EReal)
  (W2 : TW2.Idx → EReal) (b2 : Tb.Idx → EReal) (Wfc : TWfc.Idx → EReal) (bfc : Tbfc.Idx → EReal)

/-- The first support: row `p` of x against column `q` of W1. -/
def s1 (p : Fin 10000) (q : Fin 32) : EReal := ∑ k : Fin 128, x (ix2 p k) * W1 (ix2 k q)

/-- The first layer: row `p` of the adjacency against column `k` of the support, the bias added, clamped at zero. -/
def h1 (p : Fin 10000) (k : Fin 32) : EReal :=
  max ((∑ l : Fin 10000, adj (ix2 p l) * s1 x W1 l k) + b1 (ix1 k)) 0

/-- The second support: the first layer against W2. -/
def s2 (p : Fin 10000) (q : Fin 32) : EReal := ∑ k : Fin 32, h1 x adj W1 b1 p k * W2 (ix2 k q)

/-- The second layer: the adjacency against the second support, the bias added. -/
def h2 (p : Fin 10000) (k : Fin 32) : EReal :=
  (∑ l : Fin 10000, adj (ix2 p l) * s2 x adj W1 b1 W2 l k) + b2 (ix1 k)

/-- The classifier's logits: row `p` of the second layer against ROW `j` of Wfc, the bias added. -/
def logit (p : Fin 10000) (j : Fin 16) : EReal :=
  (∑ k : Fin 32, h2 x adj W1 b1 W2 b2 p k * Wfc (ix2 j k)) + bfc (ix1 j)

/-- The log-softmax of sixteen numbers at position `j`: the number less the maximum (folded from −∞, the word
    0xFF800000), less the logarithm of the sum of the exponentials of all sixteen so shifted. -/
def lsm (lg : Fin 16 → EReal) (j : Fin 16) : EReal :=
  (lg j - (Finset.univ : Finset (Fin 16)).fold max (Ideal.ofBits .f32 0xFF800000#32) lg)
    - Ideal.log (∑ j' : Fin 16, Ideal.exp (lg j' - (Finset.univ : Finset (Fin 16)).fold max (Ideal.ofBits .f32 0xFF800000#32) lg))

/-- The log-softmax of a row's logits at a class. -/
def out (p : Fin 10000) (j : Fin 16) : EReal := lsm (fun j' => logit x adj W1 b1 W2 b2 Wfc bfc p j') j

/-- The result array. -/
def OUT : Tout.Idx → EReal := fun i => out x adj W1 b1 W2 b2 Wfc bfc (i 0) (i 1)

/-- The second support as an array (what the third call reads). -/
def S2 : Th.Idx → EReal := fun i => s2 x adj W1 b1 W2 (i 0) (i 1)

/-- The first support as an array (what the second call reads). -/
def S1 : Th.Idx → EReal := fun i => s1 x W1 (i 0) (i 1)

theorem OUT_ix2 (p : Fin 10000) (j : Fin 16) : OUT x adj W1 b1 W2 b2 Wfc bfc (ix2 p j) = out x adj W1 b1 W2 b2 Wfc bfc p j := rfl
theorem S2_ix2 (p : Fin 10000) (q : Fin 32) : S2 x adj W1 b1 W2 (ix2 p q) = s2 x adj W1 b1 W2 p q := rfl
theorem S1_ix2 (p : Fin 10000) (q : Fin 32) : S1 x W1 (ix2 p q) = s1 x W1 p q := rfl

end GcnSpec

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.ValPay.lean ====
/-
  The three kernel bodies' stored values at the ideal instance, read at an index.

  Each body computes, from whole staging buffers, a matrix product into a zero accumulator (a finite sum of products over
  the contracted axis), adds a bias row (a 1 × n row broadcast down the rows), and then either clamps at zero and
  multiplies by a second weight (the second call) or takes the row-wise log-softmax (the third call). Read at entry
  (r, q) of the stored block each is the formula below in the entries of the buffers the body loaded.
-/
import proofs.«141518_g91104846282943_cont_sun_m_1213_12_alg».proof.Proof.Gen.KernelIdeal.Skeleton
import proofs.«141518_g91104846282943_cont_sun_m_1213_12_alg».proof.Proof.GcnSpec
import proofs.«141518_g91104846282943_cont_sun_m_1213_12_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx
open Cert.KernelIdeal Cert.KernelIdeal.Gen

/-! ## The four matrix products into a zero accumulator, read at (p, q) -/

/-- The left operand's row coordinate is the result's row coordinate. -/
theorem mmX_lhs_0 (i : S10000x32.Idx) (c : dot_S10000x128_S128x32_S10000x32_1_0_0_1_n_n.contr.Idx) :
    (dot_S10000x128_S128x32_S10000x32_1_0_0_1_n_n.lhsIdx i c 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl

/-- The left operand's column coordinate is the contraction position. -/
theorem mmX_lhs_1 (i : S10000x32.Idx) (c : dot_S10000x128_S128x32_S10000x32_1_0_0_1_n_n.contr.Idx) :
    (dot_S10000x128_S128x32_S10000x32_1_0_0_1_n_n.lhsIdx i c 1).val = (c ⟨0, by decide⟩).val :=
  dot_S10000x128_S128x32_S10000x32_1_0_0_1_n_n.lhsIdx_val_of_single rfl i c

/-- The right operand's contracted coordinate (axis 0) is the contraction position. -/
theorem mmX_rhs_0 (i : S10000x32.Idx) (c : dot_S10000x128_S128x32_S10000x32_1_0_0_1_n_n.contr.Idx) :
    (dot_S10000x128_S128x32_S10000x32_1_0_0_1_n_n.rhsIdx i c 0).val = (c ⟨0, by decide⟩).val :=
  dot_S10000x128_S128x32_S10000x32_1_0_0_1_n_n.rhsIdx_val_of_single rfl i c

/-- The right operand's free coordinate (axis 1) is the result's column coordinate. -/
theorem mmX_rhs_1 (i : S10000x32.Idx) (c : dot_S10000x128_S128x32_S10000x32_1_0_0_1_n_n.contr.Idx) :
    (dot_S10000x128_S128x32_S10000x32_1_0_0_1_n_n.rhsIdx i c 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The features against the first weight, into zeros: entry (p, q) is row p of the left operand against column q of the right. -/
theorem mmX_apply (a : FVec Ideal S10000x128 .f32) (b : FVec Ideal S128x32 .f32) (p : Fin 10000) (q : Fin 32) :
    matmul dot_S10000x128_S128x32_S10000x32_1_0_0_1_n_n none a b (constant S10000x32 .f32 0x00000000#32) (ix2 p q)
      = ∑ k : Fin 128, a (ix2 p k) * b (ix2 k q) := by
  refine (Ideal.matmul_constant_zero_apply dot_S10000x128_S128x32_S10000x32_1_0_0_1_n_n none a b (ix2 p q)).trans ?_
  rw [← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q) ((contrEquiv1 dot_S10000x128_S128x32_S10000x32_1_0_0_1_n_n 128 rfl rfl).symm k) = ix2 p k := funext fun x => Fin.ext (by
    match x with
    | ⟨0, _⟩ => exact mmX_lhs_0 _ _
    | ⟨1, _⟩ => exact (mmX_lhs_1 _ _).trans hk)
  have er : dot_S10000x128_S128x32_S10000x32_1_0_0_1_n_n.rhsIdx (ix2 p q) ((contrEquiv1 dot_S10000x128_S128x32_S10000x32_1_0_0_1_n_n 128 rfl rfl).symm k) = ix2 k q := funext fun x => Fin.ext (by
    match x with
    | ⟨0, _⟩ => exact (mmX_rhs_0 _ _).trans hk
    | ⟨1, _⟩ => exact mmX_rhs_1 _ _)
  rw [el, er]

/-- The left operand's row coordinate is the result's row coordinate. -/
theorem mmA_lhs_0 (i : S200x32.Idx) (c : dot_S200x10000_S10000x32_S200x32_1_0_0_1_n_n.contr.Idx) :
    (dot_S200x10000_S10000x32_S200x32_1_0_0_1_n_n.lhsIdx i c 0).val = (i 0).val := by
  unfold DotDims.lhsIdx
  rw [dif_neg (show ¬(0 : Fin S200x10000.rank) ∈ dot_S200x10000_S10000x32_S200x32_1_0_0_1_n_n.lhsBatch by decide), dif_pos (show (0 : Fin S200x10000.rank) ∈ dot_S200x10000_S10000x32_S200x32_1_0_0_1_n_n.lhsNonContracting by decide)]
  rfl

/-- The left operand's column coordinate is the contraction position. -/
theorem mmA_lhs_1 (i : S200x32.Idx) (c : dot_S200x10000_S10000x32_S200x32_1_0_0_1_n_n.contr.Idx) :
    (dot_S200x10000_S10000x32_S200x32_1_0_0_1_n_n.lhsIdx i c 1).val = (c ⟨0, by decide⟩).val :=
  dot_S200x10000_S10000x32_S200x32_1_0_0_1_n_n.lhsIdx_val_of_single rfl i c

/-- The right operand's contracted coordinate (axis 0) is the contraction position. -/
theorem mmA_rhs_0 (i : S200x32.Idx) (c : dot_S200x10000_S10000x32_S200x32_1_0_0_1_n_n.contr.Idx) :
    (dot_S200x10000_S10000x32_S200x32_1_0_0_1_n_n.rhsIdx i c 0).val = (c ⟨0, by decide⟩).val :=
  dot_S200x10000_S10000x32_S200x32_1_0_0_1_n_n.rhsIdx_val_of_single rfl i c

/-- The right operand's free coordinate (axis 1) is the result's column coordinate. -/
theorem mmA_rhs_1 (i : S200x32.Idx) (c : dot_S200x10000_S10000x32_S200x32_1_0_0_1_n_n.contr.Idx) :
    (dot_S200x10000_S10000x32_S200x32_1_0_0_1_n_n.rhsIdx i c 1).val = (i 1).val := by
  unfold DotDims.rhsIdx
  rw [dif_neg (show ¬(1 : Fin S10000x32.rank) ∈ dot_S200x10000_S10000x32_S200x32_1_0_0_1_n_n.rhsBatch by decide), dif_pos (show (1 : Fin S10000x32.rank) ∈ dot_S200x10000_S10000x32_S200x32_1_0_0_1_n_n.rhsNonContracting by decide)]
  rfl

/-- An adjacency block against a support, into zeros: entry (p, q) is row p of the block against column q of the support. -/
theorem mmA_apply (a : FVec Ideal S200x10000 .f32) (b : FVec Ideal S10000x32 .f32) (p : Fin 200) (q : Fin 32) :
    matmul dot_S200x10000_S10000x32_S200x32_1_0_0_1_n_n none a b (constant S200x32 .f32 0x00000000#32) (ix2 p q)
      = ∑ k : Fin 10000, a (ix2 p k) * b (ix2 k q) := by
  refine (Ideal.matmul_constant_zero_apply dot_S200x10000_S10000x32_S200x32_1_0_0_1_n_n none a b (ix2 p q)).trans ?_
  rw [← Equiv.sum_comp (contrEquiv1 dot_S200x10000_S10000x32_S200x32_1_0_0_1_n_n 10000 rfl rfl).symm]
  refine Finset.sum_congr rfl fun k _ => ?_
  have hk := contrEquiv1_symm_val dot_S200x10000_S10000x32_S200x32_1_0_0_1_n_n 10000 rfl rfl k
  have el : dot_S200x10000_S10000x32_S200x32_1_0_0_1_n_n.lhsIdx (ix2 p q) ((contrEquiv1 dot_S200x10000_S10000x32_S200x32_1_0_0_1_n_n 10000 rfl rfl).symm k) = ix2 p k := funext fun x => Fin.ext (by
    match x with
    | ⟨0, _⟩ => exact mmA_lhs_0 _ _
    | ⟨1, _⟩ => exact (mmA_lhs_1 _ _).trans hk)
  have er : dot_S200x10000_S10000x32_S200x32_1_0_0_1_n_n.rhsIdx (ix2 p q) ((contrEquiv1 dot_S200x10000_S10000x32_S200x32_1_0_0_1_n_n 10000 rfl rfl).symm k) = ix2 k q := funext fun x => Fin.ext (by
    match x with
    | ⟨0, _⟩ => exact (mmA_rhs_0 _ _).trans hk
    | ⟨1, _⟩ => exact mmA_rhs_1 _ _)
  rw [el, er]

/-- The left operand's row coordinate is the result's row coordinate. -/
theorem mmW_lhs_0 (i : S200x32.Idx) (c : dot_S200x32_S32x32_S200x32_1_0_0_1_n_n.contr.Idx) :
    (dot_S200x32_S32x32_S200x32_1_0_0_1_n_n.lhsIdx i c 0).val = (i 0).val := by
  unfold DotDims.lhsIdx
  rw [dif_neg (show ¬(0 : Fin S200x32.rank) ∈ dot_S200x32_S32x32_S200x32_1_0_0_1_n_n.lhsBatch by decide), dif_pos (show (0 : Fin S200x32.rank) ∈ dot_S200x32_S32x32_S200x32_1_0_0_1_n_n.lhsNonContracting by decide)]
  rfl

/-- The left operand's column coordinate is the contraction position. -/
theorem mmW_lhs_1 (i : S200x32.Idx) (c : dot_S200x32_S32x32_S200x32_1_0_0_1_n_n.contr.Idx) :
    (dot_S200x32_S32x32_S200x32_1_0_0_1_n_n.lhsIdx i c 1).val = (c ⟨0, by decide⟩).val :=
  dot_S200x32_S32x32_S200x32_1_0_0_1_n_n.lhsIdx_val_of_single rfl i c

/-- The right operand's contracted coordinate (axis 0) is the contraction position. -/
theorem mmW_rhs_0 (i : S200x32.Idx) (c : dot_S200x32_S32x32_S200x32_1_0_0_1_n_n.contr.Idx) :
    (dot_S200x32_S32x32_S200x32_1_0_0_1_n_n.rhsIdx i c 0).val = (c ⟨0, by decide⟩).val :=
  dot_S200x32_S32x32_S200x32_1_0_0_1_n_n.rhsIdx_val_of_single rfl i c

/-- The right operand's free coordinate (axis 1) is the result's column coordinate. -/
theorem mmW_rhs_1 (i : S200x32.Idx) (c : dot_S200x32_S32x32_S200x32_1_0_0_1_n_n.contr.Idx) :
    (dot_S200x32_S32x32_S200x32_1_0_0_1_n_n.rhsIdx i c 1).val = (i 1).val := by
  unfold DotDims.rhsIdx
  rw [dif_neg (show ¬(1 : Fin S32x32.rank) ∈ dot_S200x32_S32x32_S200x32_1_0_0_1_n_n.rhsBatch by decide), dif_pos (show (1 : Fin S32x32.rank) ∈ dot_S200x32_S32x32_S200x32_1_0_0_1_n_n.rhsNonContracting by decide)]
  rfl

/-- A block of hidden rows against the second weight, into zeros: entry (p, q) is row p against column q. -/
theorem mmW_apply (a : FVec Ideal S200x32 .f32) (b : FVec Ideal S32x32 .f32) (p : Fin 200) (q : Fin 32) :
    matmul dot_S200x32_S32x32_S200x32_1_0_0_1_n_n none a b (constant S200x32 .f32 0x00000000#32) (ix2 p q)
      = ∑ k : Fin 32, a (ix2 p k) * b (ix2 k q) := by
  refine (Ideal.matmul_constant_zero_apply dot_S200x32_S32x32_S200x32_1_0_0_1_n_n none a b (ix2 p q)).trans ?_
  rw [← Equiv.sum_comp (contrEquiv1 dot_S200x32_S32x32_S200x32_1_0_0_1_n_n 32 rfl rfl).symm]
  refine Finset.sum_congr rfl fun k _ => ?_
  have hk := contrEquiv1_symm_val dot_S200x32_S32x32_S200x32_1_0_0_1_n_n 32 rfl rfl k
  have el : dot_S200x32_S32x32_S200x32_1_0_0_1_n_n.lhsIdx (ix2 p q) ((contrEquiv1 dot_S200x32_S32x32_S200x32_1_0_0_1_n_n 32 rfl rfl).symm k) = ix2 p k := funext fun x => Fin.ext (by
    match x with
    | ⟨0, _⟩ => exact mmW_lhs_0 _ _
    | ⟨1, _⟩ => exact (mmW_lhs_1 _ _).trans hk)
  have er : dot_S200x32_S32x32_S200x32_1_0_0_1_n_n.rhsIdx (ix2 p q) ((contrEquiv1 dot_S200x32_S32x32_S200x32_1_0_0_1_n_n 32 rfl rfl).symm k) = ix2 k q := funext fun x => Fin.ext (by
    match x with
    | ⟨0, _⟩ => exact (mmW_rhs_0 _ _).trans hk
    | ⟨1, _⟩ => exact mmW_rhs_1 _ _)
  rw [el, er]

/-- The left operand's row coordinate is the result's row coordinate. -/
theorem mmC_lhs_0 (i : S200x16.Idx) (c : dot_S200x32_S16x32_S200x16_1_1_0_0_n_n.contr.Idx) :
    (dot_S200x32_S16x32_S200x16_1_1_0_0_n_n.lhsIdx i c 0).val = (i 0).val := by
  unfold DotDims.lhsIdx
  rw [dif_neg (show ¬(0 : Fin S200x32.rank) ∈ dot_S200x32_S16x32_S200x16_1_1_0_0_n_n.lhsBatch by decide), dif_pos (show (0 : Fin S200x32.rank) ∈ dot_S200x32_S16x32_S200x16_1_1_0_0_n_n.lhsNonContracting by decide)]
  rfl

/-- The left operand's column coordinate is the contraction position. -/
theorem mmC_lhs_1 (i : S200x16.Idx) (c : dot_S200x32_S16x32_S200x16_1_1_0_0_n_n.contr.Idx) :
    (dot_S200x32_S16x32_S200x16_1_1_0_0_n_n.lhsIdx i c 1).val = (c ⟨0, by decide⟩).val :=
  dot_S200x32_S16x32_S200x16_1_1_0_0_n_n.lhsIdx_val_of_single rfl i c

/-- The right operand's free coordinate (axis 0) is the result's column coordinate. -/
theorem mmC_rhs_0 (i : S200x16.Idx) (c : dot_S200x32_S16x32_S200x16_1_1_0_0_n_n.contr.Idx) :
    (dot_S200x32_S16x32_S200x16_1_1_0_0_n_n.rhsIdx i c 0).val = (i 1).val := by
  unfold DotDims.rhsIdx
  rw [dif_neg (show ¬(0 : Fin S16x32.rank) ∈ dot_S200x32_S16x32_S200x16_1_1_0_0_n_n.rhsBatch by decide), dif_pos (show (0 : Fin S16x32.rank) ∈ dot_S200x32_S16x32_S200x16_1_1_0_0_n_n.rhsNonContracting by decide)]
  rfl

/-- The right operand's contracted coordinate (axis 1) is the contraction position. -/
theorem mmC_rhs_1 (i : S200x16.Idx) (c : dot_S200x32_S16x32_S200x16_1_1_0_0_n_n.contr.Idx) :
    (dot_S200x32_S16x32_S200x16_1_1_0_0_n_n.rhsIdx i c 1).val = (c ⟨0, by decide⟩).val :=
  dot_S200x32_S16x32_S200x16_1_1_0_0_n_n.rhsIdx_val_of_single rfl i c

/-- A block of hidden rows against the classifier's weight, contracting the feature axis of both, into zeros: entry (p, q) is row p of the left operand against ROW q of the right. -/
theorem mmC_apply (a : FVec Ideal S200x32 .f32) (b : FVec Ideal S16x32 .f32) (p : Fin 200) (q : Fin 16) :
    matmul dot_S200x32_S16x32_S200x16_1_1_0_0_n_n none a b (constant S200x16 .f32 0x00000000#32) (ix2 p q)
      = ∑ k : Fin 32, a (ix2 p k) * b (ix2 q k) := by
  refine (Ideal.matmul_constant_zero_apply dot_S200x32_S16x32_S200x16_1_1_0_0_n_n none a b (ix2 p q)).trans ?_
  rw [← Equiv.sum_comp (contrEquiv1 dot_S200x32_S16x32_S200x16_1_1_0_0_n_n 32 rfl rfl).symm]
  refine Finset.sum_congr rfl fun k _ => ?_
  have hk := contrEquiv1_symm_val dot_S200x32_S16x32_S200x16_1_1_0_0_n_n 32 rfl rfl k
  have el : dot_S200x32_S16x32_S200x16_1_1_0_0_n_n.lhsIdx (ix2 p q) ((contrEquiv1 dot_S200x32_S16x32_S200x16_1_1_0_0_n_n 32 rfl rfl).symm k) = ix2 p k := funext fun x => Fin.ext (by
    match x with
    | ⟨0, _⟩ => exact mmC_lhs_0 _ _
    | ⟨1, _⟩ => exact (mmC_lhs_1 _ _).trans hk)
  have er : dot_S200x32_S16x32_S200x16_1_1_0_0_n_n.rhsIdx (ix2 p q) ((contrEquiv1 dot_S200x32_S16x32_S200x16_1_1_0_0_n_n 32 rfl rfl).symm k) = ix2 q k := funext fun x => Fin.ext (by
    match x with
    | ⟨0, _⟩ => exact mmC_rhs_0 _ _
    | ⟨1, _⟩ => exact (mmC_rhs_1 _ _).trans hk)
  rw [el, er]

/-! ## A bias row broadcast down the rows -/

/-- A 1 × n row broadcast to a × n reads, at (p, c), the row's entry c. -/
theorem broadcastTo_1n_an_apply {α : Type} {a n : ℕ} (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ =>
    show 0 = if (1 : ℕ) = 1 then 0 else p.val
    rw [if_pos rfl]
  | ⟨1, _⟩ =>
    show c.val = if n = 1 then 0 else c.val
    split
    · have := c.isLt; omega
    · rfl

/-! ## An adjacency block against the support, plus the bias row -/

/-- Entry (r, k) of a · s + b: row r of the adjacency block against column k of the support, plus the bias at k. The
    support passes through a view of its shape to itself, which moves nothing. -/
theorem hidden_apply (v0 : Vec Ideal S10000x32 .f32) (v27 : Vec Ideal S200x10000 .f32) (v29 : Vec Ideal S1x32 .f32)
    (r : Fin 200) (k : Fin 32) :
    k2_pay4 (F := Ideal) v0 v27 v29 (ix2 r k) = (∑ l : Fin 10000, v27 (ix2 r l) * v0 (ix2 l k)) + v29 (ix2 (0 : Fin 1) k) := by
  unfold k2_pay4 k2_pay2
  rw [shapeCast_self, shapeCast_self]
  refine (addf_apply _ _ _).trans ?_
  rw [mmA_apply, broadcastTo_1n_an_apply]

/-! ## The row-wise log-softmax of a 200 × 16 matrix -/

/-- The row maxima (folded from the word 0xFF800000), kept as a column and broadcast back over the rows. -/
def rowMaxB (x : FVec Ideal S200x16 .f32) : FVec Ideal S200x16 .f32 :=
  broadcastTo S200x16
    (shapeCast S200x1 (multiReduction (F := Ideal) .maximumf [1] S200 x 0xFF800000#32 reduces_S200x16_S200 (.inl rfl) rfl)
      shapeCasts_S200_S200x1) broadcasts_S200x1_S200x16

/-- At (r, c) it is the fold of max over row r, whatever c. -/
theorem rowMaxB_apply (x : FVec Ideal S200x16 .f32) (r : Fin 200) (c : Fin 16) :
    rowMaxB x (ix2 r c)
      = (Finset.univ : Finset (Fin 16)).fold max (Ideal.ofBits .f32 0xFF800000#32) (fun k => x (ix2 r k)) := by
  unfold rowMaxB
  refine (RowOps.broadcastTo_a1_ab_apply _ _ r c).trans ?_
  refine (RowOps.shapeCast_a_a1_apply _ _ r (0 : Fin 1)).trans ?_
  exact RowOps.multiReduction_max_row x _ _ _ _ r

/-- The logarithm of the row sums of exp (x − row maximum), kept as a column and broadcast back over the rows. -/
def rowLseB (x : FVec Ideal S200x16 .f32) : FVec Ideal S200x16 .f32 :=
  broadcastTo S200x16
    (log (shapeCast S200x1
      (multiReduction (F := Ideal) .add [1] S200 (exp (subf x (rowMaxB x))) 0x00000000#32 reduces_S200x16_S200 (.inl rfl) rfl)
      shapeCasts_S200_S200x1)) broadcasts_S200x1_S200x16

/-- At (r, c) it is the logarithm of the sum over row r of the exponentials of the entries less the row's maximum. -/
theorem rowLseB_apply (x : FVec Ideal S200x16 .f32) (r : Fin 200) (c : Fin 16) :
    rowLseB x (ix2 r c)
      = Ideal.log (∑ k : Fin 16, Ideal.exp (x (ix2 r k)
          - (Finset.univ : Finset (Fin 16)).fold max (Ideal.ofBits .f32 0xFF800000#32) (fun k' => x (ix2 r k')))) := by
  unfold rowLseB
  refine (RowOps.broadcastTo_a1_ab_apply _ _ r c).trans ?_
  show Ideal.log (shapeCast S200x1 _ shapeCasts_S200_S200x1 (ix2 r (0 : Fin 1))) = _
  refine congrArg Ideal.log ?_
  refine (RowOps.shapeCast_a_a1_apply _ _ r (0 : Fin 1)).trans ?_
  refine (RowOps.multiReduction_add_row _ _ _ _ _ r).trans ?_
  refine Finset.sum_congr rfl fun k _ => ?_
  show Ideal.exp (x (ix2 r k) - rowMaxB x (ix2 r k)) = _
  rw [rowMaxB_apply]

/-- (x − row maximum) − log Σ exp (x − row maximum) at (r, j) is the log-softmax of row r at j. -/
theorem rowLsm_apply (x : FVec Ideal S200x16 .f32) (r : Fin 200) (j : Fin 16) :
    subf (subf x (rowMaxB x)) (rowLseB x) (ix2 r j) = GcnSpec.lsm (fun j' => x (ix2 r j')) j := by
  show (x (ix2 r j) - rowMaxB x (ix2 r j)) - rowLseB x (ix2 r j) = _
  rw [rowMaxB_apply, rowLseB_apply]
  rfl

/-! ## The classifier and the log-softmax over a block of hidden rows -/

/-- The third call's last stage over any 200 × 32 block h of hidden rows, into a zero accumulator: the log-softmax over
    the sixteen classes of h · wᵀ + b at (r, j); the weight is read at (class, feature). -/
theorem classify_apply (h : FVec Ideal S200x32 .f32) (w : Vec Ideal S16x32 .f32) (b : Vec Ideal S1x16 .f32)
    (r : Fin 200) (j : Fin 16) :
    k2_pay1 (F := Ideal) h w (constant S200x16 .f32 0x00000000#32) b (ix2 r j)
      = GcnSpec.lsm (fun j' => (∑ k : Fin 32, h (ix2 r k) * w (ix2 j' k)) + b (ix2 (0 : Fin 1) j')) j := by
  have hx : ∀ c : Fin 16,
      addf (matmul dot_S200x32_S16x32_S200x16_1_1_0_0_n_n none h w (constant S200x16 .f32 0x00000000#32))
        (broadcastTo S200x16 (shapeCast S1x16 b shapeCasts_S1x16_S1x16) broadcasts_S1x16_S200x16) (ix2 r c)
        = (∑ k : Fin 32, h (ix2 r k) * w (ix2 c k)) + b (ix2 (0 : Fin 1) c) := fun c => by
    rw [shapeCast_self]
    refine (addf_apply _ _ _).trans ?_
    rw [mmC_apply, broadcastTo_1n_an_apply]
  refine (rowLsm_apply _ r j).trans ?_
  exact congrArg (fun f => GcnSpec.lsm f j) (funext hx)

/-! ## The second call: the hidden block clamped at zero -/

/-- Entry (r, k) of max(a · s + b, 0): the clamp is against a broadcast scalar whose word is the zero word. -/
theorem relu_hidden_apply (v0 : FVec Ideal S10000x32 .f32) (v2 : FVec Ideal S200x10000 .f32) (v4 : FVec Ideal S1x32 .f32)
    (r : Fin 200) (k : Fin 32) :
    maximumf
        (addf (matmul dot_S200x10000_S10000x32_S200x32_1_0_0_1_n_n none v2
            (shapeCast S10000x32 v0 shapeCasts_S10000x32_S10000x32) (constant S200x32 .f32 0x00000000#32))
          (broadcastTo S200x32 (shapeCast S1x32 v4 shapeCasts_S1x32_S1x32) broadcasts_S1x32_S200x32))
        (broadcast S200x32 (Scalar.ofBits (F := Ideal) .f32 0x00000000#32)) (ix2 r k)
      = max ((∑ l : Fin 10000, v2 (ix2 r l) * v0 (ix2 l k)) + v4 (ix2 (0 : Fin 1) k)) 0 := by
  rw [shapeCast_self, shapeCast_self]
  refine (maximumf_apply _ _ _).trans ?_
  rw [addf_apply, mmA_apply, broadcastTo_1n_an_apply]
  show max _ (Ideal.ofBits .f32 0x00000000#32) = _
  rw [Ideal.ofBits_zero_f32]

/-! ## The five stored values -/

/-- The first call's product: entry (p, q) is row p of the first operand against column q of the second. -/
theorem pay0_apply (v0 : Vec Ideal S10000x128 .f32) (v1 : Vec Ideal S128x32 .f32) (p : Fin 10000) (q : Fin 32) :
    k0_pay1 (F := Ideal) v0 v1 (ix2 p q) = ∑ k : Fin 128, v0 (ix2 p k) * v1 (ix2 k q) :=
  mmX_apply v0 v1 p q

/-- The second call's stored block for its first adjacency block: relu(a · s + b) · w at (r, q). -/
theorem pay1a_apply (v0 : Vec Ideal S10000x32 .f32) (v2 : Vec Ideal S200x10000 .f32) (v4 : Vec Ideal S1x32 .f32)
    (v10 : Vec Ideal S32x32 .f32) (r : Fin 200) (q : Fin 32) :
    k1_pay2 (F := Ideal) v0 v2 v4 v10 (ix2 r q)
      = ∑ k : Fin 32, max ((∑ l : Fin 10000, v2 (ix2 r l) * v0 (ix2 l k)) + v4 (ix2 (0 : Fin 1) k)) 0 * v10 (ix2 k q) := by
  unfold k1_pay2 k1_pay1
  refine (mmW_apply _ v10 r q).trans ?_
  exact Finset.sum_congr rfl fun k _ => congrArg (· * v10 (ix2 k q)) (relu_hidden_apply v0 v2 v4 r k)

/-- The same for its second adjacency block. -/
theorem pay1b_apply (v0 : Vec Ideal S10000x32 .f32) (v13 : Vec Ideal S200x10000 .f32) (v15 : Vec Ideal S1x32 .f32)
    (v21 : Vec Ideal S32x32 .f32) (r : Fin 200) (q : Fin 32) :
    k1_pay3 (F := Ideal) v0 v13 v15 v21 (ix2 r q)
      = ∑ k : Fin 32, max ((∑ l : Fin 10000, v13 (ix2 r l) * v0 (ix2 l k)) + v15 (ix2 (0 : Fin 1) k)) 0 * v21 (ix2 k q) :=
  pay1a_apply v0 v13 v15 v21 r q

/-- The third call's stored block for its second adjacency block: the log-softmax over the sixteen classes of
    (a · s + b) · wfcᵀ + bfc, at (r, j); the body's last product there accumulates into a vector of zeros passed to it.
    The classifier's weight is read at (class, feature). -/
theorem pay2b_apply (v0 : Vec Ideal S10000x32 .f32) (v27 : Vec Ideal S200x10000 .f32) (v29 : Vec Ideal S1x32 .f32)
    (v33 : Vec Ideal S16x32 .f32) (v35 : Vec Ideal S1x16 .f32) (r : Fin 200) (j : Fin 16) :
    k2_pay1 (F := Ideal) (k2_pay4 (F := Ideal) v0 v27 v29) v33 (constant S200x16 .f32 0x00000000#32) v35 (ix2 r j)
      = GcnSpec.lsm (fun j' => (∑ k : Fin 32, ((∑ l : Fin 10000, v27 (ix2 r l) * v0 (ix2 l k)) + v29 (ix2 (0 : Fin 1) k)) * v33 (ix2 j' k))
          + v35 (ix2 (0 : Fin 1) j')) j := by
  refine (classify_apply _ v33 v35 r j).trans ?_
  simp only [hidden_apply]

/-- The same for its first adjacency block, whose body is the same chain of operations written out in one piece. -/
theorem pay2a_apply (v0 : Vec Ideal S10000x32 .f32) (v2 : Vec Ideal S200x10000 .f32) (v4 : Vec Ideal S1x32 .f32)
    (v8 : Vec Ideal S16x32 .f32) (v10 : Vec Ideal S1x16 .f32) (r : Fin 200) (j : Fin 16) :
    k2_pay3 (F := Ideal) v0 v2 v4 v8 v10 (ix2 r j)
      = GcnSpec.lsm (fun j' => (∑ k : Fin 32, ((∑ l : Fin 10000, v2 (ix2 r l) * v0 (ix2 l k)) + v4 (ix2 (0 : Fin 1) k)) * v8 (ix2 j' k))
          + v10 (ix2 (0 : Fin 1) j')) j :=
  pay2b_apply v0 v2 v4 v8 v10 r j

end Cert.KernelIdeal.Val

end
-- ==== Proof.ValA.lean ====
/-
  What the first two pallas_calls and the host stretch between the second and the third leave, at the ideal instance.

  The first call's one block is the whole product x · W1: the first support s1. The second call's point i stores, into
  block i (rows 200 i … 200 i + 199) of its first result array, relu(a · s1 + b1) · W2 for the adjacency's row block 2 i
  (rows 400 i … 400 i + 199), and into block i of its second result array the same for row block 2 i + 1 (rows
  400 i + 200 … 400 i + 399); the 25 blocks of each result array tile it. The host stretch views each result array as
  25 × 200 × 32, concatenates the two along the middle axis (25 × 400 × 32) and views that as 10000 × 32: row n comes from
  the first array when n mod 400 < 200 and from the second otherwise, which puts adjacency row n's result at row n.
  So the third call reads the second support s2.
-/
import proofs.«141518_g91104846282943_cont_sun_m_1213_12_alg».proof.Proof.FrVals
import proofs.«141518_g91104846282943_cont_sun_m_1213_12_alg».proof.Proof.ValPay
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-- The whole-buffer rectangles sit at offsets zero. -/
theorem offs_zero : (![0, 0] : Fin 2 → Nat) = fun _ => 0 := funext fun a => by
  match a with
  | ⟨0, _⟩ => rfl
  | ⟨1, _⟩ => rfl

/-! ## The first call: one point, every window the whole array -/

section Call0

variable (V : (c : Dev nD) → (b : Ref sig .tc) → Buf (Elt Ideal) ((c : Thread nD τ).loc b))

/-- The first call's windows all sit at block (0, 0). -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The feature window's block is the feature matrix. -/
theorem blk0_x (c : Dev nD) (t : Fin cfg0.N) (y : S10000x128.Idx) :
    (iblk0 V c 0 t : Vec Ideal S10000x128 .f32) y = (V c main_arg0 : S10000x128.Idx → EReal) y := by
  obtain ⟨e0, e1, -⟩ := idx0 t
  show V c main_arg0 (((cfg0.win 0).blk t).view.emb y) = V c main_arg0 y
  congr 1
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight window's block is the weight matrix. -/
theorem blk0_w (c : Dev nD) (t : Fin cfg0.N) (y : S128x32.Idx) :
    (iblk0 V c 1 t : Vec Ideal S128x32 .f32) y = (V c main_arg2 : S128x32.Idx → EReal) y := by
  obtain ⟨-, -, e0, e1, -⟩ := idx0 t
  show V c main_arg2 (((cfg0.win 1).blk t).view.emb y) = V c main_arg2 y
  congr 1
  funext a; apply Fin.ext
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- The product of two matrices that agree entry by entry with x and W1 is the first support, entry by entry. -/
theorem pay0_at (v0 : Vec Ideal S10000x128 .f32) (v1 : Vec Ideal S128x32 .f32)
    (x : GcnSpec.Tx.Idx → EReal) (w : GcnSpec.TW1.Idx → EReal)
    (h0 : ∀ y, v0 y = x y) (h1 : ∀ y, v1 y = w y) (p : Fin 10000) (q : Fin 32) :
    k0_pay1 (F := Ideal) v0 v1 (ix2 p q) = GcnSpec.s1 x w p q := by
  rw [pay0_apply]
  unfold GcnSpec.s1
  exact Finset.sum_congr rfl fun k _ => by rw [h0, h1]

/-- What the one point writes back is the first support read through the point's block (the whole array). -/
theorem flushed0 (c : Dev nD) (x : GcnSpec.Tx.Idx → EReal) (w : GcnSpec.TW1.Idx → EReal)
    (hx : (V c main_arg0 : S10000x128.Idx → EReal) = x) (hw : (V c main_arg2 : S128x32.Idx → EReal) = w) (t : Fin cfg0.N) :
    (dat0 V c).flushed 2 t = ((cfg0.win 2).blk t).view.read (Elt Ideal) (GcnSpec.S1 x w) := by
  show (cfg0.win 2).cut (grid0.coords t) ((dat0 V c).after 2 t) = _
  rw [after0_2]
  unfold out0_2
  rw [View.canon_unit_zero offs_zero]
  simp only [View.ld_unit_zero (S := S10000x128) offs_zero, View.ld_unit_zero (S := S128x32) offs_zero]
  obtain ⟨-, -, -, -, e0, e1⟩ := idx0 t
  funext (y : S10000x32.Idx)
  obtain ⟨p, q, rfl⟩ : ∃ (p : Fin 10000) (q : Fin 32), y = ix2 p q := ⟨y 0, y 1, eq_ix2 y⟩
  show k0_pay1 (F := Ideal) (iblk0 V c 0 t) (iblk0 V c 1 t) (ix2 p q) = GcnSpec.S1 x w (((cfg0.win 2).blk t).view.emb (ix2 p q))
  refine (pay0_at (iblk0 V c 0 t) (iblk0 V c 1 t) x w (fun y => (blk0_x V c t y).trans (congrFun hx y))
    (fun y => (blk0_w V c t y).trans (congrFun hw y)) p q).trans ?_
  have he : ((cfg0.win 2).blk t).view.emb (ix2 p q) = (ix2 p q : S10000x32.Idx) := by
    funext a; apply Fin.ext
    match a with
    | ⟨0, _⟩ => show win0_2.index t (0 : Fin 2) * 10000 + 1 * p.val = p.val; omega
    | ⟨1, _⟩ => show win0_2.index t (1 : Fin 2) * 32 + 1 * q.val = q.val; omega
  rw [he]
  rfl

/-- An index of the result array is in the point's block iff each coordinate is in the block's range. -/
theorem mem_blk0 (t : Fin cfg0.N) (i : S10000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v3).slice (win0_2.rect t)).set ↔ _
  rw [View.set_slice_whole, Rect.mem_set_unit]
  exact Iff.rfl

/-- The one block covers the result array. -/
theorem cover0 (i : S10000x32.Idx) : ∃ t : Fin cfg0.N, (cfg0.win 2).flush t = true ∧ i ∈ ((cfg0.win 2).blk t).view.set := by
  refine ⟨t0_0, flush0_2 t0_0, ?_⟩
  rw [mem_blk0]
  obtain ⟨-, -, -, -, e0, e1⟩ := idx0 t0_0
  have h0 : (i 0).val < 10000 := idx2_lt0 i
  have h1 : (i 1).val < 32 := idx2_lt1 i
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 32 ≤ (i 1).val ∧ (i 1).val < win0_2.index t0_0 (1 : Fin 2) * 32 + 32; omega

/-- After the first call its result array holds the first support of the two arrays it read. -/
theorem final0 (c : Dev nD) (x : GcnSpec.Tx.Idx → EReal) (w : GcnSpec.TW1.Idx → EReal)
    (hx : (V c main_arg0 : S10000x128.Idx → EReal) = x) (hw : (V c main_arg2 : S128x32.Idx → EReal) = w) :
    (dat0 V c).arrAt 2 cfg0.N = GcnSpec.S1 x w :=
  (dat0 V c).arrAt_eq_of_cover 2 (GcnSpec.S1 x w) (fun t _ => flushed0 V c x w hx hw t) cover0

end Call0

/-! ## The second call: 25 points; point t reads the adjacency's row blocks 2t and 2t + 1 and writes block t of each
    of its two result arrays -/

/-- One entry of relu(a · s + b) · w: row `p` of a against the columns of s, the bias row added, clamped at zero, against
    column `q` of w. -/
def supp (adj : GcnSpec.Tadj.Idx → EReal) (s : GcnSpec.Th.Idx → EReal) (b : S1x32.Idx → EReal) (w : GcnSpec.TW2.Idx → EReal)
    (p : Fin 10000) (q : Fin 32) : EReal :=
  ∑ k : Fin 32, max ((∑ l : Fin 10000, adj (ix2 p l) * s (ix2 l k)) + b (ix2 (0 : Fin 1) k)) 0 * w (ix2 k q)

/-- The adjacency row behind row `n` of the first result array: block n / 200 of that array is row block 2 (n / 200). -/
def rowE (n : Fin 5000) : Fin 10000 := ⟨400 * (n.val / 200) + n.val % 200, by have := n.isLt; omega⟩
/-- The adjacency row behind row `n` of the second result array: row block 2 (n / 200) + 1. -/
def rowO (n : Fin 5000) : Fin 10000 := ⟨400 * (n.val / 200) + 200 + n.val % 200, by have := n.isLt; omega⟩

/-- The first result array as one function of the arrays the call reads. -/
def GE (adj : GcnSpec.Tadj.Idx → EReal) (s : GcnSpec.Th.Idx → EReal) (b : S1x32.Idx → EReal) (w : GcnSpec.TW2.Idx → EReal) :
    S5000x32.Idx → EReal := fun i => supp adj s b w (rowE (i 0)) (i 1)
/-- The second result array likewise. -/
def GO (adj : GcnSpec.Tadj.Idx → EReal) (s : GcnSpec.Th.Idx → EReal) (b : S1x32.Idx → EReal) (w : GcnSpec.TW2.Idx → EReal) :
    S5000x32.Idx → EReal := fun i => supp adj s b w (rowO (i 0)) (i 1)

section Call1

variable (V : (c : Dev nD) → (b : Ref sig .tc) → Buf (Elt Ideal) ((c : Thread nD τ).loc b))

/-- The second call's block indices at point t: the adjacency's two windows at row blocks 2t and 2t + 1, the support,
    the bias row and the weight at block 0, the two result windows at block t. -/
theorem idx1 : ∀ t : Fin cfg1.N, win1_0.index t (0 : Fin 2) = 2 * t.val ∧ win1_0.index t (1 : Fin 2) = 0
    ∧ win1_1.index t (0 : Fin 2) = 2 * t.val + 1 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem lt25 (t : Fin cfg1.N) : t.val < 25 := lt_of_lt_of_eq t.isLt N_1

/-- Row r of the first adjacency window's block at point t is adjacency row 400 t + r. -/
theorem blk1_a0 (c : Dev nD) (t : Fin cfg1.N) (r : Fin 200) (l : Fin 10000) (p : Fin 10000) (hp : p.val = 400 * t.val + r.val) :
    (iblk1 V c 0 t : Vec Ideal S200x10000 .f32) (ix2 r l) = (V c main_arg1 : S10000x10000.Idx → EReal) (ix2 p l) := by
  obtain ⟨e0, e1, -⟩ := idx1 t
  show V c main_arg1 (((cfg1.win 0).blk t).view.emb (ix2 r l)) = V c main_arg1 (ix2 p l)
  congr 1
  funext a; apply Fin.ext
  match a with
  | ⟨0, _⟩ => show win1_0.index t (0 : Fin 2) * 200 + 1 * r.val = p.val; omega
  | ⟨1, _⟩ => show win1_0.index t (1 : Fin 2) * 10000 + 1 * l.val = l.val; omega

/-- Row r of the second adjacency window's block at point t is adjacency row 400 t + 200 + r. -/
theorem blk1_a1 (c : Dev nD) (t : Fin cfg1.N) (r : Fin 200) (l : Fin 10000) (p : Fin 10000) (hp : p.val = 400 * t.val + 200 + r.val) :
    (iblk1 V c 1 t : Vec Ideal S200x10000 .f32) (ix2 r l) = (V c main_arg1 : S10000x10000.Idx → EReal) (ix2 p l) := by
  obtain ⟨-, -, e0, e1, -⟩ := idx1 t
  show V c main_arg1 (((cfg1.win 1).blk t).view.emb (ix2 r l)) = V c main_arg1 (ix2 p l)
  congr 1
  funext a; apply Fin.ext
  match a with
  | ⟨0, _⟩ => show win1_1.index t (0 : Fin 2) * 200 + 1 * r.val = p.val; omega
  | ⟨1, _⟩ => show win1_1.index t (1 : Fin 2) * 10000 + 1 * l.val = l.val; omega

/-- The support window's block is the whole support array. -/
theorem blk1_s (c : Dev nD) (t : Fin cfg1.N) (y : S10000x32.Idx) :
    (iblk1 V c 2 t : Vec Ideal S10000x32 .f32) y = (V c main_v3 : S10000x32.Idx → EReal) y := by
  obtain ⟨-, -, -, -, e0, e1, -⟩ := idx1 t
  show V c main_v3 (((cfg1.win 2).blk t).view.emb y) = V c main_v3 y
  congr 1
  funext a; apply Fin.ext
  match a with
  | ⟨0, _⟩ => show win1_2.index t (0 : Fin 2) * 10000 + 1 * (y 0).val = (y 0).val; omega
  | ⟨1, _⟩ => show win1_2.index t (1 : Fin 2) * 32 + 1 * (y 1).val = (y 1).val; omega

/-- The bias window's block is the whole bias row. -/
theorem blk1_b (c : Dev nD) (t : Fin cfg1.N) (y : S1x32.Idx) :
    (iblk1 V c 3 t : Vec Ideal S1x32 .f32) y = (V c main_v0 : S1x32.Idx → EReal) y := by
  obtain ⟨-, -, -, -, -, -, e0, e1, -⟩ := idx1 t
  show V c main_v0 (((cfg1.win 3).blk t).view.emb y) = V c main_v0 y
  congr 1
  funext a; apply Fin.ext
  match a with
  | ⟨0, _⟩ => show win1_3.index t (0 : Fin 2) * 1 + 1 * (y 0).val = (y 0).val; omega
  | ⟨1, _⟩ => show win1_3.index t (1 : Fin 2) * 32 + 1 * (y 1).val = (y 1).val; omega

/-- The weight window's block is the whole weight. -/
theorem blk1_w (c : Dev nD) (t : Fin cfg1.N) (y : S32x32.Idx) :
    (iblk1 V c 4 t : Vec Ideal S32x32 .f32) y = (V c main_arg4 : S32x32.Idx → EReal) y := by
  obtain ⟨-, -, -, -, -, -, -, -, e0, e1, -⟩ := idx1 t
  show V c main_arg4 (((cfg1.win 4).blk t).view.emb y) = V c main_arg4 y
  congr 1
  funext a; apply Fin.ext
  match a with
  | ⟨0, _⟩ => show win1_4.index t (0 : Fin 2) * 32 + 1 * (y 0).val = (y 0).val; omega
  | ⟨1, _⟩ => show win1_4.index t (1 : Fin 2) * 32 + 1 * (y 1).val = (y 1).val; omega

/-- The body's first stored block at (r, q), when its adjacency block's row r is adjacency row p and its other loads are
    the whole arrays. -/
theorem pay1a_at (v0 : Vec Ideal S10000x32 .f32) (v2 : Vec Ideal S200x10000 .f32) (v4 : Vec Ideal S1x32 .f32) (v10 : Vec Ideal S32x32 .f32)
    (adj : GcnSpec.Tadj.Idx → EReal) (s : GcnSpec.Th.Idx → EReal) (b : S1x32.Idx → EReal) (w : GcnSpec.TW2.Idx → EReal)
    (p : Fin 10000) (r : Fin 200) (q : Fin 32)
    (h2 : ∀ l, v2 (ix2 r l) = adj (ix2 p l)) (h0 : ∀ y, v0 y = s y) (h4 : ∀ y, v4 y = b y) (h10 : ∀ y, v10 y = w y) :
    k1_pay2 (F := Ideal) v0 v2 v4 v10 (ix2 r q) = supp adj s b w p q := by
  rw [pay1a_apply]
  unfold supp
  refine Finset.sum_congr rfl fun k _ => ?_
  rw [h4, h10]
  congr 3
  exact Finset.sum_congr rfl fun l _ => by rw [h2, h0]

/-- The same for the second stored block. -/
theorem pay1b_at (v0 : Vec Ideal S10000x32 .f32) (v13 : Vec Ideal S200x10000 .f32) (v15 : Vec Ideal S1x32 .f32) (v21 : Vec Ideal S32x32 .f32)
    (adj : GcnSpec.Tadj.Idx → EReal) (s : GcnSpec.Th.Idx → EReal) (b : S1x32.Idx → EReal) (w : GcnSpec.TW2.Idx → EReal)
    (p : Fin 10000) (r : Fin 200) (q : Fin 32)
    (h2 : ∀ l, v13 (ix2 r l) = adj (ix2 p l)) (h0 : ∀ y, v0 y = s y) (h4 : ∀ y, v15 y = b y) (h10 : ∀ y, v21 y = w y) :
    k1_pay3 (F := Ideal) v0 v13 v15 v21 (ix2 r q) = supp adj s b w p q := by
  rw [pay1b_apply]
  unfold supp
  refine Finset.sum_congr rfl fun k _ => ?_
  rw [h4, h10]
  congr 3
  exact Finset.sum_congr rfl fun l _ => by rw [h2, h0]

/-- What point t writes back through the first result window is block t of `GE`. -/
theorem flushed1_E (c : Dev nD) (adj : GcnSpec.Tadj.Idx → EReal) (s : GcnSpec.Th.Idx → EReal) (b : S1x32.Idx → EReal) (w : GcnSpec.TW2.Idx → EReal)
    (hadj : (V c main_arg1 : S10000x10000.Idx → EReal) = adj) (hs : (V c main_v3 : S10000x32.Idx → EReal) = s)
    (hb : (V c main_v0 : S1x32.Idx → EReal) = b) (hw : (V c main_arg4 : S32x32.Idx → EReal) = w) (t : Fin cfg1.N) :
    (dat1 V c).flushed 5 t = ((cfg1.win 5).blk t).view.read (Elt Ideal) (GE adj s b w) := by
  show (cfg1.win 5).cut (grid1.coords t) ((dat1 V c).after 5 t) = _
  rw [after1_5]
  unfold out1_5
  rw [View.canon_unit_zero offs_zero]
  simp only [View.ld_unit_zero (S := S200x10000) offs_zero, View.ld_unit_zero (S := S10000x32) offs_zero,
    View.ld_unit_zero (S := S1x32) offs_zero, View.ld_unit_zero (S := S32x32) offs_zero]
  obtain ⟨-, -, -, -, -, -, -, -, -, -, e0, e1, -⟩ := idx1 t
  have ht := lt25 t
  funext (y : S200x32.Idx)
  obtain ⟨r, q, rfl⟩ : ∃ (r : Fin 200) (q : Fin 32), y = ix2 r q := ⟨y 0, y 1, eq_ix2 y⟩
  show k1_pay2 (F := Ideal) (iblk1 V c 2 t) (iblk1 V c 0 t) (iblk1 V c 3 t) (iblk1 V c 4 t) (ix2 r q)
    = GE adj s b w (((cfg1.win 5).blk t).view.emb (ix2 r q))
  have hr := r.isLt
  refine (pay1a_at (iblk1 V c 2 t) (iblk1 V c 0 t) (iblk1 V c 3 t) (iblk1 V c 4 t) adj s b w
    (⟨400 * t.val + r.val, by omega⟩ : Fin 10000) r q
    (fun l => (blk1_a0 V c t r l _ rfl).trans (congrFun hadj _))
    (fun y => (blk1_s V c t y).trans (congrFun hs y))
    (fun y => (blk1_b V c t y).trans (congrFun hb y))
    (fun y => (blk1_w V c t y).trans (congrFun hw y))).trans ?_
  have he : ((cfg1.win 5).blk t).view.emb (ix2 r q) = (ix2 (⟨200 * t.val + r.val, by omega⟩ : Fin 5000) q : S5000x32.Idx) := by
    funext a; apply Fin.ext
    match a with
    | ⟨0, _⟩ => show win1_5.index t (0 : Fin 2) * 200 + 1 * r.val = 200 * t.val + r.val; omega
    | ⟨1, _⟩ => show win1_5.index t (1 : Fin 2) * 32 + 1 * q.val = q.val; omega
  rw [he]
  show supp adj s b w _ q = supp adj s b w (rowE ⟨200 * t.val + r.val, _⟩) q
  congr 1
  apply Fin.ext
  show 400 * t.val + r.val = 400 * ((200 * t.val + r.val) / 200) + (200 * t.val + r.val) % 200
  omega

/-- What point t writes back through the second result window is block t of `GO`. -/
theorem flushed1_O (c : Dev nD) (adj : GcnSpec.Tadj.Idx → EReal) (s : GcnSpec.Th.Idx → EReal) (b : S1x32.Idx → EReal) (w : GcnSpec.TW2.Idx → EReal)
    (hadj : (V c main_arg1 : S10000x10000.Idx → EReal) = adj) (hs : (V c main_v3 : S10000x32.Idx → EReal) = s)
    (hb : (V c main_v0 : S1x32.Idx → EReal) = b) (hw : (V c main_arg4 : S32x32.Idx → EReal) = w) (t : Fin cfg1.N) :
    (dat1 V c).flushed 6 t = ((cfg1.win 6).blk t).view.read (Elt Ideal) (GO adj s b w) := by
  show (cfg1.win 6).cut (grid1.coords t) ((dat1 V c).after 6 t) = _
  rw [after1_6]
  unfold out1_6
  rw [View.canon_unit_zero offs_zero]
  simp only [View.ld_unit_zero (S := S200x10000) offs_zero, View.ld_unit_zero (S := S10000x32) offs_zero,
    View.ld_unit_zero (S := S1x32) offs_zero, View.ld_unit_zero (S := S32x32) offs_zero]
  obtain ⟨-, -, -, -, -, -, -, -, -, -, -, -, e0, e1⟩ := idx1 t
  have ht := lt25 t
  funext (y : S200x32.Idx)
  obtain ⟨r, q, rfl⟩ : ∃ (r : Fin 200) (q : Fin 32), y = ix2 r q := ⟨y 0, y 1, eq_ix2 y⟩
  show k1_pay3 (F := Ideal) (iblk1 V c 2 t) (iblk1 V c 1 t) (iblk1 V c 3 t) (iblk1 V c 4 t) (ix2 r q)
    = GO adj s b w (((cfg1.win 6).blk t).view.emb (ix2 r q))
  have hr := r.isLt
  refine (pay1b_at (iblk1 V c 2 t) (iblk1 V c 1 t) (iblk1 V c 3 t) (iblk1 V c 4 t) adj s b w
    (⟨400 * t.val + 200 + r.val, by omega⟩ : Fin 10000) r q
    (fun l => (blk1_a1 V c t r l _ rfl).trans (congrFun hadj _))
    (fun y => (blk1_s V c t y).trans (congrFun hs y))
    (fun y => (blk1_b V c t y).trans (congrFun hb y))
    (fun y => (blk1_w V c t y).trans (congrFun hw y))).trans ?_
  have he : ((cfg1.win 6).blk t).view.emb (ix2 r q) = (ix2 (⟨200 * t.val + r.val, by omega⟩ : Fin 5000) q : S5000x32.Idx) := by
    funext a; apply Fin.ext
    match a with
    | ⟨0, _⟩ => show win1_6.index t (0 : Fin 2) * 200 + 1 * r.val = 200 * t.val + r.val; omega
    | ⟨1, _⟩ => show win1_6.index t (1 : Fin 2) * 32 + 1 * q.val = q.val; omega
  rw [he]
  show supp adj s b w _ q = supp adj s b w (rowO ⟨200 * t.val + r.val, _⟩) q
  congr 1
  apply Fin.ext
  show 400 * t.val + 200 + r.val = 400 * ((200 * t.val + r.val) / 200) + 200 + (200 * t.val + r.val) % 200
  omega

/-- An index of the first result array is in point t's block iff each coordinate is in the block's range. -/
theorem mem_blk1_E (t : Fin cfg1.N) (i : S5000x32.Idx) :
    i ∈ ((cfg1.win 5).blk t).view.set ↔ ∀ a : Fin 2, win1_5.index t a * S200x32.size a ≤ (i a).val ∧ (i a).val < win1_5.index t a * S200x32.size a + S200x32.size a := by
  show i ∈ ((View.whole main_v4_0).slice (win1_5.rect t)).set ↔ _
  rw [View.set_slice_whole, Rect.mem_set_unit]
  exact Iff.rfl

theorem mem_blk1_O (t : Fin cfg1.N) (i : S5000x32.Idx) :
    i ∈ ((cfg1.win 6).blk t).view.set ↔ ∀ a : Fin 2, win1_6.index t a * S200x32.size a ≤ (i a).val ∧ (i a).val < win1_6.index t a * S200x32.size a + S200x32.size a := by
  show i ∈ ((View.whole main_v4_1).slice (win1_6.rect t)).set ↔ _
  rw [View.set_slice_whole, Rect.mem_set_unit]
  exact Iff.rfl

/-- Row n of the first result array is in the block of point n / 200. -/
theorem cover1_E (i : S5000x32.Idx) : ∃ t : Fin cfg1.N, (cfg1.win 5).flush t = true ∧ i ∈ ((cfg1.win 5).blk t).view.set := by
  have h0 : (i 0).val < 5000 := idx2_lt0 i
  have h1 : (i 1).val < 32 := idx2_lt1 i
  obtain ⟨t, htv⟩ : ∃ t : Fin cfg1.N, t.val = (i 0).val / 200 := ⟨⟨(i 0).val / 200, by rw [show cfg1.N = 25 from N_1]; omega⟩, rfl⟩
  refine ⟨t, flush1_5 t, ?_⟩
  rw [mem_blk1_E]
  obtain ⟨-, -, -, -, -, -, -, -, -, -, e0, e1, -⟩ := idx1 t
  intro a
  match a with
  | ⟨0, _⟩ => show win1_5.index t (0 : Fin 2) * 200 ≤ (i 0).val ∧ (i 0).val < win1_5.index t (0 : Fin 2) * 200 + 200; omega
  | ⟨1, _⟩ => show win1_5.index t (1 : Fin 2) * 32 ≤ (i 1).val ∧ (i 1).val < win1_5.index t (1 : Fin 2) * 32 + 32; omega

theorem cover1_O (i : S5000x32.Idx) : ∃ t : Fin cfg1.N, (cfg1.win 6).flush t = true ∧ i ∈ ((cfg1.win 6).blk t).view.set := by
  have h0 : (i 0).val < 5000 := idx2_lt0 i
  have h1 : (i 1).val < 32 := idx2_lt1 i
  obtain ⟨t, htv⟩ : ∃ t : Fin cfg1.N, t.val = (i 0).val / 200 := ⟨⟨(i 0).val / 200, by rw [show cfg1.N = 25 from N_1]; omega⟩, rfl⟩
  refine ⟨t, flush1_6 t, ?_⟩
  rw [mem_blk1_O]
  obtain ⟨-, -, -, -, -, -, -, -, -, -, -, -, e0, e1⟩ := idx1 t
  intro a
  match a with
  | ⟨0, _⟩ => show win1_6.index t (0 : Fin 2) * 200 ≤ (i 0).val ∧ (i 0).val < win1_6.index t (0 : Fin 2) * 200 + 200; omega
  | ⟨1, _⟩ => show win1_6.index t (1 : Fin 2) * 32 ≤ (i 1).val ∧ (i 1).val < win1_6.index t (1 : Fin 2) * 32 + 32; omega

/-- After the second call its two result arrays hold `GE` and `GO` of the arrays it read. -/
theorem final1_E (c : Dev nD) (adj : GcnSpec.Tadj.Idx → EReal) (s : GcnSpec.Th.Idx → EReal) (b : S1x32.Idx → EReal) (w : GcnSpec.TW2.Idx → EReal)
    (hadj : (V c main_arg1 : S10000x10000.Idx → EReal) = adj) (hs : (V c main_v3 : S10000x32.Idx → EReal) = s)
    (hb : (V c main_v0 : S1x32.Idx → EReal) = b) (hw : (V c main_arg4 : S32x32.Idx → EReal) = w) :
    (dat1 V c).arrAt 5 cfg1.N = GE adj s b w :=
  (dat1 V c).arrAt_eq_of_cover 5 (GE adj s b w) (fun t _ => flushed1_E V c adj s b w hadj hs hb hw t) cover1_E

theorem final1_O (c : Dev nD) (adj : GcnSpec.Tadj.Idx → EReal) (s : GcnSpec.Th.Idx → EReal) (b : S1x32.Idx → EReal) (w : GcnSpec.TW2.Idx → EReal)
    (hadj : (V c main_arg1 : S10000x10000.Idx → EReal) = adj) (hs : (V c main_v3 : S10000x32.Idx → EReal) = s)
    (hb : (V c main_v0 : S1x32.Idx → EReal) = b) (hw : (V c main_arg4 : S32x32.Idx → EReal) = w) :
    (dat1 V c).arrAt 6 cfg1.N = GO adj s b w :=
  (dat1 V c).arrAt_eq_of_cover 6 (GO adj s b w) (fun t _ => flushed1_O V c adj s b w hadj hs hb hw t) cover1_O

end Call1

/-! ## The host stretch between the second and the third call -/

/-- Reshape two 5000 × 32 arrays to 25 × 200 × 32, concatenate along the middle axis, reshape to 10000 × 32: row n with
    n mod 400 < 200 reads the first array at row 200 (n / 400) + n mod 400. -/
theorem interleave_lo (A B : S5000x32.Idx → EReal) (n : Fin 10000) (q : Fin 32) (r : Fin 5000)
    (hlo : n.val % 400 < 200) (hr : r.val = 200 * (n.val / 400) + n.val % 400) :
    shapeCast S10000x32 (concatenate S25x400x32 1 [⟨S25x200x32, shapeCast S25x200x32 A shapeCasts_S5000x32_S25x200x32⟩,
        ⟨S25x200x32, shapeCast S25x200x32 B shapeCasts_S5000x32_S25x200x32⟩] concatenates_S25x200x32_S25x200x32_S25x400x32_d1)
      shapeCasts_S25x400x32_S10000x32 (ix2 n q) = A (ix2 r q) := by
  have hn : n.val < 10000 := n.isLt
  refine (shapeCast_apply _ _ (ix2 n q) (ix3 (⟨n.val / 400, by omega⟩ : Fin 25) (⟨n.val % 400, by omega⟩ : Fin 400) q) ?_).trans ?_
  · rw [Shape.rowMajor_val_three, Shape.rowMajor_val_two]
    show (n.val / 400 * 400 + n.val % 400) * 32 + q.val = n.val * 32 + q.val
    omega
  refine (concatenate_pair_apply_left (t := S25x400x32) (s₁ := S25x200x32) (s₂ := S25x200x32) (1 : Fin 3) _ _ _ _ rfl
    (ix3 (⟨n.val / 400, by omega⟩ : Fin 25) (⟨n.val % 400, hlo⟩ : Fin 200) q) ?_).trans ?_
  · intro b
    match b with
    | ⟨0, _⟩ => rfl
    | ⟨1, _⟩ => rfl
    | ⟨2, _⟩ => rfl
  refine shapeCast_apply _ _ _ (ix2 r q) ?_
  rw [Shape.rowMajor_val_two, Shape.rowMajor_val_three]
  show r.val * 32 + q.val = (n.val / 400 * 200 + n.val % 400) * 32 + q.val
  omega

/-- The same, for n mod 400 ≥ 200: the second array at row 200 (n / 400) + n mod 400 − 200. -/
theorem interleave_hi (A B : S5000x32.Idx → EReal) (n : Fin 10000) (q : Fin 32) (r : Fin 5000)
    (hhi : 200 ≤ n.val % 400) (hr : r.val + 200 = 200 * (n.val / 400) + n.val % 400) :
    shapeCast S10000x32 (concatenate S25x400x32 1 [⟨S25x200x32, shapeCast S25x200x32 A shapeCasts_S5000x32_S25x200x32⟩,
        ⟨S25x200x32, shapeCast S25x200x32 B shapeCasts_S5000x32_S25x200x32⟩] concatenates_S25x200x32_S25x200x32_S25x400x32_d1)
      shapeCasts_S25x400x32_S10000x32 (ix2 n q) = B (ix2 r q) := by
  have hn : n.val < 10000 := n.isLt
  refine (shapeCast_apply _ _ (ix2 n q) (ix3 (⟨n.val / 400, by omega⟩ : Fin 25) (⟨n.val % 400, by omega⟩ : Fin 400) q) ?_).trans ?_
  · rw [Shape.rowMajor_val_three, Shape.rowMajor_val_two]
    show (n.val / 400 * 400 + n.val % 400) * 32 + q.val = n.val * 32 + q.val
    omega
  refine (concatenate_pair_apply_right (t := S25x400x32) (s₁ := S25x200x32) (s₂ := S25x200x32) (1 : Fin 3) _ _ _ _ rfl rfl
    (ix3 (⟨n.val / 400, by omega⟩ : Fin 25) (⟨n.val % 400 - 200, by omega⟩ : Fin 200) q) ?_ ?_).trans ?_
  · intro b hb
    match b, hb with
    | ⟨0, _⟩, _ => rfl
    | ⟨1, _⟩, hb => exact absurd rfl hb
    | ⟨2, _⟩, _ => rfl
  · show n.val % 400 - 200 + 200 = n.val % 400
    omega
  refine shapeCast_apply _ _ _ (ix2 r q) ?_
  rw [Shape.rowMajor_val_two, Shape.rowMajor_val_three]
  show r.val * 32 + q.val = (n.val / 400 * 200 + (n.val % 400 - 200)) * 32 + q.val
  omega

/-- With the first support for s and a bias row that reads b1 at its column, `supp` is the second support. -/
theorem supp_spec (x : GcnSpec.Tx.Idx → EReal) (adj : GcnSpec.Tadj.Idx → EReal) (W1 : GcnSpec.TW1.Idx → EReal) (b1 : GcnSpec.Tb.Idx → EReal)
    (W2 : GcnSpec.TW2.Idx → EReal) (b : S1x32.Idx → EReal) (hb : ∀ k : Fin 32, b (ix2 (0 : Fin 1) k) = b1 (ix1 k))
    (p : Fin 10000) (q : Fin 32) :
    supp adj (GcnSpec.S1 x W1) b W2 p q = GcnSpec.s2 x adj W1 b1 W2 p q := by
  unfold supp GcnSpec.s2 GcnSpec.h1
  refine Finset.sum_congr rfl fun k _ => ?_
  rw [hb k]
  rfl

variable (m : (ℓ : Loc nD τ sig) → Buf (Elt Ideal) ℓ) (c : Dev nD)

/-- The first call leaves the first support in its result buffer. -/
theorem val_s1 : o3 (F := Ideal) m c = GcnSpec.S1 (m ((c : Thread nD τ).loc main_arg0)) (m ((c : Thread nD τ).loc main_arg2)) := by
  unfold o3
  exact final0 (U1 m) c _ _ (W1_arg m c main_arg0 (by decide)) (W1_arg m c main_arg2 (by decide))

/-- At the second call's entry the bias row reads b1 at its column: the first host stretch reshapes b1 to 1 × 32. -/
theorem b1_row (k : Fin 32) : (U2 (F := Ideal) m c main_v0 : S1x32.Idx → EReal) (ix2 (0 : Fin 1) k)
    = (m ((c : Thread nD τ).loc main_arg3) : S32.Idx → EReal) (ix1 k) := by
  have e : (W1 (F := Ideal) m c main_v0 : S1x32.Idx → EReal)
      = shapeCast S1x32 (m ((c : Thread nD τ).loc main_arg3) : S32.Idx → EReal) shapeCasts_S32_S1x32 := by
    show StableHlo.after hostOps0 _ (Proc.devRef .tc main_v0) = _
    after_results
    rfl
  show (W2 (F := Ideal) m c main_v0 : S1x32.Idx → EReal) (ix2 (0 : Fin 1) k) = _
  rw [W2_of m c main_v0 (by decide), e]
  refine shapeCast_apply _ _ _ (ix1 k) ?_
  rw [Shape.rowMajor_val_one, Shape.rowMajor_val_two]
  show k.val = 0 * 32 + k.val
  omega

/-- The second call's two result arrays, from the launch memory. -/
theorem o4_0_eq : o4_0 (F := Ideal) m c = GE (m ((c : Thread nD τ).loc main_arg1))
    (GcnSpec.S1 (m ((c : Thread nD τ).loc main_arg0)) (m ((c : Thread nD τ).loc main_arg2))) (U2 m c main_v0) (m ((c : Thread nD τ).loc main_arg4)) := by
  unfold o4_0
  exact final1_E (U2 m) c _ _ _ _ (W2_arg m c main_arg1 (by decide) (by decide)) ((W2_v3 m c).trans (val_s1 m c)) rfl
    (W2_arg m c main_arg4 (by decide) (by decide))

theorem o4_1_eq : o4_1 (F := Ideal) m c = GO (m ((c : Thread nD τ).loc main_arg1))
    (GcnSpec.S1 (m ((c : Thread nD τ).loc main_arg0)) (m ((c : Thread nD τ).loc main_arg2))) (U2 m c main_v0) (m ((c : Thread nD τ).loc main_arg4)) := by
  unfold o4_1
  exact final1_O (U2 m) c _ _ _ _ (W2_arg m c main_arg1 (by decide) (by decide)) ((W2_v3 m c).trans (val_s1 m c)) rfl
    (W2_arg m c main_arg4 (by decide) (by decide))

/-- The third call's support operand as the host stretch computes it from the second call's two result arrays. -/
theorem v8_eq : (W4 (F := Ideal) m c main_v8 : S10000x32.Idx → EReal)
    = shapeCast S10000x32 (concatenate S25x400x32 1 [⟨S25x200x32, shapeCast S25x200x32 (o4_0 (F := Ideal) m c : S5000x32.Idx → EReal) shapeCasts_S5000x32_S25x200x32⟩,
        ⟨S25x200x32, shapeCast S25x200x32 (o4_1 (F := Ideal) m c : S5000x32.Idx → EReal) shapeCasts_S5000x32_S25x200x32⟩] concatenates_S25x200x32_S25x200x32_S25x400x32_d1)
      shapeCasts_S25x400x32_S10000x32 := by
  rw [← W3_v4_0 m c, ← W3_v4_1 m c]
  show StableHlo.after hostOps2 _ (Proc.devRef .tc main_v8) = _
  after_results
  rfl

/-- At the third call's entry its support operand holds the second support. -/
theorem val_s2 : W4 (F := Ideal) m c main_v8
    = GcnSpec.S2 (m ((c : Thread nD τ).loc main_arg0)) (m ((c : Thread nD τ).loc main_arg1)) (m ((c : Thread nD τ).loc main_arg2))
        (m ((c : Thread nD τ).loc main_arg3)) (m ((c : Thread nD τ).loc main_arg4)) := by
  funext (i : S10000x32.Idx)
  obtain ⟨n, q, rfl⟩ : ∃ (n : Fin 10000) (q : Fin 32), i = ix2 n q := ⟨i 0, i 1, eq_ix2 i⟩
  have hn : n.val < 10000 := n.isLt
  show (W4 (F := Ideal) m c main_v8 : S10000x32.Idx → EReal) (ix2 n q) = GcnSpec.s2 _ _ _ _ _ n q
  rw [v8_eq]
  by_cases hlo : n.val % 400 < 200
  · rw [interleave_lo _ _ n q (⟨200 * (n.val / 400) + n.val % 400, by omega⟩ : Fin 5000) hlo rfl, o4_0_eq]
    show supp _ _ _ _ (rowE ⟨200 * (n.val / 400) + n.val % 400, _⟩) q = _
    rw [show rowE ⟨200 * (n.val / 400) + n.val % 400, by omega⟩ = n from Fin.ext (by
      show 400 * ((200 * (n.val / 400) + n.val % 400) / 200) + (200 * (n.val / 400) + n.val % 400) % 200 = n.val
      omega)]
    exact supp_spec _ _ _ _ _ _ (b1_row m c) n q
  · rw [interleave_hi _ _ n q (⟨200 * (n.val / 400) + n.val % 400 - 200, by omega⟩ : Fin 5000) (by omega) (by show 200 * (n.val / 400) + n.val % 400 - 200 + 200 = _; omega), o4_1_eq]
    show supp _ _ _ _ (rowO ⟨200 * (n.val / 400) + n.val % 400 - 200, _⟩) q = _
    rw [show rowO ⟨200 * (n.val / 400) + n.val % 400 - 200, by omega⟩ = n from Fin.ext (by
      show 400 * ((200 * (n.val / 400) + n.val % 400 - 200) / 200) + 200 + (200 * (n.val / 400) + n.val % 400 - 200) % 200 = n.val
      omega)]
    exact supp_spec _ _ _ _ _ _ (b1_row m c) n q

end Cert.KernelIdeal.Val

end
-- ==== Proof.ValB.lean ====
/-
  What the third pallas_call and the last host stretch leave, at the ideal instance.

  The third call's point i stores, into block i of its first result array, the row-wise log-softmax of
  (a · s2 + b2) · Wfcᵀ + bfc for the adjacency's row block 2 i, and into block i of its second result array the same for
  row block 2 i + 1; the 25 blocks of each tile it. The last host stretch interleaves the two result arrays as the
  earlier one did (25 × 200 × 16 twice, concatenated along the middle axis, viewed as 10000 × 16), which puts adjacency
  row n's result at row n: the returned array is the network's output.
-/
import proofs.«141518_g91104846282943_cont_sun_m_1213_12_alg».proof.Proof.FrVals
import proofs.«141518_g91104846282943_cont_sun_m_1213_12_alg».proof.Proof.ValPay
import proofs.«141518_g91104846282943_cont_sun_m_1213_12_alg».proof.Proof.ValA
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-! ## The third call's windows: where each block sits -/

theorem zero_offsets : (![0, 0] : Fin 2 → Nat) = fun _ => 0 := funext fun a => by fin_cases a <;> rfl

/-- The first adjacency window takes row block 2 t, all columns. -/
theorem idx_adj_even : ∀ t : Fin cfg2.N, win2_0.index t (0 : Fin 2) = 2 * t.val ∧ win2_0.index t (1 : Fin 2) = 0 :=
  (by decide +kernel : ∀ t : Fin grid2.N, _)
/-- The second takes row block 2 t + 1. -/
theorem idx_adj_odd : ∀ t : Fin cfg2.N, win2_1.index t (0 : Fin 2) = 2 * t.val + 1 ∧ win2_1.index t (1 : Fin 2) = 0 :=
  (by decide +kernel : ∀ t : Fin grid2.N, _)
/-- The support, the two bias rows and the classifier's weight are each one block at index zero. -/
theorem idx_sup : ∀ t : Fin cfg2.N, win2_2.index t (0 : Fin 2) = 0 ∧ win2_2.index t (1 : Fin 2) = 0 :=
  (by decide +kernel : ∀ t : Fin grid2.N, _)
theorem idx_b2 : ∀ t : Fin cfg2.N, win2_3.index t (0 : Fin 2) = 0 ∧ win2_3.index t (1 : Fin 2) = 0 :=
  (by decide +kernel : ∀ t : Fin grid2.N, _)
theorem idx_wfc : ∀ t : Fin cfg2.N, win2_4.index t (0 : Fin 2) = 0 ∧ win2_4.index t (1 : Fin 2) = 0 :=
  (by decide +kernel : ∀ t : Fin grid2.N, _)
theorem idx_bfc : ∀ t : Fin cfg2.N, win2_5.index t (0 : Fin 2) = 0 ∧ win2_5.index t (1 : Fin 2) = 0 :=
  (by decide +kernel : ∀ t : Fin grid2.N, _)
/-- Each result window's block at point t is block t. -/
theorem idx_res_even : ∀ t : Fin cfg2.N, win2_6.index t (0 : Fin 2) = t.val ∧ win2_6.index t (1 : Fin 2) = 0 :=
  (by decide +kernel : ∀ t : Fin grid2.N, _)
theorem idx_res_odd : ∀ t : Fin cfg2.N, win2_7.index t (0 : Fin 2) = t.val ∧ win2_7.index t (1 : Fin 2) = 0 :=
  (by decide +kernel : ∀ t : Fin grid2.N, _)

theorem N2_eq : cfg2.N = 25 := N_2

section Blocks

variable (V : (c : Dev nD) → (b : Ref sig .tc) → Buf (Elt Ideal) ((c : Thread nD τ).loc b)) (c : Dev nD)

/-- Row r of the first adjacency block at point t is adjacency row 400 t + r. -/
theorem blk_adj_even (t : Fin cfg2.N) (r : Fin 200) (l : Fin 10000) (p : Fin 10000) (hp : p.val = 400 * t.val + r.val) :
    (iblk2 V c 0 t : Vec Ideal S200x10000 .f32) (ix2 r l) = (V c main_arg1 : S10000x10000.Idx → EReal) (ix2 p l) := by
  show V c main_arg1 (((cfg2.win 0).blk t).view.emb (ix2 r l)) = V c main_arg1 (ix2 p l)
  congr 1
  funext a
  apply Fin.ext
  match a with
  | ⟨0, _⟩ => show win2_0.index t (0 : Fin 2) * 200 + 1 * r.val = p.val; rw [(idx_adj_even t).1, hp]; omega
  | ⟨1, _⟩ => show win2_0.index t (1 : Fin 2) * 10000 + 1 * l.val = l.val; rw [(idx_adj_even t).2]; omega

/-- Row r of the second adjacency block at point t is adjacency row 400 t + 200 + r. -/
theorem blk_adj_odd (t : Fin cfg2.N) (r : Fin 200) (l : Fin 10000) (p : Fin 10000) (hp : p.val = 400 * t.val + 200 + r.val) :
    (iblk2 V c 1 t : Vec Ideal S200x10000 .f32) (ix2 r l) = (V c main_arg1 : S10000x10000.Idx → EReal) (ix2 p l) := by
  show V c main_arg1 (((cfg2.win 1).blk t).view.emb (ix2 r l)) = V c main_arg1 (ix2 p l)
  congr 1
  funext a
  apply Fin.ext
  match a with
  | ⟨0, _⟩ => show win2_1.index t (0 : Fin 2) * 200 + 1 * r.val = p.val; rw [(idx_adj_odd t).1, hp]; omega
  | ⟨1, _⟩ => show win2_1.index t (1 : Fin 2) * 10000 + 1 * l.val = l.val; rw [(idx_adj_odd t).2]; omega

/-- The support's one block is the whole support array. -/
theorem blk_sup (t : Fin cfg2.N) : (iblk2 V c 2 t : Vec Ideal S10000x32 .f32) = (V c main_v8 : S10000x32.Idx → EReal) := by
  funext y
  show V c main_v8 (((cfg2.win 2).blk t).view.emb y) = V c main_v8 y
  congr 1
  funext a
  apply Fin.ext
  match a with
  | ⟨0, _⟩ => show win2_2.index t (0 : Fin 2) * 10000 + 1 * (y 0).val = (y 0).val; rw [(idx_sup t).1]; omega
  | ⟨1, _⟩ => show win2_2.index t (1 : Fin 2) * 32 + 1 * (y 1).val = (y 1).val; rw [(idx_sup t).2]; omega

theorem blk_b2 (t : Fin cfg2.N) : (iblk2 V c 3 t : Vec Ideal S1x32 .f32) = (V c main_v1 : S1x32.Idx → EReal) := by
  funext y
  show V c main_v1 (((cfg2.win 3).blk t).view.emb y) = V c main_v1 y
  congr 1
  funext a
  apply Fin.ext
  match a with
  | ⟨0, _⟩ => show win2_3.index t (0 : Fin 2) * 1 + 1 * (y 0).val = (y 0).val; rw [(idx_b2 t).1]; omega
  | ⟨1, _⟩ => show win2_3.index t (1 : Fin 2) * 32 + 1 * (y 1).val = (y 1).val; rw [(idx_b2 t).2]; omega

theorem blk_wfc (t : Fin cfg2.N) : (iblk2 V c 4 t : Vec Ideal S16x32 .f32) = (V c main_arg6 : S16x32.Idx → EReal) := by
  funext y
  show V c main_arg6 (((cfg2.win 4).blk t).view.emb y) = V c main_arg6 y
  congr 1
  funext a
  apply Fin.ext
  match a with
  | ⟨0, _⟩ => show win2_4.index t (0 : Fin 2) * 16 + 1 * (y 0).val = (y 0).val; rw [(idx_wfc t).1]; omega
  | ⟨1, _⟩ => show win2_4.index t (1 : Fin 2) * 32 + 1 * (y 1).val = (y 1).val; rw [(idx_wfc t).2]; omega

theorem blk_bfc (t : Fin cfg2.N) : (iblk2 V c 5 t : Vec Ideal S1x16 .f32) = (V c main_v2 : S1x16.Idx → EReal) := by
  funext y
  show V c main_v2 (((cfg2.win 5).blk t).view.emb y) = V c main_v2 y
  congr 1
  funext a
  apply Fin.ext
  match a with
  | ⟨0, _⟩ => show win2_5.index t (0 : Fin 2) * 1 + 1 * (y 0).val = (y 0).val; rw [(idx_bfc t).1]; omega
  | ⟨1, _⟩ => show win2_5.index t (1 : Fin 2) * 16 + 1 * (y 1).val = (y 1).val; rw [(idx_bfc t).2]; omega

end Blocks

/-! ## What the third call computes for one adjacency row -/

/-- The log-softmax over the sixteen classes of (adj · s + b) · wᵀ + bf, for adjacency row p, at class j; the two biases
    are read as rows of one-row matrices. -/
def rowOut (adj : S10000x10000.Idx → EReal) (s : S10000x32.Idx → EReal) (b : S1x32.Idx → EReal) (w : S16x32.Idx → EReal)
    (bf : S1x16.Idx → EReal) (p : Fin 10000) (j : Fin 16) : EReal :=
  GcnSpec.lsm (fun j' => (∑ k : Fin 32, ((∑ l : Fin 10000, adj (ix2 p l) * s (ix2 l k)) + b (ix2 (0 : Fin 1) k)) * w (ix2 j' k))
    + bf (ix2 (0 : Fin 1) j')) j

/-- The body's first store at entry (r, q), when row r of its adjacency block is adjacency row p and the other buffers
    hold the whole arrays. -/
theorem pay_even_row (adj : S10000x10000.Idx → EReal) (s : S10000x32.Idx → EReal) (b : S1x32.Idx → EReal)
    (w : S16x32.Idx → EReal) (bf : S1x16.Idx → EReal)
    (x0 : Vec Ideal S200x10000 .f32) (x2 : Vec Ideal S10000x32 .f32) (x3 : Vec Ideal S1x32 .f32) (x4 : Vec Ideal S16x32 .f32)
    (x5 : Vec Ideal S1x16 .f32) (r : Fin 200) (p : Fin 10000) (h0 : ∀ l : Fin 10000, x0 (ix2 r l) = adj (ix2 p l))
    (h2 : x2 = s) (h3 : x3 = b) (h4 : x4 = w) (h5 : x5 = bf) (q : Fin 16) :
    k2_pay3 (F := Ideal) x2 x0 x3 x4 x5 (ix2 r q) = rowOut adj s b w bf p q := by
  subst h2 h3 h4 h5
  refine (pay2a_apply x2 x0 x3 x4 x5 r q).trans ?_
  unfold rowOut
  simp only [h0]

/-- The same for the second store. -/
theorem pay_odd_row (adj : S10000x10000.Idx → EReal) (s : S10000x32.Idx → EReal) (b : S1x32.Idx → EReal)
    (w : S16x32.Idx → EReal) (bf : S1x16.Idx → EReal)
    (x1 : Vec Ideal S200x10000 .f32) (x2 : Vec Ideal S10000x32 .f32) (x3 : Vec Ideal S1x32 .f32) (x4 : Vec Ideal S16x32 .f32)
    (x5 : Vec Ideal S1x16 .f32) (r : Fin 200) (p : Fin 10000) (h1 : ∀ l : Fin 10000, x1 (ix2 r l) = adj (ix2 p l))
    (h2 : x2 = s) (h3 : x3 = b) (h4 : x4 = w) (h5 : x5 = bf) (q : Fin 16) :
    k2_pay1 (F := Ideal) (k2_pay4 (F := Ideal) x2 x1 x3) x4 (constant S200x16 .f32 0x00000000#32) x5 (ix2 r q)
      = rowOut adj s b w bf p q := by
  subst h2 h3 h4 h5
  refine (pay2b_apply x2 x1 x3 x4 x5 r q).trans ?_
  unfold rowOut
  simp only [h1]

/-- Row n of a 5000-row result array belongs to block n / 200, which the call fills from adjacency row block
    2 (n / 200) (+ 1 for the second array): adjacency row n + 200 (n / 200) (+ 200). -/
theorem row_even_lt (n : Fin 5000) : n.val + 200 * (n.val / 200) < 10000 := by omega
theorem row_odd_lt (n : Fin 5000) : n.val + 200 * (n.val / 200) + 200 < 10000 := by omega

/-- The first result array as one function of the arrays the call reads. -/
def resEven (adj : S10000x10000.Idx → EReal) (s : S10000x32.Idx → EReal) (b : S1x32.Idx → EReal) (w : S16x32.Idx → EReal)
    (bf : S1x16.Idx → EReal) : S5000x16.Idx → EReal :=
  fun i => rowOut adj s b w bf ⟨(i 0).val + 200 * ((i 0).val / 200), row_even_lt (i 0)⟩ (i 1)

/-- The second. -/
def resOdd (adj : S10000x10000.Idx → EReal) (s : S10000x32.Idx → EReal) (b : S1x32.Idx → EReal) (w : S16x32.Idx → EReal)
    (bf : S1x16.Idx → EReal) : S5000x16.Idx → EReal :=
  fun i => rowOut adj s b w bf ⟨(i 0).val + 200 * ((i 0).val / 200) + 200, row_odd_lt (i 0)⟩ (i 1)

theorem resEven_apply (adj : S10000x10000.Idx → EReal) (s : S10000x32.Idx → EReal) (b : S1x32.Idx → EReal) (w : S16x32.Idx → EReal)
    (bf : S1x16.Idx → EReal) (i : S5000x16.Idx) (p : Fin 10000) (q : Fin 16) (hp : p.val = (i 0).val + 200 * ((i 0).val / 200))
    (hq : q.val = (i 1).val) : resEven adj s b w bf i = rowOut adj s b w bf p q := by
  unfold resEven
  congr 1
  · exact Fin.ext hp.symm
  · exact Fin.ext hq.symm

theorem resOdd_apply (adj : S10000x10000.Idx → EReal) (s : S10000x32.Idx → EReal) (b : S1x32.Idx → EReal) (w : S16x32.Idx → EReal)
    (bf : S1x16.Idx → EReal) (i : S5000x16.Idx) (p : Fin 10000) (q : Fin 16) (hp : p.val = (i 0).val + 200 * ((i 0).val / 200) + 200)
    (hq : q.val = (i 1).val) : resOdd adj s b w bf i = rowOut adj s b w bf p q := by
  unfold resOdd
  congr 1
  · exact Fin.ext hp.symm
  · exact Fin.ext hq.symm

section Arrays

variable (V : (c : Dev nD) → (b : Ref sig .tc) → Buf (Elt Ideal) ((c : Thread nD τ).loc b)) (c : Dev nD)

/-- What point t writes back through the first result window is block t of `resEven` of the arrays as the call finds them. -/
theorem flushed_even (t : Fin cfg2.N) :
    (dat2 V c).flushed 6 t = ((cfg2.win 6).blk t).view.read (Elt Ideal)
      (resEven (V c main_arg1) (V c main_v8) (V c main_v1) (V c main_arg6) (V c main_v2)) := by
  show (cfg2.win 6).cut (grid2.coords t) ((dat2 V c).after 6 t) = _
  rw [after2_6]
  unfold out2_6
  rw [View.canon_unit_zero zero_offsets]
  simp only [View.ld_unit_zero (S := S200x10000) zero_offsets, View.ld_unit_zero (S := S10000x32) zero_offsets,
    View.ld_unit_zero (S := S1x32) zero_offsets, View.ld_unit_zero (S := S16x32) zero_offsets,
    View.ld_unit_zero (S := S1x16) zero_offsets]
  funext j
  obtain ⟨r, q, rfl⟩ : ∃ (r : Fin 200) (q : Fin 16), j = ix2 r q := ⟨j 0, j 1, eq_ix2 j⟩
  have ht : t.val < 25 := lt_of_lt_of_eq t.isLt N2_eq
  show k2_pay3 (F := Ideal) (iblk2 V c 2 t) (iblk2 V c 0 t) (iblk2 V c 3 t) (iblk2 V c 4 t) (iblk2 V c 5 t) (ix2 r q)
    = resEven (V c main_arg1) (V c main_v8) (V c main_v1) (V c main_arg6) (V c main_v2) (((cfg2.win 6).blk t).view.emb (ix2 r q))
  have e0 : ((((cfg2.win 6).blk t).view.emb (ix2 r q)) 0).val = 200 * t.val + r.val := by
    show win2_6.index t (0 : Fin 2) * 200 + 1 * r.val = _; rw [(idx_res_even t).1]; omega
  have e1 : ((((cfg2.win 6).blk t).view.emb (ix2 r q)) 1).val = q.val := by
    show win2_6.index t (1 : Fin 2) * 16 + 1 * q.val = _; rw [(idx_res_even t).2]; omega
  have hr : r.val < 200 := r.isLt
  rw [resEven_apply (V c main_arg1) (V c main_v8) (V c main_v1) (V c main_arg6) (V c main_v2) _
    ⟨400 * t.val + r.val, by omega⟩ q (by rw [e0]; show 400 * t.val + r.val = _; omega) e1.symm]
  exact pay_even_row (V c main_arg1) (V c main_v8) (V c main_v1) (V c main_arg6) (V c main_v2)
    (iblk2 V c 0 t) (iblk2 V c 2 t) (iblk2 V c 3 t) (iblk2 V c 4 t) (iblk2 V c 5 t) r ⟨400 * t.val + r.val, by omega⟩
    (fun l => blk_adj_even V c t r l _ rfl) (blk_sup V c t) (blk_b2 V c t) (blk_wfc V c t) (blk_bfc V c t) q

end Arrays

section Arrays2

variable (V : (c : Dev nD) → (b : Ref sig .tc) → Buf (Elt Ideal) ((c : Thread nD τ).loc b)) (c : Dev nD)

/-- What point t writes back through the second result window is block t of `resOdd`. -/
theorem flushed_odd (t : Fin cfg2.N) :
    (dat2 V c).flushed 7 t = ((cfg2.win 7).blk t).view.read (Elt Ideal)
      (resOdd (V c main_arg1) (V c main_v8) (V c main_v1) (V c main_arg6) (V c main_v2)) := by
  show (cfg2.win 7).cut (grid2.coords t) ((dat2 V c).after 7 t) = _
  rw [after2_7]
  unfold out2_7
  rw [View.canon_unit_zero zero_offsets]
  simp only [View.ld_unit_zero (S := S200x10000) zero_offsets, View.ld_unit_zero (S := S10000x32) zero_offsets,
    View.ld_unit_zero (S := S1x32) zero_offsets, View.ld_unit_zero (S := S16x32) zero_offsets,
    View.ld_unit_zero (S := S1x16) zero_offsets]
  funext j
  obtain ⟨r, q, rfl⟩ : ∃ (r : Fin 200) (q : Fin 16), j = ix2 r q := ⟨j 0, j 1, eq_ix2 j⟩
  have ht : t.val < 25 := lt_of_lt_of_eq t.isLt N2_eq
  show k2_pay1 (F := Ideal) (k2_pay4 (F := Ideal) (iblk2 V c 2 t) (iblk2 V c 1 t) (iblk2 V c 3 t)) (iblk2 V c 4 t)
      (constant S200x16 .f32 0x00000000#32) (iblk2 V c 5 t) (ix2 r q)
    = resOdd (V c main_arg1) (V c main_v8) (V c main_v1) (V c main_arg6) (V c main_v2) (((cfg2.win 7).blk t).view.emb (ix2 r q))
  have e0 : ((((cfg2.win 7).blk t).view.emb (ix2 r q)) 0).val = 200 * t.val + r.val := by
    show win2_7.index t (0 : Fin 2) * 200 + 1 * r.val = _; rw [(idx_res_odd t).1]; omega
  have e1 : ((((cfg2.win 7).blk t).view.emb (ix2 r q)) 1).val = q.val := by
    show win2_7.index t (1 : Fin 2) * 16 + 1 * q.val = _; rw [(idx_res_odd t).2]; omega
  have hr : r.val < 200 := r.isLt
  rw [resOdd_apply (V c main_arg1) (V c main_v8) (V c main_v1) (V c main_arg6) (V c main_v2) _
    ⟨400 * t.val + 200 + r.val, by omega⟩ q (by rw [e0]; show 400 * t.val + 200 + r.val = _; omega) e1.symm]
  exact pay_odd_row (V c main_arg1) (V c main_v8) (V c main_v1) (V c main_arg6) (V c main_v2)
    (iblk2 V c 1 t) (iblk2 V c 2 t) (iblk2 V c 3 t) (iblk2 V c 4 t) (iblk2 V c 5 t) r ⟨400 * t.val + 200 + r.val, by omega⟩
    (fun l => blk_adj_odd V c t r l _ rfl) (blk_sup V c t) (blk_b2 V c t) (blk_wfc V c t) (blk_bfc V c t) q

/-- An index of a result array is in point t's block iff each coordinate is in the block's range on its axis. -/
theorem mem_blk_even (t : Fin cfg2.N) (i : S5000x16.Idx) :
    i ∈ ((cfg2.win 6).blk t).view.set ↔ ∀ a : Fin 2, win2_6.index t a * S200x16.size a ≤ (i a).val
      ∧ (i a).val < win2_6.index t a * S200x16.size a + S200x16.size a := by
  show i ∈ ((View.whole main_v9_0).slice (win2_6.rect t)).set ↔ _
  rw [View.set_slice_whole, Rect.mem_set_unit]
  exact Iff.rfl

theorem mem_blk_odd (t : Fin cfg2.N) (i : S5000x16.Idx) :
    i ∈ ((cfg2.win 7).blk t).view.set ↔ ∀ a : Fin 2, win2_7.index t a * S200x16.size a ≤ (i a).val
      ∧ (i a).val < win2_7.index t a * S200x16.size a + S200x16.size a := by
  show i ∈ ((View.whole main_v9_1).slice (win2_7.rect t)).set ↔ _
  rw [View.set_slice_whole, Rect.mem_set_unit]
  exact Iff.rfl

/-- Row n of a result array is in the block of point n / 200: the 25 blocks tile the array. -/
theorem cover_even (i : S5000x16.Idx) : ∃ t : Fin cfg2.N, (cfg2.win 6).flush t = true ∧ i ∈ ((cfg2.win 6).blk t).view.set := by
  have h0 : (i 0).val < 5000 := idx2_lt0 i
  have h1 : (i 1).val < 16 := idx2_lt1 i
  refine ⟨⟨(i 0).val / 200, by rw [N2_eq]; omega⟩, flush2_6 _, ?_⟩
  rw [mem_blk_even]
  intro a
  match a with
  | ⟨0, _⟩ =>
    show win2_6.index _ (0 : Fin 2) * 200 ≤ (i 0).val ∧ (i 0).val < win2_6.index _ (0 : Fin 2) * 200 + 200
    rw [(idx_res_even _).1]; show (i 0).val / 200 * 200 ≤ (i 0).val ∧ (i 0).val < (i 0).val / 200 * 200 + 200; omega
  | ⟨1, _⟩ =>
    show win2_6.index _ (1 : Fin 2) * 16 ≤ (i 1).val ∧ (i 1).val < win2_6.index _ (1 : Fin 2) * 16 + 16
    rw [(idx_res_even _).2]; omega

theorem cover_odd (i : S5000x16.Idx) : ∃ t : Fin cfg2.N, (cfg2.win 7).flush t = true ∧ i ∈ ((cfg2.win 7).blk t).view.set := by
  have h0 : (i 0).val < 5000 := idx2_lt0 i
  have h1 : (i 1).val < 16 := idx2_lt1 i
  refine ⟨⟨(i 0).val / 200, by rw [N2_eq]; omega⟩, flush2_7 _, ?_⟩
  rw [mem_blk_odd]
  intro a
  match a with
  | ⟨0, _⟩ =>
    show win2_7.index _ (0 : Fin 2) * 200 ≤ (i 0).val ∧ (i 0).val < win2_7.index _ (0 : Fin 2) * 200 + 200
    rw [(idx_res_odd _).1]; show (i 0).val / 200 * 200 ≤ (i 0).val ∧ (i 0).val < (i 0).val / 200 * 200 + 200; omega
  | ⟨1, _⟩ =>
    show win2_7.index _ (1 : Fin 2) * 16 ≤ (i 1).val ∧ (i 1).val < win2_7.index _ (1 : Fin 2) * 16 + 16
    rw [(idx_res_odd _).2]; omega

/-- So each result array ends holding its function of the arrays the call finds. -/
theorem arr_even : (dat2 V c).arrAt 6 cfg2.N
    = resEven (V c main_arg1) (V c main_v8) (V c main_v1) (V c main_arg6) (V c main_v2) :=
  (dat2 V c).arrAt_eq_of_cover 6 _ (fun t _ => flushed_even V c t) cover_even

theorem arr_odd : (dat2 V c).arrAt 7 cfg2.N
    = resOdd (V c main_arg1) (V c main_v8) (V c main_v1) (V c main_arg6) (V c main_v2) :=
  (dat2 V c).arrAt_eq_of_cover 7 _ (fun t _ => flushed_odd V c t) cover_odd

end Arrays2

/-! ## The formula is the specification's output row -/

/-- With the second support as the support operand and the biases as one-row matrices, the call's row formula is the
    specification's output. -/
theorem rowOut_spec (x : GcnSpec.Tx.Idx → EReal) (adj : GcnSpec.Tadj.Idx → EReal) (W1 : GcnSpec.TW1.Idx → EReal)
    (b1 : GcnSpec.Tb.Idx → EReal) (W2 : GcnSpec.TW2.Idx → EReal) (b2 : GcnSpec.Tb.Idx → EReal) (Wfc : GcnSpec.TWfc.Idx → EReal)
    (bfc : GcnSpec.Tbfc.Idx → EReal) (h : S32.ShapeCasts S1x32) (h' : S16.ShapeCasts S1x16) (p : Fin 10000) (q : Fin 16) :
    rowOut adj (GcnSpec.S2 x adj W1 b1 W2) (shapeCast S1x32 b2 h) Wfc (shapeCast S1x16 bfc h') p q
      = GcnSpec.out x adj W1 b1 W2 b2 Wfc bfc p q := by
  unfold rowOut GcnSpec.out GcnSpec.logit GcnSpec.h2
  simp only [GcnSpec.S2_ix2, shapeCast_a_1a_apply]

/-! ## The interleaving host stretch at an index -/

section Interleave

variable (A B : S5000x16.Idx → EReal) (h1 : S5000x16.ShapeCasts S25x200x16)
  (hc : Shape.Concatenates [S25x200x16, S25x200x16] S25x400x16 1) (h2 : S25x400x16.ShapeCasts S10000x16)

/-- Row n = 400 a + b with b < 200 of the interleaved array is row 200 a + b of the first array. -/
theorem interleave_first (p : Fin 10000) (q : Fin 16) (n : Fin 5000) (hlt : p.val % 400 < 200)
    (hn : n.val = 200 * (p.val / 400) + p.val % 400) :
    shapeCast S10000x16 (concatenate S25x400x16 1 [⟨S25x200x16, shapeCast S25x200x16 A h1⟩, ⟨S25x200x16, shapeCast S25x200x16 B h1⟩] hc) h2 (ix2 p q)
      = A (ix2 n q) := by
  have hp : p.val < 10000 := p.isLt
  refine (shapeCast_apply _ h2 (ix2 p q) (ix3 (⟨p.val / 400, by omega⟩ : Fin 25) (⟨p.val % 400, by omega⟩ : Fin 400) q) (by
    rw [Shape.rowMajor_val_three, Shape.rowMajor_val_two]
    show (p.val / 400 * 400 + p.val % 400) * 16 + q.val = p.val * 16 + q.val
    omega)).trans ?_
  refine (concatenate_pair_apply_left (t := S25x400x16) (s₁ := S25x200x16) (s₂ := S25x200x16) (1 : Fin 3)
    (shapeCast S25x200x16 A h1) (shapeCast S25x200x16 B h1) hc
    (ix3 (⟨p.val / 400, by omega⟩ : Fin 25) (⟨p.val % 400, by omega⟩ : Fin 400) q) rfl
    (ix3 (⟨p.val / 400, by omega⟩ : Fin 25) (⟨p.val % 400, hlt⟩ : Fin 200) q) (fun b => by
      match b with
      | ⟨0, _⟩ => rfl
      | ⟨1, _⟩ => rfl
      | ⟨2, _⟩ => rfl)).trans ?_
  refine shapeCast_apply A h1 _ (ix2 n q) ?_
  rw [Shape.rowMajor_val_three, Shape.rowMajor_val_two]
  show n.val * 16 + q.val = (p.val / 400 * 200 + p.val % 400) * 16 + q.val
  omega

/-- Row n = 400 a + b with 200 ≤ b of the interleaved array is row 200 a + b − 200 of the second array. -/
theorem interleave_second (p : Fin 10000) (q : Fin 16) (n : Fin 5000) (hge : 200 ≤ p.val % 400)
    (hn : n.val + 200 = 200 * (p.val / 400) + p.val % 400) :
    shapeCast S10000x16 (concatenate S25x400x16 1 [⟨S25x200x16, shapeCast S25x200x16 A h1⟩, ⟨S25x200x16, shapeCast S25x200x16 B h1⟩] hc) h2 (ix2 p q)
      = B (ix2 n q) := by
  have hp : p.val < 10000 := p.isLt
  refine (shapeCast_apply _ h2 (ix2 p q) (ix3 (⟨p.val / 400, by omega⟩ : Fin 25) (⟨p.val % 400, by omega⟩ : Fin 400) q) (by
    rw [Shape.rowMajor_val_three, Shape.rowMajor_val_two]
    show (p.val / 400 * 400 + p.val % 400) * 16 + q.val = p.val * 16 + q.val
    omega)).trans ?_
  refine (concatenate_pair_apply_right (t := S25x400x16) (s₁ := S25x200x16) (s₂ := S25x200x16) (1 : Fin 3)
    (shapeCast S25x200x16 A h1) (shapeCast S25x200x16 B h1) hc
    (ix3 (⟨p.val / 400, by omega⟩ : Fin 25) (⟨p.val % 400, by omega⟩ : Fin 400) q) rfl rfl
    (ix3 (⟨p.val / 400, by omega⟩ : Fin 25) (⟨p.val % 400 - 200, by omega⟩ : Fin 200) q) (fun b hb => by
      match b with
      | ⟨0, _⟩ => rfl
      | ⟨1, _⟩ => exact absurd rfl hb
      | ⟨2, _⟩ => rfl) (by
      show (p.val % 400 - 200) + 200 = p.val % 400
      omega)).trans ?_
  refine shapeCast_apply B h1 _ (ix2 n q) ?_
  rw [Shape.rowMajor_val_three, Shape.rowMajor_val_two]
  show n.val * 16 + q.val = (p.val / 400 * 200 + (p.val % 400 - 200)) * 16 + q.val
  omega

end Interleave

/-! ## The third call's operands, and its results, from the launch memory -/

section Main

variable (m : (ℓ : Loc nD τ sig) → Buf (Elt Ideal) ℓ) (c : Dev nD)

/-- The second bias as the call reads it: the argument as a one-row matrix (written before the first call, by nothing after). -/
theorem entry_b2 : (W4 (F := Ideal) m c main_v1 : S1x32.Idx → EReal)
    = shapeCast S1x32 (m ((c : Thread nD τ).loc main_arg5) : S32.Idx → EReal) shapeCasts_S32_S1x32 := by
  rw [W4_of m c main_v1 (by decide), W3_of m c main_v1 (by decide), W2_of m c main_v1 (by decide)]
  show StableHlo.after hostOps0 _ (Proc.devRef .tc main_v1) = _
  after_results
  rfl

/-- The classifier's bias likewise. -/
theorem entry_bfc : (W4 (F := Ideal) m c main_v2 : S1x16.Idx → EReal)
    = shapeCast S1x16 (m ((c : Thread nD τ).loc main_arg7) : S16.Idx → EReal) shapeCasts_S16_S1x16 := by
  rw [W4_of m c main_v2 (by decide), W3_of m c main_v2 (by decide), W2_of m c main_v2 (by decide)]
  show StableHlo.after hostOps0 _ (Proc.devRef .tc main_v2) = _
  after_results
  rfl

/-- The adjacency and the classifier's weight are arguments no step writes. -/
theorem entry_adj : (W4 (F := Ideal) m c main_arg1 : S10000x10000.Idx → EReal) = m ((c : Thread nD τ).loc main_arg1) :=
  W4_arg m c main_arg1 (by decide) (by decide) (by decide) (by decide)
theorem entry_wfc : (W4 (F := Ideal) m c main_arg6 : S16x32.Idx → EReal) = m ((c : Thread nD τ).loc main_arg6) :=
  W4_arg m c main_arg6 (by decide) (by decide) (by decide) (by decide)

/-- The specification's row formula at the launch memory's arrays. -/
abbrev specRow (p : Fin 10000) (q : Fin 16) : EReal :=
  GcnSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) p q

/-- The first result array at row n is the specification's output at adjacency row n + 200 (n / 200). -/
theorem res_even_spec (n : Fin 5000) (q : Fin 16) (p : Fin 10000) (hp : p.val = n.val + 200 * (n.val / 200)) :
    (o9_0 (F := Ideal) m c : S5000x16.Idx → EReal) (ix2 n q) = specRow m c p q := by
  have e := arr_even (U4 (F := Ideal) m) c
  have ea : U4 (F := Ideal) m c main_arg1 = m ((c : Thread nD τ).loc main_arg1) := entry_adj m c
  have es : U4 (F := Ideal) m c main_v8 = _ := val_s2 m c
  have eb : U4 (F := Ideal) m c main_v1 = _ := entry_b2 m c
  have ew : U4 (F := Ideal) m c main_arg6 = m ((c : Thread nD τ).loc main_arg6) := entry_wfc m c
  have ef : U4 (F := Ideal) m c main_v2 = _ := entry_bfc m c
  rw [ea, es, eb, ew, ef] at e
  refine (congrFun e (ix2 n q)).trans ?_
  refine (resEven_apply _ _ _ _ _ (ix2 n q) p q hp rfl).trans ?_
  exact rowOut_spec _ _ _ _ _ _ _ _ _ _ p q

/-- The second at adjacency row n + 200 (n / 200) + 200. -/
theorem res_odd_spec (n : Fin 5000) (q : Fin 16) (p : Fin 10000) (hp : p.val = n.val + 200 * (n.val / 200) + 200) :
    (o9_1 (F := Ideal) m c : S5000x16.Idx → EReal) (ix2 n q) = specRow m c p q := by
  have e := arr_odd (U4 (F := Ideal) m) c
  have ea : U4 (F := Ideal) m c main_arg1 = m ((c : Thread nD τ).loc main_arg1) := entry_adj m c
  have es : U4 (F := Ideal) m c main_v8 = _ := val_s2 m c
  have eb : U4 (F := Ideal) m c main_v1 = _ := entry_b2 m c
  have ew : U4 (F := Ideal) m c main_arg6 = m ((c : Thread nD τ).loc main_arg6) := entry_wfc m c
  have ef : U4 (F := Ideal) m c main_v2 = _ := entry_bfc m c
  rw [ea, es, eb, ew, ef] at e
  refine (congrFun e (ix2 n q)).trans ?_
  refine (resOdd_apply _ _ _ _ _ (ix2 n q) p q hp rfl).trans ?_
  exact rowOut_spec _ _ _ _ _ _ _ _ _ _ p q

/-- The returned array is the two result arrays interleaved. -/
theorem returned_eq : (W6 (F := Ideal) m c main_v13 : S10000x16.Idx → EReal)
    = shapeCast S10000x16 (concatenate S25x400x16 1
        [⟨S25x200x16, shapeCast S25x200x16 (o9_0 (F := Ideal) m c : S5000x16.Idx → EReal) shapeCasts_S5000x16_S25x200x16⟩,
         ⟨S25x200x16, shapeCast S25x200x16 (o9_1 (F := Ideal) m c : S5000x16.Idx → EReal) shapeCasts_S5000x16_S25x200x16⟩]
        concatenates_S25x200x16_S25x200x16_S25x400x16_d1) shapeCasts_S25x400x16_S10000x16 := by
  rw [← W5_v9_0 m c, ← W5_v9_1 m c]
  show StableHlo.after hostOps3 _ (Proc.devRef .tc main_v13) = _
  after_results
  rfl

end Main

variable (m : (ℓ : Loc nD τ sig) → Buf (Elt Ideal) ℓ) (c : Dev nD)

/-- The returned array is the specification's output of the eight arguments. -/
theorem val_out : W6 (F := Ideal) m c main_v13
    = GcnSpec.OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  funext i
  obtain ⟨p, q, rfl⟩ : ∃ (p : Fin 10000) (q : Fin 16), i = ix2 p q := ⟨i 0, i 1, eq_ix2 i⟩
  have hp : p.val < 10000 := p.isLt
  show (W6 (F := Ideal) m c main_v13 : S10000x16.Idx → EReal) (ix2 p q) = specRow m c p q
  refine (congrFun (returned_eq m c) (ix2 p q)).trans ?_
  by_cases h : p.val % 400 < 200
  · -- adjacency row p = 400 a + b, b < 200: row 200 a + b of the first result array
    refine (interleave_first _ _ _ _ _ p q ⟨200 * (p.val / 400) + p.val % 400, by omega⟩ h rfl).trans ?_
    exact res_even_spec m c _ q p (by
      show p.val = (200 * (p.val / 400) + p.val % 400) + 200 * ((200 * (p.val / 400) + p.val % 400) / 200)
      omega)
  · -- 200 ≤ b: row 200 a + b − 200 of the second
    refine (interleave_second _ _ _ _ _ p q ⟨200 * (p.val / 400) + p.val % 400 - 200, by omega⟩ (by omega) (by
      show (200 * (p.val / 400) + p.val % 400 - 200) + 200 = _
      omega)).trans ?_
    exact res_odd_spec m c _ q p (by
      show p.val = (200 * (p.val / 400) + p.val % 400 - 200) + 200 * ((200 * (p.val / 400) + p.val % 400 - 200) / 200) + 200
      omega)

end Cert.KernelIdeal.Val

end
-- ==== Proof.RefSide.lean ====
/-
  The reference's result is the graph-convolution network's function of its eight arguments.

  The reference is read one operation at a time, each at an index given by its coordinates:
  • a matrix product at (p, q) is the sum, over the contracted coordinate k, of the left factor at (p, k) times the
    right factor at (k, q);
  • a bias [n], broadcast to [1, n] and then to [a, n], reads at (p, k) the bias at k alone;
  • the clamp at zero is the maximum with the zero constant, broadcast from rank 0;
  • the transposed classifier weight reads at (k, j) the weight at (j, k), so the last product contracts the second
    layer's row p against ROW j of the weight;
  • the row maximum at p is max folded from −∞ over the sixteen logits of row p; its maximum with −∞ once more is the
    fold itself; kept as a column and broadcast back over the row it is read, at (p, j), at p;
  • the row sum at p is the zero constant plus the sum over the sixteen exponentials of row p's shifted logits; its
    logarithm, as a column broadcast back over the row, is read at p.
  Chained bottom-up these are GcnSpec's s1, h1, s2, h2, logit and the log-softmax of a row at a class.
-/
import proofs.«141518_g91104846282943_cont_sun_m_1213_12_alg».proof.Proof.RefRead
import proofs.«141518_g91104846282943_cont_sun_m_1213_12_alg».proof.Proof.GcnSpec
import proofs.«141518_g91104846282943_cont_sun_m_1213_12_alg».proof.Proof.LibRowOps

noncomputable section

namespace Cert.ReferenceIdeal.RefVal

open Cert.ReferenceIdeal Cert.ReferenceIdeal.Gen Idealize.ShloMosaic Idealize.ShloMosaic.TcCoe Idealize.SL.Sem
  Idealize.ShloMosaic.StableHlo Idealize.ShloMosaic.ValueIdx
open Cert.ReferenceIdeal.ReadP GcnSpec

variable (x : Tx.Idx → EReal) (adj : Tadj.Idx → EReal) (W1 : TW1.Idx → EReal) (b1 : Tb.Idx → EReal)
  (W2 : TW2.Idx → EReal) (b2 : Tb.Idx → EReal) (Wfc : TWfc.Idx → EReal) (bfc : Tbfc.Idx → EReal)

/-! ## The index functions of the stages, at coordinates -/

theorem lidx_v0 (p : Fin 10000) (q : Fin 32) (k : Fin 128) : lidx_main_v0 (ix2 p q) k = ix2 p k := funext fun a => Fin.ext (by match a with | ⟨0, _⟩ => rfl | ⟨1, _⟩ => rfl)
theorem ridx_v0 (p : Fin 10000) (q : Fin 32) (k : Fin 128) : ridx_main_v0 (ix2 p q) k = ix2 k q := funext fun a => Fin.ext (by match a with | ⟨0, _⟩ => rfl | ⟨1, _⟩ => rfl)
theorem lidx_v1 (p : Fin 10000) (q : Fin 32) (l : Fin 10000) : lidx_main_v1 (ix2 p q) l = ix2 p l := funext fun a => Fin.ext (by match a with | ⟨0, _⟩ => rfl | ⟨1, _⟩ => rfl)
theorem ridx_v1 (p : Fin 10000) (q : Fin 32) (l : Fin 10000) : ridx_main_v1 (ix2 p q) l = ix2 l q := funext fun a => Fin.ext (by match a with | ⟨0, _⟩ => rfl | ⟨1, _⟩ => rfl)
theorem lidx_v6 (p : Fin 10000) (q : Fin 32) (k : Fin 32) : lidx_main_v6 (ix2 p q) k = ix2 p k := funext fun a => Fin.ext (by match a with | ⟨0, _⟩ => rfl | ⟨1, _⟩ => rfl)
theorem ridx_v6 (p : Fin 10000) (q : Fin 32) (k : Fin 32) : ridx_main_v6 (ix2 p q) k = ix2 k q := funext fun a => Fin.ext (by match a with | ⟨0, _⟩ => rfl | ⟨1, _⟩ => rfl)
theorem lidx_v7 (p : Fin 10000) (q : Fin 32) (l : Fin 10000) : lidx_main_v7 (ix2 p q) l = ix2 p l := funext fun a => Fin.ext (by match a with | ⟨0, _⟩ => rfl | ⟨1, _⟩ => rfl)
theorem ridx_v7 (p : Fin 10000) (q : Fin 32) (l : Fin 10000) : ridx_main_v7 (ix2 p q) l = ix2 l q := funext fun a => Fin.ext (by match a with | ⟨0, _⟩ => rfl | ⟨1, _⟩ => rfl)
theorem lidx_v12 (p : Fin 10000) (j : Fin 16) (k : Fin 32) : lidx_main_v12 (ix2 p j) k = ix2 p k := funext fun a => Fin.ext (by match a with | ⟨0, _⟩ => rfl | ⟨1, _⟩ => rfl)
theorem ridx_v12 (p : Fin 10000) (j : Fin 16) (k : Fin 32) : ridx_main_v12 (ix2 p j) k = ix2 k j := funext fun a => Fin.ext (by match a with | ⟨0, _⟩ => rfl | ⟨1, _⟩ => rfl)
theorem idx_v11 (k : Fin 32) (j : Fin 16) : idx_main_v11 (ix2 k j) = ix2 j k := funext fun a => Fin.ext (by match a with | ⟨0, _⟩ => rfl | ⟨1, _⟩ => rfl)
theorem idx_v3 (p : Fin 10000) (k : Fin 32) : idx_main_v2 (idx_main_v3 (ix2 p k)) = ix1 k := funext fun a => Fin.ext (by match a with | ⟨0, _⟩ => rfl)
theorem idx_v9 (p : Fin 10000) (k : Fin 32) : idx_main_v8 (idx_main_v9 (ix2 p k)) = ix1 k := funext fun a => Fin.ext (by match a with | ⟨0, _⟩ => rfl)
theorem idx_v14 (p : Fin 10000) (j : Fin 16) : idx_main_v13 (idx_main_v14 (ix2 p j)) = ix1 j := funext fun a => Fin.ext (by match a with | ⟨0, _⟩ => rfl)
theorem idx_c4 (p : Fin 10000) (j : Fin 16) : idx_main_call1_v3 (idx_main_call1_v4 (ix2 p j)) = ix1 p := funext fun a => Fin.ext (by match a with | ⟨0, _⟩ => rfl)
theorem idx_c10 (p : Fin 10000) (j : Fin 16) : idx_main_call1_v8 (idx_main_call1_v10 (ix2 p j)) = ix1 p := funext fun a => Fin.ext (by match a with | ⟨0, _⟩ => rfl)
theorem idx_c7 (p : Fin 10000) (j : Fin 16) : idx_main_call1_v7 (ix1 p) j = ix2 p j := funext fun a => Fin.ext (by match a with | ⟨0, _⟩ => rfl | ⟨1, _⟩ => rfl)

/-! ## The first layer -/

/-- x · W1 at (p, q) is the first support. -/
theorem v0_at (p : Fin 10000) (q : Fin 32) : val_main_v0 (F := Ideal) x W1 (ix2 p q) = s1 x W1 p q := by
  rw [val_main_v0_apply]
  exact Finset.sum_congr rfl fun k _ => by rw [lidx_v0, ridx_v0]

/-- adj · (x · W1) at (p, k): row p of the adjacency against column k of the first support. -/
theorem v1_at (p : Fin 10000) (k : Fin 32) :
    val_main_v1 (F := Ideal) x adj W1 (ix2 p k) = ∑ l : Fin 10000, adj (ix2 p l) * s1 x W1 l k := by
  rw [val_main_v1_apply]
  exact Finset.sum_congr rfl fun l _ => by rw [lidx_v1, ridx_v1, v0_at]

/-- The first bias, broadcast over the rows, at (p, k) is the bias at k. -/
theorem v3_at (p : Fin 10000) (k : Fin 32) : val_main_v3 (F := Ideal) b1 (ix2 p k) = b1 (ix1 k) := by
  rw [val_main_v3_apply, val_main_v2_apply, idx_v3]

/-- The first layer at (p, k): the sum, the bias added, clamped at zero. -/
theorem v5_at (p : Fin 10000) (k : Fin 32) : val_main_v5 (F := Ideal) x adj W1 b1 (ix2 p k) = h1 x adj W1 b1 p k := by
  rw [val_main_v5_apply, val_main_v4_apply, v1_at, v3_at, val_main_call0_v0_apply, val_main_call0_cst_apply]
  simp only [Ideal.maximumf_def, Ideal.addf_def, Ideal.ofBits_def, Ideal.ofBits_zero_f32]
  rfl

/-! ## The second layer -/

/-- h1 · W2 at (p, q) is the second support. -/
theorem v6_at (p : Fin 10000) (q : Fin 32) : val_main_v6 (F := Ideal) x adj W1 b1 W2 (ix2 p q) = s2 x adj W1 b1 W2 p q := by
  rw [val_main_v6_apply]
  exact Finset.sum_congr rfl fun k _ => by rw [lidx_v6, ridx_v6, v5_at]

/-- adj · (h1 · W2) at (p, k): row p of the adjacency against column k of the second support. -/
theorem v7_at (p : Fin 10000) (k : Fin 32) :
    val_main_v7 (F := Ideal) x adj W1 b1 W2 (ix2 p k) = ∑ l : Fin 10000, adj (ix2 p l) * s2 x adj W1 b1 W2 l k := by
  rw [val_main_v7_apply]
  exact Finset.sum_congr rfl fun l _ => by rw [lidx_v7, ridx_v7, v6_at]

/-- The second bias, broadcast over the rows, at (p, k) is the bias at k. -/
theorem v9_at (p : Fin 10000) (k : Fin 32) : val_main_v9 (F := Ideal) b2 (ix2 p k) = b2 (ix1 k) := by
  rw [val_main_v9_apply, val_main_v8_apply, idx_v9]

/-- The second layer at (p, k). -/
theorem v10_at (p : Fin 10000) (k : Fin 32) : val_main_v10 (F := Ideal) x adj W1 b1 W2 b2 (ix2 p k) = h2 x adj W1 b1 W2 b2 p k := by
  rw [val_main_v10_apply, v7_at, v9_at]
  simp only [Ideal.addf_def]
  rfl

/-! ## The classifier -/

/-- The transposed weight at (k, j) is the weight at (j, k). -/
theorem v11_at (k : Fin 32) (j : Fin 16) : val_main_v11 (F := Ideal) Wfc (ix2 k j) = Wfc (ix2 j k) := by
  rw [val_main_v11_apply, idx_v11]

/-- h2 · Wfcᵀ at (p, j): row p of the second layer against row j of the weight. -/
theorem v12_at (p : Fin 10000) (j : Fin 16) :
    val_main_v12 (F := Ideal) x adj W1 b1 W2 b2 Wfc (ix2 p j) = ∑ k : Fin 32, h2 x adj W1 b1 W2 b2 p k * Wfc (ix2 j k) := by
  rw [val_main_v12_apply]
  exact Finset.sum_congr rfl fun k _ => by rw [lidx_v12, ridx_v12, v10_at, v11_at]

/-- The classifier's bias, broadcast over the rows, at (p, j) is the bias at j. -/
theorem v14_at (p : Fin 10000) (j : Fin 16) : val_main_v14 (F := Ideal) bfc (ix2 p j) = bfc (ix1 j) := by
  rw [val_main_v14_apply, val_main_v13_apply, idx_v14]

/-- The logits at (p, j). -/
theorem v15_at (p : Fin 10000) (j : Fin 16) : val_main_v15 (F := Ideal) x adj W1 b1 W2 b2 Wfc bfc (ix2 p j) = logit x adj W1 b1 W2 b2 Wfc bfc p j := by
  rw [val_main_v15_apply, v12_at, v14_at]
  simp only [Ideal.addf_def]
  rfl

/-! ## The log-softmax of a row -/

/-- Row p's maximum: max folded from −∞ over the row's sixteen logits. -/
abbrev rmax (p : Fin 10000) : EReal :=
  (Finset.univ : Finset (Fin 16)).fold max (Ideal.ofBits .f32 0xFF800000#32) (fun j => logit x adj W1 b1 W2 b2 Wfc bfc p j)

/-- The max-reduction along the rows, at p, is that fold. -/
theorem c0_at (p : Fin 10000) : val_main_call1_v0 (F := Ideal) x adj W1 b1 W2 b2 Wfc bfc (ix1 p) = rmax x adj W1 b1 W2 b2 Wfc bfc p := by
  unfold val_main_call1_v0
  refine (RowOps.hostReduce_max_row (φ := .f32) (val_main_v15 (F := Ideal) x adj W1 b1 W2 b2 Wfc bfc) (val_main_call1_cst (F := Ideal))
    reducesTo_S10000x16_S10000_d1 (by decide) h_S_ p).trans ?_
  exact congrArg₂ (fun c f => (Finset.univ : Finset (Fin 16)).fold max c f)
    (val_main_call1_cst_apply (F := Ideal) _) (funext fun j => v15_at x adj W1 b1 W2 b2 Wfc bfc p j)

/-- The maximum of −∞ and the row's maximum is the row's maximum. -/
theorem c2_at (p : Fin 10000) : val_main_call1_v2 (F := Ideal) x adj W1 b1 W2 b2 Wfc bfc (ix1 p) = rmax x adj W1 b1 W2 b2 Wfc bfc p := by
  rw [val_main_call1_v2_apply, val_main_call1_v1_apply, val_main_call1_cst_0_apply, c0_at]
  simp only [Ideal.maximumf_def, Ideal.ofBits_def]
  exact RowOps.max_fold_max_self _ _ _

/-- The row's maximum, as a column broadcast back over the row, at (p, j). -/
theorem c4_at (p : Fin 10000) (j : Fin 16) : val_main_call1_v4 (F := Ideal) x adj W1 b1 W2 b2 Wfc bfc (ix2 p j) = rmax x adj W1 b1 W2 b2 Wfc bfc p := by
  rw [val_main_call1_v4_apply, val_main_call1_v3_apply, idx_c4, c2_at]

/-- The shifted logit at (p, j). -/
theorem c5_at (p : Fin 10000) (j : Fin 16) :
    val_main_call1_v5 (F := Ideal) x adj W1 b1 W2 b2 Wfc bfc (ix2 p j) = logit x adj W1 b1 W2 b2 Wfc bfc p j - rmax x adj W1 b1 W2 b2 Wfc bfc p := by
  rw [val_main_call1_v5_apply, v15_at, c4_at]
  rfl

/-- The exponential of the shifted logit at (p, j). -/
theorem c6_at (p : Fin 10000) (j : Fin 16) :
    val_main_call1_v6 (F := Ideal) x adj W1 b1 W2 b2 Wfc bfc (ix2 p j) = Ideal.exp (logit x adj W1 b1 W2 b2 Wfc bfc p j - rmax x adj W1 b1 W2 b2 Wfc bfc p) := by
  rw [val_main_call1_v6_apply, c5_at]
  rfl

/-- The sum of the row's exponentials at p: the zero constant adds nothing. -/
theorem c7_at (p : Fin 10000) :
    val_main_call1_v7 (F := Ideal) x adj W1 b1 W2 b2 Wfc bfc (ix1 p) = ∑ j' : Fin 16, Ideal.exp (logit x adj W1 b1 W2 b2 Wfc bfc p j' - rmax x adj W1 b1 W2 b2 Wfc bfc p) := by
  rw [val_main_call1_v7_apply, val_main_call1_cst_1_apply]
  simp only [Ideal.ofBits_def, Ideal.ofBits_zero_f32, zero_add]
  exact Finset.sum_congr rfl fun j' _ => by rw [idx_c7, c6_at]

/-- The logarithm of the row's sum, as a column broadcast back over the row, at (p, j). -/
theorem c10_at (p : Fin 10000) (j : Fin 16) :
    val_main_call1_v10 (F := Ideal) x adj W1 b1 W2 b2 Wfc bfc (ix2 p j)
      = Ideal.log (∑ j' : Fin 16, Ideal.exp (logit x adj W1 b1 W2 b2 Wfc bfc p j' - rmax x adj W1 b1 W2 b2 Wfc bfc p)) := by
  rw [val_main_call1_v10_apply, val_main_call1_v9_apply, val_main_call1_v8_apply, idx_c10, c7_at]
  rfl

/-- The result at (p, j) is the log-softmax of row p's logits at class j. -/
theorem v16_at (p : Fin 10000) (j : Fin 16) : val_main_v16 (F := Ideal) x adj W1 b1 W2 b2 Wfc bfc (ix2 p j) = out x adj W1 b1 W2 b2 Wfc bfc p j := by
  rw [val_main_v16_apply, c5_at, c10_at]
  rfl

/-! ## The result array and the run -/

/-- The last stage, as an array, is the specification's result array. -/
theorem result_eq' : val_main_v16 (F := Ideal) x adj W1 b1 W2 b2 Wfc bfc = OUT x adj W1 b1 W2 b2 Wfc bfc := by
  funext i
  obtain ⟨p, j, rfl⟩ : ∃ (p : Fin 10000) (j : Fin 16), i = ix2 p j := ⟨i 0, i 1, eq_ix2 i⟩
  exact v16_at x adj W1 b1 W2 b2 Wfc bfc p j

/-- The run's result term is the specification's result array of the launch contents of the eight arguments. -/
theorem result_eq (m : (ℓ : Loc nD τ sig) → Buf (Elt Ideal) ℓ) (c : Dev nD) :
    ValueP.res_main_v16 (F := Ideal) m c = GcnSpec.OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (val_main_v16_eq (F := Ideal) m c).trans (result_eq' _ _ _ _ _ _ _ _)

/-- On every device, from any memory with zero counters, every weakly fair execution of the reference terminates with
    its result at the specification's function of the arguments' launch contents, the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v16) = GcnSpec.OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => ⟨(h c).1.trans (result_eq m c), (h c).2⟩) (ValueP.run (F := Ideal) m ρ)

end Cert.ReferenceIdeal.RefVal

end
-- ==== Proof.lean ====
/-
  The certificate of a two-layer graph-convolution network with a log-softmax,
      out = log_softmax((adj · relu(adj · (x · W1) + b1) · W2 + b2) · Wfcᵀ + bfc),
  computed by three pallas_calls (x · W1 whole; then, twice, a grid of 25 points each handling two 200-row blocks of the
  adjacency through two windows over the one array, the two result arrays interleaved back by reshapes and a
  concatenate), against the plain jnp reference.

  The frames of the two kernel programs are one argument read in two namespaces (Proof/FrRun.lean and its copy): @main as
  six items — three host stretches and three calls — over the unscoped buffers' contents at each boundary; each call's
  body run symbolically on its staging buffers; the adjacency's buffer dealt to its two windows at half shares. The
  reference's frame is its run with the result dropped. The idealization rewrote nothing, so `preserves` is `True`.
  For the value claim both programs end at ONE function of the eight arguments, `GcnSpec.OUT` (Proof/GcnSpec.lean): the
  kernel's by reading each call's write-backs as a whole-array function and the host stretches index by index
  (Proof/ValA.lean, Proof/ValB.lean over Proof/ValPay.lean), the reference's by reading its operations one at a time
  (Proof/RefSide.lean). The two programs group the matrix products alike, so no algebraic law beyond reindexing a
  finite sum is used and the precondition is never opened.
-/
import proofs.«141518_g91104846282943_cont_sun_m_1213_12_alg».proof.Defs
import proofs.«141518_g91104846282943_cont_sun_m_1213_12_alg».proof.Proof.Gen.Kernel
import proofs.«141518_g91104846282943_cont_sun_m_1213_12_alg».proof.Proof.Gen.KernelIdeal
import proofs.«141518_g91104846282943_cont_sun_m_1213_12_alg».proof.Proof.Gen.ReferenceIdeal
import proofs.«141518_g91104846282943_cont_sun_m_1213_12_alg».proof.Proof.Gen.Pre_finite_inputs
import proofs.«141518_g91104846282943_cont_sun_m_1213_12_alg».proof.Proof.FrRun
import proofs.«141518_g91104846282943_cont_sun_m_1213_12_alg».proof.Proof.KFrRun
import proofs.«141518_g91104846282943_cont_sun_m_1213_12_alg».proof.Proof.ValB
import proofs.«141518_g91104846282943_cont_sun_m_1213_12_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Fr.frame_args (F := Bits) m ρ

/-- So does the idealized program. -/
theorem frame_ki : Cert.frame_KernelIdeal := fun m ρ _ => Cert.KernelIdeal.Fr.frame_args (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefVal.ref_run m ρ)

/-- From memories that agree on the eight arguments both idealized programs end with the specification's output of
    those arguments in their result arrays. -/
theorem algebraic : Cert.algebraic_KernelIdeal_ReferenceIdeal := by
  intro m ρ m' ρ' _ hagree
  refine ⟨fun c => GcnSpec.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Val.val_out m c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.RefVal.ref_run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
